-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v120)) (v1 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S_ : Shape := ⟨0, ![]⟩
abbrev S800000 : Shape := ⟨1, ![800000]⟩
abbrev S50000 : Shape := ⟨1, ![50000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  reducesTo_S_S_d : S_.ReducesTo [] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg9 : IVec S50000 32) (main_v32 : IVec S_ 1) (main_c_12 : IVec S_ 32) : IVec S_ 1 :=
  let main_v33 : IVec S50000 32 := broadcastInDim S50000 ![] bcast_S_S50000 main_c_12
  let main_v34 : IVec S50000 1 := cmpi .sge main_arg9 main_v33
  let main_c_13 : IVec S_ 32 := constantI S_ 32 64#32
  let main_v35 : IVec S50000 32 := broadcastInDim S50000 ![] bcast_S_S50000 main_c_13
  let main_v36 : IVec S50000 1 := cmpi .slt main_arg9 main_v35
  let main_v37 : IVec S50000 1 := andi main_v34 main_v36
  let main_c_14 : IVec S_ 1 := constantI S_ 1 1#1
  let main_v38 : IVec S_ 1 := (fun x v => Host.reduce IntOp.andi x v reducesTo_S50000_S_d0 h_S_) main_v37 main_c_14
  let main_v39 : IVec S_ 1 := andi main_v32 main_v38
  main_v39

def fn_part1 {F : FTy → Type} [FloatOps F] (main_arg4 : FVec F S256 .f32) (main_arg5 : FVec F S256x256 .f32) (main_arg6 : FVec F S_ .f32) (main_arg9 : IVec S50000 32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S_ .f32 := Host.absf main_arg6
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  let main_c_12 : IVec S_ 32 := constantI S_ 32 0#32
  fn_part2 (F := F) main_arg9 main_v32 main_c_12

def fn {F : FTy → Type} [FloatOps F] (main_arg0 : FVec F S50000x128 .f32) (main_arg1 : FVec F S128x256 .f32) (main_arg2 : FVec F S256 .f32) (main_arg3 : FVec F S256x256 .f32) (main_arg4 : FVec F S256 .f32) (main_arg5 : FVec F S256x256 .f32) (main_arg6 : FVec F S_ .f32) (main_arg7 : IVec S800000 32) (main_arg8 : IVec S800000 32) (main_arg9 : IVec S50000 32) (main_arg10 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg9 main_v13 main_v16
-- ==== Kernel.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S_ : Shape := ⟨0, ![]⟩
abbrev S800000 : Shape := ⟨1, ![800000]⟩
abbrev S50000 : Shape := ⟨1, ![50000]⟩
abbrev S800000x1 : Shape := ⟨2, ![800000, 1]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S2000x1 : Shape := ⟨2, ![2000, 1]⟩
abbrev S64x256 : Shape := ⟨2, ![64, 256]⟩
abbrev S64 : Shape := ⟨1, ![64]⟩
abbrev S64x1 : Shape := ⟨2, ![64, 1]⟩
abbrev S1x1 : Shape := ⟨2, ![1, 1]⟩
abbrev S2000x64 : Shape := ⟨2, ![2000, 64]⟩
abbrev S2000 : Shape := ⟨1, ![2000]⟩
abbrev S100000 : Shape := ⟨1, ![100000]⟩

abbrev nBuf : Space → Nat
  | .hbm => 165
  | .vmem => 64
  | .smem => 0
  | _ => 0

abbrev hbmTy0_0 (i : Nat) : BufTy := match i % 128 with
  | 0 => ⟨S50000x128, .f32⟩
  | 1 => ⟨S128x256, .f32⟩
  | 2 => ⟨S256, .f32⟩
  | 3 => ⟨S256x256, .f32⟩
  | 4 => ⟨S256, .f32⟩
  | 5 => ⟨S256x256, .f32⟩
  | 6 => ⟨S_, .f32⟩
  | 7 => ⟨S800000, .i32⟩
  | 8 => ⟨S800000, .i32⟩
  | 9 => ⟨S50000, .i32⟩
  | 10 => ⟨S50000, .i32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .f32⟩
  | 20 => ⟨S_, .f32⟩
  | 21 => ⟨S50000, .f32⟩
  | 22 => ⟨S50000, .f32⟩
  | 23 => ⟨S50000, .f32⟩
  | 24 => ⟨S50000x1, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000, .f32⟩
  | 44 => ⟨S1x256, .f32⟩
  | 45 => ⟨S1x256, .f32⟩
  | 46 => ⟨S50000x256, .f32⟩
  | 47 => ⟨S50000x256, .bf16⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x256, .bf16⟩
  | 57 => ⟨S800000x256, .f32⟩
  | 58 => ⟨S800000x1, .f32⟩
  | 59 => ⟨S800000x256, .f32⟩
  | 60 => ⟨S800000x256, .f32⟩
  | 61 => ⟨S_, .f32⟩
  | 62 => ⟨S50000x256, .f32⟩
  | 63 => ⟨S800000x1, .i32⟩
  | 64 => ⟨S50000x256, .f32⟩
  | 65 => ⟨S50000x256, .f32⟩
  | 66 => ⟨S50000x256, .bf16⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x256, .bf16⟩
  | 76 => ⟨S800000x256, .f32⟩
  | 77 => ⟨S800000x1, .f32⟩
  | 78 => ⟨S800000x256, .f32⟩
  | 79 => ⟨S800000x256, .f32⟩
  | 80 => ⟨S_, .f32⟩
  | 81 => ⟨S50000x256, .f32⟩
  | 82 => ⟨S800000x1, .i32⟩
  | 83 => ⟨S50000x256, .f32⟩
  | 84 => ⟨S50000x256, .f32⟩
  | 85 => ⟨S_, .f32⟩
  | 86 => ⟨S50000, .f32⟩
  | 87 => ⟨S_, .f32⟩
  | 88 => ⟨S64x256, .f32⟩
  | 89 => ⟨S50000x1, .i32⟩
  | 90 => ⟨S64x256, .f32⟩
  | 91 => ⟨S_, .f32⟩
  | 92 => ⟨S64, .f32⟩
  | 93 => ⟨S50000x1, .i32⟩
  | 94 => ⟨S64, .f32⟩
  | 95 => ⟨S_, .f32⟩
  | 96 => ⟨S64, .f32⟩
  | 97 => ⟨S64, .f32⟩
  | 98 => ⟨S64x1, .f32⟩
  | 99 => ⟨S64x256, .f32⟩
  | 100 => ⟨S64x256, .f32⟩
  | 101 => ⟨S64x256, .f32⟩
  | 102 => ⟨S64x256, .f32⟩
  | 103 => ⟨S_, .f32⟩
  | 104 => ⟨S64x256, .f32⟩
  | 105 => ⟨S64x256, .f32⟩
  | 106 => ⟨S_, .f32⟩
  | 107 => ⟨S64x256, .f32⟩
  | 108 => ⟨S64x256, .f32⟩
  | 109 => ⟨S_, .i32⟩
  | 110 => ⟨S50000, .i32⟩
  | 111 => ⟨S50000, .i1⟩
  | 112 => ⟨S_, .i32⟩
  | 113 => ⟨S50000, .i32⟩
  | 114 => ⟨S50000, .i32⟩
  | 115 => ⟨S50000, .i32⟩
  | 116 => ⟨S50000x1, .i32⟩
  | 117 => ⟨S50000x128, .f32⟩
  | 118 => ⟨S50000x256, .f32⟩
  | 119 => ⟨S50000x256, .bf16⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_1 (i : Nat) : BufTy := match i % 128 with
  | 0 => ⟨S800000x256, .bf16⟩
  | 1 => ⟨S800000x256, .f32⟩
  | 2 => ⟨S800000x1, .f32⟩
  | 3 => ⟨S800000x256, .f32⟩
  | 4 => ⟨S800000x256, .f32⟩
  | 5 => ⟨S_, .f32⟩
  | 6 => ⟨S50000x256, .f32⟩
  | 7 => ⟨S800000x1, .i32⟩
  | 8 => ⟨S50000x256, .f32⟩
  | 9 => ⟨S50000x256, .f32⟩
  | 10 => ⟨S50000x256, .bf16⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x256, .bf16⟩
  | 20 => ⟨S800000x256, .f32⟩
  | 21 => ⟨S800000x1, .f32⟩
  | 22 => ⟨S800000x256, .f32⟩
  | 23 => ⟨S800000x256, .f32⟩
  | 24 => ⟨S_, .f32⟩
  | 25 => ⟨S50000x256, .f32⟩
  | 26 => ⟨S800000x1, .i32⟩
  | 27 => ⟨S50000x256, .f32⟩
  | 28 => ⟨S256x256, .f32⟩
  | 29 => ⟨S64x256, .f32⟩
  | 30 => ⟨S50000x1, .i32⟩
  | 31 => ⟨S1x1, .f32⟩
  | 32 => ⟨S50000x1, .f32⟩
  | 33 => ⟨S50000x1, .f32⟩
  | 34 => ⟨S50000, .f32⟩
  | 35 => ⟨S50000, .f32⟩
  | 36 => ⟨S100000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .bf16⟩
  | .local _ .vmem, ⟨6, _⟩ => ⟨S2000x256, .bf16⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x1, .f32⟩
  | .local _ .vmem, ⟨12, _⟩ => ⟨S2000x1, .f32⟩
  | .local _ .vmem, ⟨13, _⟩ => ⟨S1x256, .f32⟩
  | .local _ .vmem, ⟨14, _⟩ => ⟨S256x256, .f32⟩
  | .local _ .vmem, ⟨15, _⟩ => ⟨S2000x256, .f32⟩
  | .local _ .vmem, ⟨16, _⟩ => ⟨S2000x256, .f32⟩
  | .local _ .vmem, ⟨17, _⟩ => ⟨S2000x256, .bf16⟩
  | .local _ .vmem, ⟨18, _⟩ => ⟨S2000x256, .bf16⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x1, .f32⟩
  | .local _ .vmem, ⟨24, _⟩ => ⟨S2000x1, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | .local _ .vmem, ⟨28, _⟩ => ⟨S2000x128, .f32⟩
  | .local _ .vmem, ⟨29, _⟩ => ⟨S2000x128, .f32⟩
  | .local _ .vmem, ⟨30, _⟩ => ⟨S128x256, .f32⟩
  | .local _ .vmem, ⟨31, _⟩ => ⟨S2000x256, .f32⟩
  | .local _ .vmem, ⟨32, _⟩ => ⟨S2000x256, .f32⟩
  | .local _ .vmem, ⟨33, _⟩ => ⟨S2000x256, .bf16⟩
  | .local _ .vmem, ⟨34, _⟩ => ⟨S2000x256, .bf16⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x1, .f32⟩
  | .local _ .vmem, ⟨40, _⟩ => ⟨S2000x1, .f32⟩
  | .local _ .vmem, ⟨41, _⟩ => ⟨S1x256, .f32⟩
  | .local _ .vmem, ⟨42, _⟩ => ⟨S256x256, .f32⟩
  | .local _ .vmem, ⟨43, _⟩ => ⟨S2000x256, .f32⟩
  | .local _ .vmem, ⟨44, _⟩ => ⟨S2000x256, .f32⟩
  | .local _ .vmem, ⟨45, _⟩ => ⟨S2000x256, .bf16⟩
  | .local _ .vmem, ⟨46, _⟩ => ⟨S2000x256, .bf16⟩
  | .local _ .vmem, ⟨47, _⟩ => ⟨S2000x256, .f32⟩
  | .local _ .vmem, ⟨48, _⟩ => ⟨S2000x256, .f32⟩
  | .local _ .vmem, ⟨49, _⟩ => ⟨S2000x256, .f32⟩
  | .local _ .vmem, ⟨50, _⟩ => ⟨S2000x256, .f32⟩
  | .local _ .vmem, ⟨51, _⟩ => ⟨S2000x256, .f32⟩
  | .local _ .vmem, ⟨52, _⟩ => ⟨S2000x256, .f32⟩
  | .local _ .vmem, ⟨53, _⟩ => ⟨S2000x1, .f32⟩
  | .local _ .vmem, ⟨54, _⟩ => ⟨S2000x1, .f32⟩
  | .local _ .vmem, ⟨55, _⟩ => ⟨S1x256, .f32⟩
  | .local _ .vmem, ⟨56, _⟩ => ⟨S2000x1, .i32⟩
  | .local _ .vmem, ⟨57, _⟩ => ⟨S2000x1, .i32⟩
  | .local _ .vmem, ⟨58, _⟩ => ⟨S64x256, .f32⟩
  | .local _ .vmem, ⟨59, _⟩ => ⟨S1x1, .f32⟩
  | .local _ .vmem, ⟨60, _⟩ => ⟨S2000x1, .f32⟩
  | .local _ .vmem, ⟨61, _⟩ => ⟨S2000x1, .f32⟩
  | .local _ .vmem, ⟨62, _⟩ => ⟨S2000x1, .f32⟩
  | .local _ .vmem, ⟨63, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_c_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27_0 : Ref sig .tc := ⟨.hbm, 46, rfl⟩
abbrev main_v27_1 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_c_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42_0 : Ref sig .tc := ⟨.hbm, 65, rfl⟩
abbrev main_v42_1 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_cst_13 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_15 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_16 : Ref sig .tc := ⟨.hbm, 103, rfl⟩
abbrev main_v72 : Ref sig .tc := ⟨.hbm, 104, rfl⟩
abbrev main_v73 : Ref sig .tc := ⟨.hbm, 105, rfl⟩
abbrev main_cst_17 : Ref sig .tc := ⟨.hbm, 106, rfl⟩
abbrev main_v74 : Ref sig .tc := ⟨.hbm, 107, rfl⟩
abbrev main_v75 : Ref sig .tc := ⟨.hbm, 108, rfl⟩
abbrev main_c_18 : Ref sig .tc := ⟨.hbm, 109, rfl⟩
abbrev main_v76 : Ref sig .tc := ⟨.hbm, 110, rfl⟩
abbrev main_v77 : Ref sig .tc := ⟨.hbm, 111, rfl⟩
abbrev main_c_19 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83_0 : Ref sig .tc := ⟨.hbm, 118, rfl⟩
abbrev main_v83_1 : Ref sig .tc := ⟨.hbm, 119, rfl⟩
abbrev main_c_20 : Ref sig .tc := ⟨.hbm, 120, rfl⟩
abbrev main_v84 : Ref sig .tc := ⟨.hbm, 121, rfl⟩
abbrev main_v85 : Ref sig .tc := ⟨.hbm, 122, rfl⟩
abbrev main_c_21 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_22 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98_0 : Ref sig .tc := ⟨.hbm, 137, rfl⟩
abbrev main_v98_1 : Ref sig .tc := ⟨.hbm, 138, rfl⟩
abbrev main_c_23 : Ref sig .tc := ⟨.hbm, 139, rfl⟩
abbrev main_v99 : Ref sig .tc := ⟨.hbm, 140, rfl⟩
abbrev main_v100 : Ref sig .tc := ⟨.hbm, 141, rfl⟩
abbrev main_c_24 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_25 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117_0 : Ref sig .tc := ⟨.hbm, 160, rfl⟩
abbrev main_v117_1 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc4_stg6_0 : Ref sig .tc := ⟨.vmem, 45, rfl⟩
abbrev cc4_stg6_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg1_1 : Ref sig .tc := ⟨.vmem, 50, rfl⟩
abbrev cc5_stg2_0 : Ref sig .tc := ⟨.vmem, 51, rfl⟩
abbrev cc5_stg2_1 : Ref sig .tc := ⟨.vmem, 52, rfl⟩
abbrev cc5_stg3_0 : Ref sig .tc := ⟨.vmem, 53, rfl⟩
abbrev cc5_stg3_1 : Ref sig .tc := ⟨.vmem, 54, rfl⟩
abbrev cc5_stg4_0 : Ref sig .tc := ⟨.vmem, 55, rfl⟩
abbrev cc5_stg5_0 : Ref sig .tc := ⟨.vmem, 56, rfl⟩
abbrev cc5_stg5_1 : Ref sig .tc := ⟨.vmem, 57, rfl⟩
abbrev cc5_stg6_0 : Ref sig .tc := ⟨.vmem, 58, rfl⟩
abbrev cc5_stg7_0 : Ref sig .tc := ⟨.vmem, 59, rfl⟩
abbrev cc5_stg8_0 : Ref sig .tc := ⟨.vmem, 60, rfl⟩
abbrev cc5_stg8_1 : Ref sig .tc := ⟨.vmem, 61, rfl⟩
abbrev cc5_stg9_0 : Ref sig .tc := ⟨.vmem, 62, rfl⟩
abbrev cc5_stg9_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem2_1 : DmaSem sig := 32
abbrev cc3_sem3_0 : DmaSem sig := 33
abbrev cc3_sem3_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem2_1 : DmaSem sig := 40
abbrev cc4_sem3_0 : DmaSem sig := 41
abbrev cc4_sem4_0 : DmaSem sig := 42
abbrev cc4_sem5_0 : DmaSem sig := 43
abbrev cc4_sem5_1 : DmaSem sig := 44
abbrev cc4_sem6_0 : DmaSem sig := 45
abbrev cc4_sem6_1 : DmaSem sig := 46
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem2_1 : DmaSem sig := 52
abbrev cc5_sem3_0 : DmaSem sig := 53
abbrev cc5_sem3_1 : DmaSem sig := 54
abbrev cc5_sem4_0 : DmaSem sig := 55
abbrev cc5_sem5_0 : DmaSem sig := 56
abbrev cc5_sem5_1 : DmaSem sig := 57
abbrev cc5_sem6_0 : DmaSem sig := 58
abbrev cc5_sem7_0 : DmaSem sig := 59
abbrev cc5_sem8_0 : DmaSem sig := 60
abbrev cc5_sem8_1 : DmaSem sig := 61
abbrev cc5_sem9_0 : DmaSem sig := 62
abbrev cc5_sem9_1 : DmaSem sig := 63

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2000x256 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x1 .i32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S64x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x1 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S2000x1 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S2000x1 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  bcast_S_S64x256 : S_.BroadcastsInDim S64x256 (![] : Fin 0 → Fin S64x256.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  shapeCasts_S2000x128_S2000x128 : S2000x128.ShapeCasts S2000x128
  transposes_S256x256_S256x256_1_0 : S256x256.Transposes [1, 0] S256x256
  shapeCasts_S_S1x1 : S_.ShapeCasts S1x1
  iota_S2000x64_d1_w32 : S2000x64.Iotas .tc 32 [1]
  broadcasts_S2000x1_S2000x64 : S2000x1.Broadcasts S2000x64
  natLt_1_32 : 1 < 32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  reduces_S2000x256_S2000 : S2000x256.Reduces [1] S2000
  shapeCasts_S2000_S2000x1 : S2000.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  shapeCasts_S50000x1_S50000 : S50000x1.ShapeCasts S50000
  concatenates_S50000_S50000_S100000_d0 : Shape.Concatenates [S50000, S50000] S100000 0
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  gather_S50000x128_S50000x1_S50000x128_1_0_n_n_0_1_1128_wf : GatherDims.WF S50000x128 S50000x1 S50000x128 [1] [0] [] [0] [] 1 ![1, 128]
  dot_S64x256_S256x256_S64x256_1_0_0_1_n_n_wf : DotDims.WF S64x256 S256x256 S64x256 [1] [0] [0] [1] [] []
  dot_S2000x64_S64x256_S2000x256_1_0_0_1_n_n_wf : DotDims.WF S2000x64 S64x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .bf16 = 32 ∨ (Rect.block (s := S50000x256) S2000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .bf16 = 32 ∨ (Rect.block (s := S50000x256) S2000x256.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .f32 = 32 ∨ (Rect.block (s := S50000x256) S2000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S50000x256.size a
  hwx3_3 : ∀ i : grid3.Coords, EltTy.bits .bf16 = 32 ∨ (Rect.block (s := S50000x256) S2000x256.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .f32 = 32 ∨ (Rect.block (s := S256x256) S256x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S50000x256.size a
  hwx4_5 : ∀ i : grid4.Coords, EltTy.bits .f32 = 32 ∨ (Rect.block (s := S50000x256) S2000x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x256.size a ≤ S50000x256.size a
  hwx4_6 : ∀ i : grid4.Coords, EltTy.bits .bf16 = 32 ∨ (Rect.block (s := S50000x256) S2000x256.size (cc4_transform_6 i) (hinb4_6 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S50000x256.size a
  hwx5_1 : ∀ i : grid5.Coords, EltTy.bits .f32 = 32 ∨ (Rect.block (s := S50000x256) S2000x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x256.size a ≤ S50000x256.size a
  hwx5_2 : ∀ i : grid5.Coords, EltTy.bits .f32 = 32 ∨ (Rect.block (s := S50000x256) S2000x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x1.size a ≤ S50000x1.size a
  hwx5_3 : ∀ i : grid5.Coords, EltTy.bits .f32 = 32 ∨ (Rect.block (s := S50000x1) S2000x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x1.size a ≤ S50000x1.size a
  hwx5_5 : ∀ i : grid5.Coords, EltTy.bits .i32 = 32 ∨ (Rect.block (s := S50000x1) S2000x1.size (cc5_transform_5 i) (hinb5_5 i)).WholeWords (EltTy.packing .i32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S64x256.size a ≤ S64x256.size a
  hwx5_6 : ∀ i : grid5.Coords, EltTy.bits .f32 = 32 ∨ (Rect.block (s := S64x256) S64x256.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x1.size a ≤ S1x1.size a
  hwx5_7 : ∀ i : grid5.Coords, EltTy.bits .f32 = 32 ∨ (Rect.block (s := S1x1) S1x1.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S2000x1.size a ≤ S50000x1.size a
  hwx5_8 : ∀ i : grid5.Coords, EltTy.bits .f32 = 32 ∨ (Rect.block (s := S50000x1) S2000x1.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S2000x1.size a ≤ S50000x1.size a
  hwx5_9 : ∀ i : grid5.Coords, EltTy.bits .f32 = 32 ∨ (Rect.block (s := S50000x1) S2000x1.size (cc5_transform_9 i) (hinb5_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27_0) S2000x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27_1) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v41) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27_0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42_0) S2000x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v42_1) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v56) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42_0) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v82) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v83_0) S2000x256.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v83_1) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v97) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v83_0) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v9) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v25) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg3) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v98_0) S2000x256.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v98_1) S2000x256.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v57) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v112) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v98_0) S2000x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v9) S2000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v26) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v115) S2000x1.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v114) S64x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v116) S1x1.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v117_0) S2000x1.size cc5_transform_8 reads5_8 true false 2 stage5_8 sem5_8
    hrank5 hreads5_8 hinb5_8 nbuf5_8 (Memref.isWhole_whole _) hwx5_8 hstage5_8

abbrev win5_9 : Pipeline.Window sig grid5 :=
  Pipeline.Window.ofSpec (Memref.whole main_v117_1) S2000x1.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S_ : Shape := ⟨0, ![]⟩
abbrev S800000 : Shape := ⟨1, ![800000]⟩
abbrev S50000 : Shape := ⟨1, ![50000]⟩
abbrev S800000x1 : Shape := ⟨2, ![800000, 1]⟩
abbrev S50000x256 : Shape := ⟨2, ![50000, 256]⟩
abbrev S800000x256 : Shape := ⟨2, ![800000, 256]⟩
abbrev S50000x1 : Shape := ⟨2, ![50000, 1]⟩
abbrev S1x256 : Shape := ⟨2, ![1, 256]⟩
abbrev S64x256 : Shape := ⟨2, ![64, 256]⟩
abbrev S64 : Shape := ⟨1, ![64]⟩
abbrev S64x1 : Shape := ⟨2, ![64, 1]⟩
abbrev S100000 : Shape := ⟨1, ![100000]⟩

abbrev nBuf : Space → Nat
  | .hbm => 260
  | .vmem => 0
  | .smem => 0
  | _ => 0

abbrev hbmTy0_0 (i : Nat) : BufTy := match i % 128 with
  | 0 => ⟨S50000x128, .f32⟩
  | 1 => ⟨S128x256, .f32⟩
  | 2 => ⟨S256, .f32⟩
  | 3 => ⟨S256x256, .f32⟩
  | 4 => ⟨S256, .f32⟩
  | 5 => ⟨S256x256, .f32⟩
  | 6 => ⟨S_, .f32⟩
  | 7 => ⟨S800000, .i32⟩
  | 8 => ⟨S800000, .i32⟩
  | 9 => ⟨S50000, .i32⟩
  | 10 => ⟨S50000, .i32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .f32⟩
  | 20 => ⟨S_, .f32⟩
  | 21 => ⟨S50000, .f32⟩
  | 22 => ⟨S50000, .f32⟩
  | 23 => ⟨S50000x256, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x256, .f32⟩
  | 52 => ⟨S800000x1, .f32⟩
  | 53 => ⟨S800000x256, .f32⟩
  | 54 => ⟨S800000x256, .f32⟩
  | 55 => ⟨S_, .f32⟩
  | 56 => ⟨S50000x256, .f32⟩
  | 57 => ⟨S800000x1, .i32⟩
  | 58 => ⟨S50000x256, .f32⟩
  | 59 => ⟨S50000, .f32⟩
  | 60 => ⟨S50000x1, .f32⟩
  | 61 => ⟨S50000x256, .f32⟩
  | 62 => ⟨S50000x256, .f32⟩
  | 63 => ⟨S50000x256, .f32⟩
  | 64 => ⟨S1x256, .f32⟩
  | 65 => ⟨S50000x256, .f32⟩
  | 66 => ⟨S50000x256, .f32⟩
  | 67 => ⟨S_, .f32⟩
  | 68 => ⟨S50000x256, .f32⟩
  | 69 => ⟨S50000x256, .f32⟩
  | 70 => ⟨S50000x256, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000, .f32⟩
  | 89 => ⟨S800000, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x256, .f32⟩
  | 99 => ⟨S800000x1, .f32⟩
  | 100 => ⟨S800000x256, .f32⟩
  | 101 => ⟨S800000x256, .f32⟩
  | 102 => ⟨S_, .f32⟩
  | 103 => ⟨S50000x256, .f32⟩
  | 104 => ⟨S800000x1, .i32⟩
  | 105 => ⟨S50000x256, .f32⟩
  | 106 => ⟨S50000, .f32⟩
  | 107 => ⟨S50000x1, .f32⟩
  | 108 => ⟨S50000x256, .f32⟩
  | 109 => ⟨S50000x256, .f32⟩
  | 110 => ⟨S50000x256, .f32⟩
  | 111 => ⟨S1x256, .f32⟩
  | 112 => ⟨S50000x256, .f32⟩
  | 113 => ⟨S50000x256, .f32⟩
  | 114 => ⟨S_, .f32⟩
  | 115 => ⟨S64x256, .f32⟩
  | 116 => ⟨S50000x1, .i32⟩
  | 117 => ⟨S64x256, .f32⟩
  | 118 => ⟨S_, .f32⟩
  | 119 => ⟨S50000, .f32⟩
  | 120 => ⟨S_, .f32⟩
  | 121 => ⟨S64, .f32⟩
  | 122 => ⟨S50000x1, .i32⟩
  | 123 => ⟨S64, .f32⟩
  | 124 => ⟨S_, .f32⟩
  | 125 => ⟨S64, .f32⟩
  | 126 => ⟨S64, .f32⟩
  | 127 => ⟨S64x1, .f32⟩
  | _ => ⟨S50000x128, .f32⟩

abbrev hbmTy0_1 (i : Nat) : BufTy := match i % 128 with
  | 0 => ⟨S64x256, .f32⟩
  | 1 => ⟨S64x256, .f32⟩
  | 2 => ⟨S64x256, .f32⟩
  | 3 => ⟨S64x256, .f32⟩
  | 4 => ⟨S_, .f32⟩
  | 5 => ⟨S64x256, .f32⟩
  | 6 => ⟨S64x256, .f32⟩
  | 7 => ⟨S_, .f32⟩
  | 8 => ⟨S64x256, .f32⟩
  | 9 => ⟨S64x256, .f32⟩
  | 10 => ⟨S_, .i32⟩
  | 11 => ⟨S50000, .i32⟩
  | 12 => ⟨S50000, .i1⟩
  | 13 => ⟨S_, .i32⟩
  | 14 => ⟨S50000, .i32⟩
  | 15 => ⟨S50000, .i32⟩
  | 16 => ⟨S50000, .i32⟩
  | 17 => ⟨S50000x1, .i32⟩
  | 18 => ⟨S50000x128, .f32⟩
  | 19 => ⟨S50000x256, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x256, .f32⟩
  | 48 => ⟨S800000x1, .f32⟩
  | 49 => ⟨S800000x256, .f32⟩
  | 50 => ⟨S800000x256, .f32⟩
  | 51 => ⟨S_, .f32⟩
  | 52 => ⟨S50000x256, .f32⟩
  | 53 => ⟨S800000x1, .i32⟩
  | 54 => ⟨S50000x256, .f32⟩
  | 55 => ⟨S50000, .f32⟩
  | 56 => ⟨S50000x1, .f32⟩
  | 57 => ⟨S50000x256, .f32⟩
  | 58 => ⟨S50000x256, .f32⟩
  | 59 => ⟨S50000x256, .f32⟩
  | 60 => ⟨S1x256, .f32⟩
  | 61 => ⟨S50000x256, .f32⟩
  | 62 => ⟨S50000x256, .f32⟩
  | 63 => ⟨S_, .f32⟩
  | 64 => ⟨S50000x256, .f32⟩
  | 65 => ⟨S50000x256, .f32⟩
  | 66 => ⟨S50000x256, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000, .f32⟩
  | 85 => ⟨S800000, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x256, .f32⟩
  | 95 => ⟨S800000x1, .f32⟩
  | 96 => ⟨S800000x256, .f32⟩
  | 97 => ⟨S800000x256, .f32⟩
  | 98 => ⟨S_, .f32⟩
  | 99 => ⟨S50000x256, .f32⟩
  | 100 => ⟨S800000x1, .i32⟩
  | 101 => ⟨S50000x256, .f32⟩
  | 102 => ⟨S50000, .f32⟩
  | 103 => ⟨S50000x1, .f32⟩
  | 104 => ⟨S50000x256, .f32⟩
  | 105 => ⟨S50000x256, .f32⟩
  | 106 => ⟨S50000x256, .f32⟩
  | 107 => ⟨S1x256, .f32⟩
  | 108 => ⟨S50000x256, .f32⟩
  | 109 => ⟨S50000x256, .f32⟩
  | 110 => ⟨S_, .i32⟩
  | 111 => ⟨S50000, .i32⟩
  | 112 => ⟨S50000, .i1⟩
  | 113 => ⟨S_, .i32⟩
  | 114 => ⟨S50000, .i32⟩
  | 115 => ⟨S50000, .i32⟩
  | 116 => ⟨S50000, .i32⟩
  | 117 => ⟨S50000x1, .i32⟩
  | 118 => ⟨S50000x256, .f32⟩
  | 119 => ⟨S256x256, .f32⟩
  | 120 => ⟨S50000x256, .f32⟩
  | 121 => ⟨S50000x256, .f32⟩
  | 122 => ⟨S_, .f32⟩
  | 123 => ⟨S50000, .f32⟩
  | 124 => ⟨S50000, .f32⟩
  | 125 => ⟨S50000, .f32⟩
  | 126 => ⟨S50000x256, .f32⟩
  | 127 => ⟨S_, .f32⟩
  | _ => ⟨S50000x128, .f32⟩

abbrev hbmTy0_2 (i : Nat) : BufTy := match i % 128 with
  | 0 => ⟨S50000, .f32⟩
  | 1 => ⟨S50000, .f32⟩
  | 2 => ⟨S50000, .f32⟩
  | 3 => ⟨S100000, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_c_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_c_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call0_cst : Ref sig .tc := ⟨.hbm, 67, rfl⟩
abbrev main_call0_v0 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_11 : Ref sig .tc := ⟨.hbm, 80, rfl⟩
abbrev main_v54 : Ref sig .tc := ⟨.hbm, 81, rfl⟩
abbrev main_v55 : Ref sig .tc := ⟨.hbm, 82, rfl⟩
abbrev main_c_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_15 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_16 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_17 : Ref sig .tc := ⟨.hbm, 118, rfl⟩
abbrev main_v86 : Ref sig .tc := ⟨.hbm, 119, rfl⟩
abbrev main_cst_18 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_19 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_20 : Ref sig .tc := ⟨.hbm, 132, rfl⟩
abbrev main_v97 : Ref sig .tc := ⟨.hbm, 133, rfl⟩
abbrev main_v98 : Ref sig .tc := ⟨.hbm, 134, rfl⟩
abbrev main_cst_21 : Ref sig .tc := ⟨.hbm, 135, rfl⟩
abbrev main_v99 : Ref sig .tc := ⟨.hbm, 136, rfl⟩
abbrev main_v100 : Ref sig .tc := ⟨.hbm, 137, rfl⟩
abbrev main_c_22 : Ref sig .tc := ⟨.hbm, 138, rfl⟩
abbrev main_v101 : Ref sig .tc := ⟨.hbm, 139, rfl⟩
abbrev main_v102 : Ref sig .tc := ⟨.hbm, 140, rfl⟩
abbrev main_c_23 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_c_24 : Ref sig .tc := ⟨.hbm, 148, rfl⟩
abbrev main_v109 : Ref sig .tc := ⟨.hbm, 149, rfl⟩
abbrev main_v110 : Ref sig .tc := ⟨.hbm, 150, rfl⟩
abbrev main_c_25 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_c_26 : Ref sig .tc := ⟨.hbm, 157, rfl⟩
abbrev main_v116 : Ref sig .tc := ⟨.hbm, 158, rfl⟩
abbrev main_v117 : Ref sig .tc := ⟨.hbm, 159, rfl⟩
abbrev main_c_27 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_c_28 : Ref sig .tc := ⟨.hbm, 167, rfl⟩
abbrev main_v124 : Ref sig .tc := ⟨.hbm, 168, rfl⟩
abbrev main_v125 : Ref sig .tc := ⟨.hbm, 169, rfl⟩
abbrev main_c_29 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_cst_30 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_call1_cst : Ref sig .tc := ⟨.hbm, 191, rfl⟩
abbrev main_call1_v0 : Ref sig .tc := ⟨.hbm, 192, rfl⟩
abbrev main_v145 : Ref sig .tc := ⟨.hbm, 193, rfl⟩
abbrev main_v146 : Ref sig .tc := ⟨.hbm, 194, rfl⟩
abbrev main_c_31 : Ref sig .tc := ⟨.hbm, 195, rfl⟩
abbrev main_v147 : Ref sig .tc := ⟨.hbm, 196, rfl⟩
abbrev main_v148 : Ref sig .tc := ⟨.hbm, 197, rfl⟩
abbrev main_c_32 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_c_33 : Ref sig .tc := ⟨.hbm, 204, rfl⟩
abbrev main_v154 : Ref sig .tc := ⟨.hbm, 205, rfl⟩
abbrev main_v155 : Ref sig .tc := ⟨.hbm, 206, rfl⟩
abbrev main_c_34 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_c_35 : Ref sig .tc := ⟨.hbm, 214, rfl⟩
abbrev main_v162 : Ref sig .tc := ⟨.hbm, 215, rfl⟩
abbrev main_v163 : Ref sig .tc := ⟨.hbm, 216, rfl⟩
abbrev main_c_36 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_cst_37 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_c_38 : Ref sig .tc := ⟨.hbm, 238, rfl⟩
abbrev main_v183 : Ref sig .tc := ⟨.hbm, 239, rfl⟩
abbrev main_v184 : Ref sig .tc := ⟨.hbm, 240, rfl⟩
abbrev main_c_39 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_cst_40 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_cst_41 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S64x256 : S_.BroadcastsInDim S64x256 (![] : Fin 0 → Fin S64x256.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  transposes_S256x256_S256x256_1_0 : S256x256.Transposes [1, 0] S256x256
  reducesTo_S50000x256_S50000_d1 : S50000x256.ReducesTo [1] S50000
  h_S_ : 0 < S_.numel
  concatenates_S50000_S50000_S100000_d0 : Shape.Concatenates [S50000, S50000] S100000 0
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  gather_S50000x128_S50000x1_S50000x128_1_0_n_n_0_1_1128_wf : GatherDims.WF S50000x128 S50000x1 S50000x128 [1] [0] [] [0] [] 1 ![1, 128]
  gather_S64x256_S50000x1_S50000x256_1_0_n_n_0_1_1256_wf : GatherDims.WF S64x256 S50000x1 S50000x256 [1] [0] [] [0] [] 1 ![1, 256]

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def gather_S64x256_S50000x1_S50000x256_1_0_n_n_0_1_1256 : GatherDims S64x256 S50000x1 S50000x256 where
  offsetDims := [1]
  collapsedSliceDims := [0]
  operandBatchingDims := []
  startIndicesBatchingDims := []
  startIndexMap := [0]
  indexVectorDim := 1
  sliceSizes := ![1, 256]
  wf := gather_S64x256_S50000x1_S50000x256_1_0_n_n_0_1_1256_wf

class Facts : Prop extends Facts₀ where

variable [Facts]
-- ==== Proof.Spec.lean ====
/-
  The mathematics of the two programs, index by index, over the extended reals.

  A graph network layer finishes a row as  agg + d·h + b  (d the row's self-loop weight, b the bias row); the first layer
  is followed by max(·, 0) and both layers start with a matrix product.  The discriminator scores a node's row h against
  the row  t  that its graph's pooled vector picks out of a 64-row table:  Σ_j h_j · t_j + bb.  The table row is picked
  either directly (row number = the node's graph id) or by the product of the indicator row "g = graph id" with the
  table; the two agree whenever the graph id is one of the 64 row numbers, with no finiteness needed, because on the
  extended reals 0 · x = 0 and 1 · x = x for every x, infinite ones included.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- An n × m array of extended reals. -/
abbrev Mat (n m : Nat) := (⟨2, ![n, m]⟩ : Shape).Idx → EReal
/-- A length-n array of extended reals. -/
abbrev Vc (n : Nat) := (⟨1, ![n]⟩ : Shape).Idx → EReal

/-- The matrix product: entry (r, c) is Σ_l x(r, l) · w(l, c). -/
def mm {n k m : Nat} (x : Mat n k) (w : Mat k m) : Mat n m :=
  fun i => ∑ l : Fin k, x (ix2 (i 0) l) * w (ix2 l (i 1))

/-- A layer's last step: entry (r, c) is (agg(r, c) + d(r) · h(r, c)) + b(c), with d a column and b a row. -/
def fin {n m : Nat} (agg h : Mat n m) (d : Mat n 1) (b : Mat 1 m) : Mat n m :=
  fun i => agg i + d (ix2 (i 0) (0 : Fin 1)) * h i + b (ix2 (0 : Fin 1) (i 1))

/-- max(·, 0), entry by entry. -/
def relu {n m : Nat} (x : Mat n m) : Mat n m := fun i => max (x i) 0

/-- A vector as a column. -/
def colOf {n : Nat} (d : Vc n) : Mat n 1 := fun i => d (ix1 (i 0))
/-- A vector as a row. -/
def rowOf {m : Nat} (b : Vc m) : Mat 1 m := fun i => b (ix1 (i 1))
/-- A column as a vector. -/
def flat {n : Nat} (s : Mat n 1) : Vc n := fun i => s (ix2 (i 0) (0 : Fin 1))

/-- A vector of words as a column of words. -/
def colI {n : Nat} (id : (⟨1, ![n]⟩ : Shape).Idx → BitVec 32) : (⟨2, ![n, 1]⟩ : Shape).Idx → BitVec 32 := fun i => id (ix1 (i 0))
/-- A scalar as a 1 × 1 array. -/
def one (x : (⟨0, ![]⟩ : Shape).Idx → EReal) : Mat 1 1 := fun _ => x ix0

/-- The table row picked by an indicator: entry (r, c) is Σ_g [g = id(r)] · tab(g, c), id a column of 32-bit words. -/
def pick {n G m : Nat} (id : (⟨2, ![n, 1]⟩ : Shape).Idx → BitVec 32) (tab : Mat G m) : Mat n m :=
  fun i => ∑ g : Fin G, (if BitVec.ofNat 32 g.val = id (ix2 (i 0) (0 : Fin 1)) then (1 : EReal) else 0) * tab (ix2 g (i 1))

/-- The table row picked directly: entry (r, c) is tab(ρ(r), c), ρ the row numbers. -/
def rows {n G m : Nat} (ρ : Fin n → Fin G) (tab : Mat G m) : Mat n m :=
  fun i => tab (ix2 (ρ (i 0)) (i 1))

/-- The score of row r: (Σ_j h(r, j) · t(r, j)) + bb. -/
def score {n m : Nat} (h t : Mat n m) (bb : Mat 1 1) : Mat n 1 :=
  fun i => (∑ j : Fin m, h (ix2 (i 0) j) * t (ix2 (i 0) j)) + bb (ix2 (0 : Fin 1) (0 : Fin 1))

/-- The indicator row times the table IS the table's row, when the id is a row number: every other term of the sum is
    0 · x = 0, and the one left is 1 · x = x. -/
theorem pick_eq_rows {n G m : Nat} (id : (⟨2, ![n, 1]⟩ : Shape).Idx → BitVec 32) (tab : Mat G m) (ρ : Fin n → Fin G)
    (hG : G ≤ 2 ^ 32) (hρ : ∀ r : Fin n, (id (ix2 r (0 : Fin 1))).toNat = (ρ r).val) :
    pick id tab = rows ρ tab := by
  funext i
  unfold pick rows
  rw [Finset.sum_eq_single (ρ (i 0))]
  · rw [if_pos, one_mul]
    apply BitVec.eq_of_toNat_eq
    rw [hρ (i 0), BitVec.toNat_ofNat]
    exact Nat.mod_eq_of_lt (lt_of_lt_of_le (ρ (i 0)).isLt hG)
  · intro g _ hg
    rw [if_neg, zero_mul]
    intro h
    apply hg
    apply Fin.ext
    have := congrArg BitVec.toNat h
    rw [hρ (i 0), BitVec.toNat_ofNat, Nat.mod_eq_of_lt (lt_of_lt_of_le g.isLt hG)] at this
    exact this
  · intro h
    exact absurd (Finset.mem_univ _) h

/-- Picking rows commutes with a product on the right: (tab · w)(ρ(r), c) = Σ_l tab(ρ(r), l) · w(l, c). -/
theorem rows_mm {n G k m : Nat} (ρ : Fin n → Fin G) (tab : Mat G k) (w : Mat k m) :
    rows ρ (mm tab w) = mm (rows ρ tab) w := by
  funext i
  rfl

end Cert.Spec

end
-- ==== Proof.LibScatterGather.lean ====
/-
  ROW GATHERS AND ROW SCATTER-ADDS READ AT AN INDEX, with the words, literals and sums around them.

  A gather of whole rows of an [N, C] table at M start indices (a column [M, 1] of words) returns, at (e, h), the table's
  entry (row, h), where row is the e-th start index read as a signed integer and clamped into [0, N - 1].
  A scatter-add of M rows (an [M, C] array) into an [N, C] operand at M start indices adds, at (n, h), the entries (e, h)
  of every update row e whose start index, read as a signed integer and NOT clamped, is n; an update that lands outside
  the operand is dropped.  The vector form scatters M scalars into an [N] operand.
  Around them: a 32-bit word below 2^31 reads the same signed and unsigned; a product-plus-sum of words that stays
  below 2^32 does not wrap; the pair (a, b) with b < 3 is recovered from 3a + b; the float words of one and zero and
  the conversion of a one-bit word; and a sum of terms masked by an indicator is the sum over the smaller set.
-/
import Idealize.ShloMosaic.PureOps.Ideal
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value

noncomputable section

open scoped BigOperators

namespace Cert.LibSG

open Idealize.ShloMosaic Idealize.ShloMosaic.ValueIdx

/-! ## (a) A gather of rows, read at an index -/

/-- The row gather's dimension numbers for a table [N, C], start indices [M, 1] and a result [M, C]. -/
abbrev rowGather (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row gather with those dimension numbers, read at (e, h). -/
theorem rowGather_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (h : Fin C) :
    Host.gather (rowGather N C M wf) x idx (ix2 e h)
      = x (ix2 ⟨min (idx (ix2 e (0 : Fin 1))).toInt.toNat (N - 1), by omega⟩ h) := by
  unfold Host.gather
  congr 1
  funext a
  refine Fin.ext ?_
  match a with
  | ⟨0, _⟩ =>
    show (rowGather N C M wf).start (ix2 e h) idx 0 + (rowGather N C M wf).batchCoord (ix2 e h) 0
      + (rowGather N C M wf).offCoord (ix2 e h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rowGather N C M wf).startIndexMap from List.mem_singleton.mpr rfl)]
    have hsi : (rowGather N C M wf).siIdx (ix2 e h) ⟨List.idxOf (0 : Fin 2) (rowGather N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N C M wf).start (ix2 e h) idx 1 + (rowGather N C M wf).batchCoord (ix2 e h) 1
      + (rowGather N C M wf).offCoord (ix2 e h) 1 = h.val
    have h1 : (1 : Fin 2) ∉ (rowGather N C M wf).startIndexMap := fun hm =>
      absurd (congrArg Fin.val (List.mem_singleton.mp hm)) Nat.one_ne_zero
    have h2 : (1 : Fin 2) ∈ (rowGather N C M wf).sKept :=
      (GatherDims.mem_sKept _ _).mpr ⟨fun hm => absurd (congrArg Fin.val (List.mem_singleton.mp hm)) Nat.one_ne_zero,
        List.not_mem_nil⟩
    rw [GatherDims.batchCoord_eq_zero _ _ _ List.not_mem_nil]
    unfold GatherDims.start GatherDims.offCoord
    rw [dif_neg h1, dif_pos h2]
    simp only [Nat.add_zero, Nat.zero_add]
    rfl

/-- THE ROW GATHER AT (e, h): the table's entry (row, h), the row being the e-th start index read signed and clamped
    into [0, N - 1]. The record's lists are hypotheses, so that a program's record is an instance by seven rfl's. -/
theorem gather_row_apply {α : Type} {N C M w : Nat} (hN : 0 < N)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ w) (e : Fin M) (h : Fin C) :
    Host.gather d x idx (ix2 e h)
      = x (ix2 ⟨min (idx (ix2 e (0 : Fin 1))).toInt.toNat (N - 1), by omega⟩ h) := by
  obtain ⟨od, cd, ob, sb, sm, iv, ss, wf⟩ := d
  simp only at hod hcd hob hsb hsm hiv hss
  subst hod hcd hob hsb hsm hiv hss
  exact rowGather_apply hN wf x idx e h

/-- The same when the e-th start index, a 32-bit word, is below N (and N ≤ 2^31): the row is the word's value. -/
theorem gather_row_apply_of_lt {α : Type} {N C M : Nat} (hN : N ≤ 2 ^ 31)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ 32) (e : Fin M) (h : Fin C)
    (hlt : (idx (ix2 e (0 : Fin 1))).toNat < N) :
    Host.gather d x idx (ix2 e h) = x (ix2 ⟨(idx (ix2 e (0 : Fin 1))).toNat, hlt⟩ h) := by
  have hpos : 0 < N := by omega
  have key : min (idx (ix2 e (0 : Fin 1))).toInt.toNat (N - 1) = (idx (ix2 e (0 : Fin 1))).toNat := by
    rw [BitVec.toInt_eq_toNat_of_lt (by omega), Int.toNat_natCast]
    omega
  have hf : (⟨min (idx (ix2 e (0 : Fin 1))).toInt.toNat (N - 1), by omega⟩ : Fin N)
      = ⟨(idx (ix2 e (0 : Fin 1))).toNat, hlt⟩ := Fin.ext key
  rw [gather_row_apply hpos d hod hcd hob hsb hsm hiv hss, hf]

/-! ## (b) A scatter-add of rows, read at an index -/

/-- An update lands at operand index i exactly when, on every axis, its start plus its window coordinate is i's
    coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro H
    split at H
    · rename_i hall
      have hf := Option.some.inj H
      intro a
      have ha : (d.start j idx a + (d.window j a : Int)).toNat = (i a).val := by
        rw [← hf]
      have := (hall a).1
      omega
    · exact absurd H (by simp)
  · intro H
    have hall : ∀ a, 0 ≤ d.start j idx a + (d.window j a : Int) ∧ d.start j idx a + (d.window j a : Int) < s.size a :=
      fun a => by rw [H a]; exact ⟨Int.natCast_nonneg _, by exact_mod_cast (i a).isLt⟩
    rw [dif_pos hall]
    congr 1
    funext a
    refine Fin.ext ?_
    show (d.start j idx a + (d.window j a : Int)).toNat = (i a).val
    rw [H a]; exact Int.toNat_natCast _

/-- The row scatter's dimension numbers for an operand [N, C], start indices [M, 1] and updates [M, C]. -/
abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Update entry (e, c) of a row scatter lands at (n, h) exactly when row e's start index, read signed, is n and c = h. -/
theorem rowScatter_lands {N C M w : Nat} (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (h : Fin C) :
    (rowScatter N C M wf).resultIdx? (ix2 e c) idx = some (ix2 n h)
      ↔ (idx (ix2 e (0 : Fin 1))).toInt = (n.val : Int) ∧ c = h := by
  rw [resultIdx?_eq_some_iff]
  have h10 : (1 : Fin 2) ∉ [(0 : Fin 2)] := fun hm => absurd (congrArg Fin.val (List.mem_singleton.mp hm)) Nat.one_ne_zero
  have hs0 : (rowScatter N C M wf).start (ix2 e c) idx 0 = (idx (ix2 e (0 : Fin 1))).toInt := by
    unfold ScatterDims.start
    rw [dif_pos (show (0 : Fin 2) ∈ (rowScatter N C M wf).scatterDimsToOperandDims from List.mem_singleton.mpr rfl)]
    have hsi : (rowScatter N C M wf).siIdx (ix2 e c) ⟨List.idxOf (0 : Fin 2) (rowScatter N C M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatter N C M wf).start (ix2 e c) idx 1 = 0 := by
    unfold ScatterDims.start
    rw [dif_neg (show (1 : Fin 2) ∉ (rowScatter N C M wf).scatterDimsToOperandDims from h10)]
  have hw0 : (rowScatter N C M wf).window (ix2 e c) 0 = 0 := by
    unfold ScatterDims.window
    rw [dif_neg]
    intro hm
    have := (List.mem_filter.mp hm).2
    simp at this
  have hw1 : (rowScatter N C M wf).window (ix2 e c) 1 = c.val := by
    unfold ScatterDims.window
    have hm : (1 : Fin 2) ∈ (rowScatter N C M wf).sKept := by
      refine List.mem_filter.mpr ⟨List.mem_finRange _, ?_⟩
      simp
    rw [dif_pos hm]
    rfl
  constructor
  · intro H
    have H0 : (rowScatter N C M wf).start (ix2 e c) idx 0 + ((rowScatter N C M wf).window (ix2 e c) 0 : Int)
        = (n.val : Int) := H 0
    have H1 : (rowScatter N C M wf).start (ix2 e c) idx 1 + ((rowScatter N C M wf).window (ix2 e c) 1 : Int)
        = (h.val : Int) := H 1
    rw [hs0, hw0] at H0
    rw [hs1, hw1] at H1
    refine ⟨by simpa using H0, Fin.ext ?_⟩
    have : ((c.val : Int)) = (h.val : Int) := by simpa using H1
    exact_mod_cast this
  · rintro ⟨H0, rfl⟩ a
    match a with
    | ⟨0, _⟩ =>
      show (rowScatter N C M wf).start (ix2 e c) idx 0 + ((rowScatter N C M wf).window (ix2 e c) 0 : Int) = (n.val : Int)
      rw [hs0, hw0, H0]; simp
    | ⟨1, _⟩ =>
      show (rowScatter N C M wf).start (ix2 e c) idx 1 + ((rowScatter N C M wf).window (ix2 e c) 1 : Int) = (c.val : Int)
      rw [hs1, hw1]; simp

/-- The row scatter-add with those dimension numbers, read at (n, h). -/
theorem rowScatter_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (n : Fin N) (h : Fin C) :
    Ideal.hostScatterAdd (rowScatter N C M wf) x idx upd (ix2 n h)
      = x (ix2 n h) + ∑ e ∈ Finset.univ.filter (fun e : Fin M => (idx (ix2 e (0 : Fin 1))).toInt = (n.val : Int)),
          upd (ix2 e h) := by
  unfold Ideal.hostScatterAdd
  congr 1
  rw [Finset.sum_filter, sum_idx2, Finset.sum_filter]
  refine Finset.sum_congr rfl fun e _ => ?_
  simp only [rowScatter_lands]
  by_cases hq : (idx (ix2 e (0 : Fin 1))).toInt = (n.val : Int)
  · simp only [hq, true_and, if_true]
    rw [Finset.sum_ite_eq' Finset.univ h (fun c => upd (ix2 e c)), if_pos (Finset.mem_univ _)]
  · simp only [hq, false_and, if_false]
    exact Finset.sum_const_zero

/-- THE ROW SCATTER-ADD AT (n, h): the operand's entry plus the entries (e, h) of the update rows e whose start index,
    read signed and not clamped, is n. -/
theorem hostScatterAdd_row_apply {N C M w : Nat}
    (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![M, 1]⟩ w) (upd : (⟨2, ![M, C]⟩ : Shape).Idx → EReal)
    (n : Fin N) (h : Fin C) :
    Ideal.hostScatterAdd d x idx upd (ix2 n h)
      = x (ix2 n h) + ∑ e ∈ Finset.univ.filter (fun e : Fin M => (idx (ix2 e (0 : Fin 1))).toInt = (n.val : Int)),
          upd (ix2 e h) := by
  obtain ⟨uw, iw, sd, iv, wf⟩ := d
  simp only at huw hiw hsd hiv
  subst huw hiw hsd hiv
  exact rowScatter_apply wf x idx upd n h

/-- The same for the program's operation at the exact instance (whatever the float format). -/
theorem scatterAdd_row_apply {φ : FTy} {N C M w : Nat}
    (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : FVec Ideal ⟨2, ![N, C]⟩ φ) (idx : IVec ⟨2, ![M, 1]⟩ w) (upd : FVec Ideal ⟨2, ![M, C]⟩ φ)
    (n : Fin N) (h : Fin C) :
    Host.scatterAdd d x idx upd (ix2 n h)
      = x (ix2 n h) + ∑ e ∈ Finset.univ.filter (fun e : Fin M => (idx (ix2 e (0 : Fin 1))).toInt = (n.val : Int)),
          upd (ix2 e h) :=
  hostScatterAdd_row_apply d huw hiw hsd hiv x idx upd n h

/-! ## (c) A scatter-add of scalars into a vector, read at an index -/

/-- A sum over a rank-1 index set is the sum over its coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The scalar scatter's dimension numbers for an operand [N], start indices [M, 1] and updates [M]. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update e of a scalar scatter lands at n exactly when its start index, read signed, is n. -/
theorem vecScatter_lands {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (vecScatter N M wf).resultIdx? (ix1 e) idx = some (ix1 n) ↔ (idx (ix2 e (0 : Fin 1))).toInt = (n.val : Int) := by
  rw [resultIdx?_eq_some_iff]
  have hs0 : (vecScatter N M wf).start (ix1 e) idx 0 = (idx (ix2 e (0 : Fin 1))).toInt := by
    unfold ScatterDims.start
    rw [dif_pos (show (0 : Fin 1) ∈ (vecScatter N M wf).scatterDimsToOperandDims from List.mem_singleton.mpr rfl)]
    have hsi : (vecScatter N M wf).siIdx (ix1 e) ⟨List.idxOf (0 : Fin 1) (vecScatter N M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatter N M wf).window (ix1 e) 0 = 0 := by
    unfold ScatterDims.window
    rw [dif_neg]
    intro hm
    have := (List.mem_filter.mp hm).2
    simp at this
  constructor
  · intro H
    have H0 : (vecScatter N M wf).start (ix1 e) idx 0 + ((vecScatter N M wf).window (ix1 e) 0 : Int)
        = (n.val : Int) := H 0
    rw [hs0, hw0] at H0
    simpa using H0
  · intro H a
    match a with
    | ⟨0, _⟩ =>
      show (vecScatter N M wf).start (ix1 e) idx 0 + ((vecScatter N M wf).window (ix1 e) 0 : Int) = (n.val : Int)
      rw [hs0, hw0, H]; simp

/-- The scalar scatter-add with those dimension numbers, read at n. -/
theorem vecScatter_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (vecScatter N M wf) x idx upd (ix1 n)
      = x (ix1 n) + ∑ e ∈ Finset.univ.filter (fun e : Fin M => (idx (ix2 e (0 : Fin 1))).toInt = (n.val : Int)),
          upd (ix1 e) := by
  unfold Ideal.hostScatterAdd
  congr 1
  rw [Finset.sum_filter, sum_idx1, Finset.sum_filter]
  refine Finset.sum_congr rfl fun e _ => ?_
  simp only [vecScatter_lands]

/-- THE SCALAR SCATTER-ADD AT n: the operand's entry plus the updates e whose start index, read signed and not
    clamped, is n. -/
theorem hostScatterAdd_vec_apply {N M w : Nat}
    (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![M, 1]⟩ w) (upd : (⟨1, ![M]⟩ : Shape).Idx → EReal)
    (n : Fin N) :
    Ideal.hostScatterAdd d x idx upd (ix1 n)
      = x (ix1 n) + ∑ e ∈ Finset.univ.filter (fun e : Fin M => (idx (ix2 e (0 : Fin 1))).toInt = (n.val : Int)),
          upd (ix1 e) := by
  obtain ⟨uw, iw, sd, iv, wf⟩ := d
  simp only at huw hiw hsd hiv
  subst huw hiw hsd hiv
  exact vecScatter_apply wf x idx upd n

/-- The same for the program's operation at the exact instance. -/
theorem scatterAdd_vec_apply {φ : FTy} {N M w : Nat}
    (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![M, 1]⟩ w) (upd : FVec Ideal ⟨1, ![M]⟩ φ)
    (n : Fin N) :
    Host.scatterAdd d x idx upd (ix1 n)
      = x (ix1 n) + ∑ e ∈ Finset.univ.filter (fun e : Fin M => (idx (ix2 e (0 : Fin 1))).toInt = (n.val : Int)),
          upd (ix1 e) :=
  hostScatterAdd_vec_apply d huw hiw hsd hiv x idx upd n

/-- When every start index is below 2^31, "read signed it is n" is "its value is n". -/
theorem filter_toInt_eq {M : Nat} (I : Fin M → BitVec 32) (hI : ∀ e, (I e).toNat < 2 ^ 31) (n : Nat) :
    Finset.univ.filter (fun e : Fin M => (I e).toInt = (n : Int))
      = Finset.univ.filter (fun e : Fin M => (I e).toNat = n) := by
  refine Finset.filter_congr fun e _ => ?_
  rw [BitVec.toInt_eq_toNat_of_lt (by have := hI e; omega)]
  exact Int.natCast_inj

/-! ## (d) Words -/

/-- A 32-bit word below 2^31 reads the same signed and unsigned. -/
theorem toInt_eq_toNat (w : BitVec 32) (h : w.toNat < 2 ^ 31) : w.toInt = (w.toNat : Int) :=
  BitVec.toInt_eq_toNat_of_lt (by omega)

/-- The word of a natural below 2^32 has that value. -/
theorem toNat_ofNat_lt (k : Nat) (h : k < 2 ^ 32) : (BitVec.ofNat 32 k).toNat = k := by
  rw [BitVec.toNat_ofNat]; exact Nat.mod_eq_of_lt h

/-- A product plus a sum of words that stays below 2^32 does not wrap. -/
theorem toNat_mul_add (a c b : BitVec 32) (h : a.toNat * c.toNat + b.toNat < 2 ^ 32) :
    (a * c + b).toNat = a.toNat * c.toNat + b.toNat := by
  have h1 : a.toNat * c.toNat < 2 ^ 32 := Nat.lt_of_le_of_lt (Nat.le_add_right _ _) h
  rw [BitVec.toNat_add, BitVec.toNat_mul, Nat.mod_eq_of_lt h1, Nat.mod_eq_of_lt h]

/-- The fused index 3a + b as a word: no wrap while 3a + b < 2^32. -/
theorem toNat_mul3_add (a b : BitVec 32) (h : 3 * a.toNat + b.toNat < 2 ^ 32) :
    (a * 3#32 + b).toNat = 3 * a.toNat + b.toNat := by
  have h3 : (3#32 : BitVec 32).toNat = 3 := by decide
  rw [toNat_mul_add a 3#32 b (by rw [h3]; omega), h3]; omega

/-- The same through the integer operations' names. -/
theorem toNat_muli3_addi (a b : BitVec 32) (h : 3 * a.toNat + b.toNat < 2 ^ 32) :
    (IntOp.addi (IntOp.muli a 3#32) b).toNat = 3 * a.toNat + b.toNat :=
  toNat_mul3_add a b h

/-- The pair (a, b) with b < 3 is recovered from 3a + b. -/
theorem fused3_inj {a a' b b' : Nat} (hb : b < 3) (hb' : b' < 3) : 3 * a + b = 3 * a' + b' ↔ a = a' ∧ b = b' := by
  omega

/-- Its quotient by 3 is a. -/
theorem fused3_div {a b : Nat} (hb : b < 3) : (3 * a + b) / 3 = a := by
  omega

/-- Its remainder by 3 is b. -/
theorem fused3_mod {a b : Nat} (hb : b < 3) : (3 * a + b) % 3 = b := by
  omega

/-! ## (e) Literals and one-bit conversions at the exact instance -/

/-- The f32 word 0x3F800000 is one. -/
theorem ofBits_one_f32 : Ideal.ofBits .f32 0x3F800000#32 = (1 : EReal) := Ideal.ofBits_one_f32

/-- The f32 word 0 is zero. -/
theorem ofBits_zero_f32 : Ideal.ofBits .f32 0#32 = (0 : EReal) := Ideal.ofBits_zero_f32

/-- A one-bit word is 0 or 1. -/
theorem bit_cases (b : BitVec 1) : b = 0#1 ∨ b = 1#1 := by
  revert b; decide

/-- A one-bit word converted unsigned is one when the bit is set and zero when it is not. -/
theorem uitofp_bit {φ : FTy} (b : BitVec 1) : (FloatOps.uitofp φ b : Ideal φ) = if b = 1#1 then (1 : EReal) else 0 := by
  show (((b.toNat : ℝ)) : EReal) = _
  rcases bit_cases b with rfl | rfl
  · rw [if_neg (by decide)]; simp
  · rw [if_pos rfl]; simp

/-- The set bit converts to one. -/
theorem uitofp_bit_one {φ : FTy} : (FloatOps.uitofp φ (1#1 : BitVec 1) : Ideal φ) = (1 : EReal) := by
  rw [uitofp_bit, if_pos rfl]

/-- The clear bit converts to zero. -/
theorem uitofp_bit_zero {φ : FTy} : (FloatOps.uitofp φ (0#1 : BitVec 1) : Ideal φ) = (0 : EReal) := by
  rw [uitofp_bit, if_neg (by decide)]

/-- A one-bit word widened to 32 bits and converted signed: one when the bit is set, zero when it is not. -/
theorem sitofp_setWidth_bit {φ : FTy} (b : BitVec 1) :
    (FloatOps.sitofp φ (b.setWidth 32) : Ideal φ) = if b = 1#1 then (1 : EReal) else 0 := by
  show ((((b.setWidth 32).toInt : ℝ)) : EReal) = _
  rcases bit_cases b with rfl | rfl
  · rw [if_neg (by decide), show ((0#1 : BitVec 1).setWidth 32).toInt = 0 by decide]; simp
  · rw [if_pos rfl, show ((1#1 : BitVec 1).setWidth 32).toInt = 1 by decide]; simp

/-! ## (f) Sums -/

/-- A filtered sum is the sum of the terms switched by the condition. -/
theorem sum_filter_eq_ite {ι : Type*} (S : Finset ι) (p : ι → Prop) [DecidablePred p] (f : ι → EReal) :
    ∑ e ∈ S.filter p, f e = ∑ e ∈ S, (if p e then f e else 0) :=
  Finset.sum_filter p f

/-- A term times an indicator is the term or zero (no finiteness needed: x · 1 = x and x · 0 = 0 at ±∞ too). -/
theorem mul_ite_one_zero (x : EReal) (c : Prop) [Decidable c] : x * (if c then (1 : EReal) else 0) = if c then x else 0 := by
  split_ifs
  · exact mul_one x
  · exact mul_zero x

/-- The same with the indicator on the left. -/
theorem ite_one_zero_mul (x : EReal) (c : Prop) [Decidable c] : (if c then (1 : EReal) else 0) * x = if c then x else 0 := by
  split_ifs
  · exact one_mul x
  · exact zero_mul x

/-- A filtered sum of terms each masked by an indicator is the sum over the doubly filtered set. -/
theorem sum_filter_mul_ite {ι : Type*} (S : Finset ι) (p q : ι → Prop) [DecidablePred p] [DecidablePred q] (f : ι → EReal) :
    ∑ e ∈ S.filter p, f e * (if q e then (1 : EReal) else 0) = ∑ e ∈ S.filter (fun e => p e ∧ q e), f e := by
  rw [← Finset.filter_filter, Finset.sum_filter q f]
  exact Finset.sum_congr rfl fun e _ => mul_ite_one_zero (f e) (q e)

/-- The same with the indicator on the left. -/
theorem sum_filter_ite_mul {ι : Type*} (S : Finset ι) (p q : ι → Prop) [DecidablePred p] [DecidablePred q] (f : ι → EReal) :
    ∑ e ∈ S.filter p, (if q e then (1 : EReal) else 0) * f e = ∑ e ∈ S.filter (fun e => p e ∧ q e), f e := by
  rw [← Finset.filter_filter, Finset.sum_filter q f]
  exact Finset.sum_congr rfl fun e _ => ite_one_zero_mul (f e) (q e)

/-- The masked scatter's form: over the edges into n, a term masked by "the relation is r" sums over the edges of
    relation r into n. -/
theorem sum_filter_eq_mul_ite_eq {ι κ ρ : Type*} [Fintype ι] [DecidableEq κ] [DecidableEq ρ] (D : ι → κ) (R : ι → ρ)
    (n : κ) (r : ρ) (f : ι → EReal) :
    ∑ e ∈ Finset.univ.filter (fun e => D e = n), f e * (if R e = r then (1 : EReal) else 0)
      = ∑ e ∈ Finset.univ.filter (fun e => D e = n ∧ R e = r), f e :=
  sum_filter_mul_ite Finset.univ (fun e => D e = n) (fun e => R e = r) f

/-- A filtered sum of indicators counts the doubly filtered set (each member weighing one). -/
theorem sum_filter_ite_one {ι : Type*} (S : Finset ι) (p q : ι → Prop) [DecidablePred p] [DecidablePred q] :
    ∑ e ∈ S.filter p, (if q e then (1 : EReal) else 0) = ∑ _e ∈ S.filter (fun e => p e ∧ q e), (1 : EReal) := by
  rw [← Finset.filter_filter, Finset.sum_filter q (fun _ => (1 : EReal))]

end Cert.LibSG

end
-- ==== Proof.RefStages.lean ====
/-
  The reference's compute stages, as the specification's functions of its earlier stages.
  Each stage of the reference is one host operation of the stage values before it; read index by index, the two matrix
  products are sums of products, a layer's finish is  agg + d·h + b  through two broadcasts, max(·, 0) is an entrywise
  maximum with a splat of zero, and a score is a row sum of products plus the broadcast bias.  The last two stages
  also read the pooled table at a node's graph id: a gather of rows, which is the table's row itself when the id is
  one of the 64 row numbers.
-/
import proofs.«415712_j89103391523491_2_alg».proof.Proof.Gen.ReferenceIdeal.Read
import proofs.«415712_j89103391523491_2_alg».proof.Proof.Spec
import proofs.«415712_j89103391523491_2_alg».proof.Proof.LibScatterGather
import Idealize.ShloMosaic.Lib.Pipeline.Value
import Idealize.ShloMosaic.Lib.ValueIdx
import Idealize.ShloMosaic.PureOps.Ideal.Laws
import Idealize.ShloMosaic.Lib.StableHlo.Predicate

noncomputable section

open Idealize.ShloMosaic Idealize.ShloMosaic.ValueIdx

namespace Cert.ReferenceIdeal.Stages

open Cert.ReferenceIdeal Cert.ReferenceIdeal.Read
open Cert.Spec (mm fin relu colOf rowOf flat colI one pick rows score)

/-- A word below 2^31 is not negative read signed, so the wrap-around of a negative index leaves it as it is. -/
theorem select_slt_zero (w A : BitVec 32) (hw : w.toNat < 2 ^ 31) :
    Scalar.select (IntOp.cmpi .slt w 0#32) A w = w := by
  have h : ¬ IntOp.cmpi .slt w 0#32 = 1#1 := by
    rw [StableHlo.Predicate.slt_iff_toNat hw (by decide)]
    exact Nat.not_lt_zero _
  exact if_neg h

/-- The indicator row of an id below 64 times a product of the table is the product of the table's row at the id. -/
theorem pick_mm {n k m : Nat} (id : (⟨1, ![n]⟩ : Shape).Idx → BitVec 32) (hb : ∀ r : Fin n, (id (ix1 r)).toNat < 64)
    (T : Cert.Spec.Mat 64 k) (W : Cert.Spec.Mat k m) :
    pick (colI id) (mm T W) = mm (rows (fun r => (⟨(id (ix1 r)).toNat, hb r⟩ : Fin 64)) T) W := by
  rw [Cert.Spec.pick_eq_rows (colI id) (mm T W) (fun r => (⟨(id (ix1 r)).toNat, hb r⟩ : Fin 64)) (by decide) (fun r => rfl),
    Cert.Spec.rows_mm]

variable (x0 : (⟨S50000x128, .f32⟩ : BufTy).Contents (Elt Ideal)) (x1 : (⟨S128x256, .f32⟩ : BufTy).Contents (Elt Ideal))
  (x2 : (⟨S256, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal))
  (x6 : (⟨S_, .f32⟩ : BufTy).Contents (Elt Ideal)) (x7 x8 : (⟨S800000, .i32⟩ : BufTy).Contents (Elt Ideal))
  (x9 x10 : (⟨S50000, .i32⟩ : BufTy).Contents (Elt Ideal))

/-- x · W1. -/
theorem st_v8 : val_main_v8 (F := Ideal) x0 x1 = mm x0 x1 := by
  funext i
  rw [val_main_v8_apply]
  unfold mm
  refine Finset.sum_congr rfl fun k _ => ?_
  have el : lidx_main_v8 i k = ix2 (i 0) k := funext fun a => Fin.ext (by match a with | ⟨0, _⟩ => rfl | ⟨1, _⟩ => rfl)
  have er : ridx_main_v8 i k = ix2 k (i 1) := funext fun a => Fin.ext (by match a with | ⟨0, _⟩ => rfl | ⟨1, _⟩ => rfl)
  rw [el, er] <;> rfl

/-- x[perm] · W1. -/
theorem st_v108 : val_main_v108 (F := Ideal) x0 x1 x10 = mm (val_main_v107 (F := Ideal) x0 x10) x1 := by
  funext i
  rw [val_main_v108_apply]
  unfold mm
  refine Finset.sum_congr rfl fun k _ => ?_
  have el : lidx_main_v108 i k = ix2 (i 0) k := funext fun a => Fin.ext (by match a with | ⟨0, _⟩ => rfl | ⟨1, _⟩ => rfl)
  have er : ridx_main_v108 i k = ix2 k (i 1) := funext fun a => Fin.ext (by match a with | ⟨0, _⟩ => rfl | ⟨1, _⟩ => rfl)
  rw [el, er] <;> rfl

/-- The second layer, finished (positive pass): h1. -/
theorem st_v82 : val_main_v82 (F := Ideal) x0 x1 x2 x3 x4 x7 x8
    = fin (val_main_v74 (F := Ideal) x0 x1 x2 x3 x7 x8) (val_main_v46 (F := Ideal) x0 x1 x2 x3 x7 x8)
        (colOf (val_main_v75 (F := Ideal) x8)) (rowOf x4) := by
  funext i
  have e1 : idx_main_v76 (idx_main_v77 i) = ix1 (i 0) := funext fun a => Fin.ext (by match a with | ⟨0, _⟩ => rfl)
  have e2 : idx_main_v80 (idx_main_v81 i) = ix1 (i 1) := funext fun a => Fin.ext (by match a with | ⟨0, _⟩ => rfl)
  rw [val_main_v82_apply, val_main_v79_apply, val_main_v78_apply, val_main_v77_apply, val_main_v76_apply,
    val_main_v81_apply, val_main_v80_apply, e1, e2]
  rfl

/-- The second layer, finished (negative pass): h2. -/
theorem st_v182 : val_main_v182 (F := Ideal) x0 x1 x2 x3 x4 x7 x8 x10
    = fin (val_main_v174 (F := Ideal) x0 x1 x2 x3 x7 x8 x10) (val_main_v146 (F := Ideal) x0 x1 x2 x3 x7 x8 x10)
        (colOf (val_main_v175 (F := Ideal) x8)) (rowOf x4) := by
  funext i
  have e1 : idx_main_v176 (idx_main_v177 i) = ix1 (i 0) := funext fun a => Fin.ext (by match a with | ⟨0, _⟩ => rfl)
  have e2 : idx_main_v180 (idx_main_v181 i) = ix1 (i 1) := funext fun a => Fin.ext (by match a with | ⟨0, _⟩ => rfl)
  rw [val_main_v182_apply, val_main_v179_apply, val_main_v178_apply, val_main_v177_apply, val_main_v176_apply,
    val_main_v181_apply, val_main_v180_apply, e1, e2]
  rfl

/-- The first layer, finished and clamped at zero (positive pass). -/
theorem st_v45 : val_main_v45 (F := Ideal) x0 x1 x2 x7 x8
    = relu (fin (val_main_v36 (F := Ideal) x0 x1 x7 x8) (val_main_v8 (F := Ideal) x0 x1)
        (colOf (val_main_v37 (F := Ideal) x8)) (rowOf x2)) := by
  funext i
  have e1 : idx_main_v38 (idx_main_v39 i) = ix1 (i 0) := funext fun a => Fin.ext (by match a with | ⟨0, _⟩ => rfl)
  have e2 : idx_main_v42 (idx_main_v43 i) = ix1 (i 1) := funext fun a => Fin.ext (by match a with | ⟨0, _⟩ => rfl)
  rw [val_main_v45_apply, val_main_v44_apply, val_main_v41_apply, val_main_v40_apply, val_main_v39_apply,
    val_main_v38_apply, val_main_v43_apply, val_main_v42_apply, val_main_call0_v0_apply, val_main_call0_cst_apply,
    e1, e2, Ideal.ofBits_def, Ideal.ofBits_zero_f32]
  rfl

/-- The first layer, finished, clamped at zero, times W2 (positive pass). -/
theorem st_v46 : val_main_v46 (F := Ideal) x0 x1 x2 x3 x7 x8
    = mm (relu (fin (val_main_v36 (F := Ideal) x0 x1 x7 x8) (val_main_v8 (F := Ideal) x0 x1)
        (colOf (val_main_v37 (F := Ideal) x8)) (rowOf x2))) x3 := by
  rw [← st_v45]
  funext i
  rw [val_main_v46_apply]
  unfold mm
  refine Finset.sum_congr rfl fun k _ => ?_
  have el : lidx_main_v46 i k = ix2 (i 0) k := funext fun a => Fin.ext (by match a with | ⟨0, _⟩ => rfl | ⟨1, _⟩ => rfl)
  have er : ridx_main_v46 i k = ix2 k (i 1) := funext fun a => Fin.ext (by match a with | ⟨0, _⟩ => rfl | ⟨1, _⟩ => rfl)
  rw [el, er] <;> rfl

/-- The first layer, finished and clamped at zero (negative pass). -/
theorem st_v145 : val_main_v145 (F := Ideal) x0 x1 x2 x7 x8 x10
    = relu (fin (val_main_v136 (F := Ideal) x0 x1 x7 x8 x10) (val_main_v108 (F := Ideal) x0 x1 x10)
        (colOf (val_main_v137 (F := Ideal) x8)) (rowOf x2)) := by
  funext i
  have e1 : idx_main_v138 (idx_main_v139 i) = ix1 (i 0) := funext fun a => Fin.ext (by match a with | ⟨0, _⟩ => rfl)
  have e2 : idx_main_v142 (idx_main_v143 i) = ix1 (i 1) := funext fun a => Fin.ext (by match a with | ⟨0, _⟩ => rfl)
  rw [val_main_v145_apply, val_main_v144_apply, val_main_v141_apply, val_main_v140_apply, val_main_v139_apply,
    val_main_v138_apply, val_main_v143_apply, val_main_v142_apply, val_main_call1_v0_apply, val_main_call1_cst_apply,
    e1, e2, Ideal.ofBits_def, Ideal.ofBits_zero_f32]
  rfl

/-- The first layer, finished, clamped at zero, times W2 (negative pass). -/
theorem st_v146 : val_main_v146 (F := Ideal) x0 x1 x2 x3 x7 x8 x10
    = mm (relu (fin (val_main_v136 (F := Ideal) x0 x1 x7 x8 x10) (val_main_v108 (F := Ideal) x0 x1 x10)
        (colOf (val_main_v137 (F := Ideal) x8)) (rowOf x2))) x3 := by
  rw [← st_v145]
  funext i
  rw [val_main_v146_apply]
  unfold mm
  refine Finset.sum_congr rfl fun k _ => ?_
  have el : lidx_main_v146 i k = ix2 (i 0) k := funext fun a => Fin.ext (by match a with | ⟨0, _⟩ => rfl | ⟨1, _⟩ => rfl)
  have er : ridx_main_v146 i k = ix2 k (i 1) := funext fun a => Fin.ext (by match a with | ⟨0, _⟩ => rfl | ⟨1, _⟩ => rfl)
  rw [el, er] <;> rfl

/-- The wrapped graph id read at a node is the id itself, when it is below 64. -/
theorem v188_at (hb : ∀ r : Fin 50000, (x9 (ix1 r)).toNat < 64) (r : Fin 50000) :
    val_main_v188 (F := Ideal) x9 (ix2 r (0 : Fin 1)) = x9 (ix1 r) := by
  have e : idx_main_v188 (ix2 r (0 : Fin 1)) = ix1 r := funext fun a => Fin.ext (by match a with | ⟨0, _⟩ => rfl)
  rw [val_main_v188_apply, val_main_v187_apply, val_main_v184_apply, val_main_v183_apply, val_main_c_38_apply, e]
  exact select_slt_zero _ _ (lt_trans (hb r) (by decide))

/-- The gathered table row at a node is the table's row at the node's graph id. -/
theorem v189_at (hb : ∀ r : Fin 50000, (x9 (ix1 r)).toNat < 64) (r : Fin 50000) (k : Fin 256) :
    val_main_v189 (F := Ideal) x0 x1 x2 x3 x4 x7 x8 x9 (ix2 r k)
      = val_main_v100 (F := Ideal) x0 x1 x2 x3 x4 x7 x8 x9 (ix2 (⟨(x9 (ix1 r)).toNat, hb r⟩ : Fin 64) k) := by
  have hidx := v188_at x9 hb r
  have hlt : (val_main_v188 (F := Ideal) x9 (ix2 r (0 : Fin 1))).toNat < 64 := by rw [hidx]; exact hb r
  unfold val_main_v189
  refine (Cert.LibSG.gather_row_apply_of_lt (by decide) _ rfl rfl rfl rfl rfl rfl rfl _ _ r k hlt).trans ?_
  exact congrArg (fun q : Fin 64 => val_main_v100 (F := Ideal) x0 x1 x2 x3 x4 x7 x8 x9 (ix2 q k))
    (Fin.ext (congrArg BitVec.toNat hidx))

/-- The gathered rows times Wbᵀ: the product of the table's rows at the graph ids with Wbᵀ. -/
theorem st_v191 (hb : ∀ r : Fin 50000, (x9 (ix1 r)).toNat < 64) :
    val_main_v191 (F := Ideal) x0 x1 x2 x3 x4 x5 x7 x8 x9
      = mm (rows (fun r : Fin 50000 => (⟨(x9 (ix1 r)).toNat, hb r⟩ : Fin 64)) (val_main_v100 (F := Ideal) x0 x1 x2 x3 x4 x7 x8 x9))
          (val_main_v190 (F := Ideal) x5) := by
  funext i
  obtain ⟨p, q, rfl⟩ : ∃ (p : Fin 50000) (q : Fin 256), i = ix2 p q := ⟨i 0, i 1, eq_ix2 i⟩
  rw [val_main_v191_apply]
  unfold mm rows
  refine Finset.sum_congr rfl fun k _ => ?_
  have el : lidx_main_v191 (ix2 p q) k = ix2 p k := funext fun a => Fin.ext (by match a with | ⟨0, _⟩ => rfl | ⟨1, _⟩ => rfl)
  have er : ridx_main_v191 (ix2 p q) k = ix2 k q := funext fun a => Fin.ext (by match a with | ⟨0, _⟩ => rfl | ⟨1, _⟩ => rfl)
  rw [el, er, v189_at x0 x1 x2 x3 x4 x7 x8 x9 hb p k] <;> rfl

/-- The row sum of h · t from zero, plus the bias, read at a node: the node's score. -/
theorem score_row (H Tt : (⟨S50000x256, .f32⟩ : BufTy).Contents (Elt Ideal)) (b : (⟨S_, .f32⟩ : BufTy).Contents (Elt Ideal))
    (i : S50000.Idx) (j1 : S_.Idx) (idx : Fin 256 → S50000x256.Idx) (hidx : ∀ k, idx k = ix2 (i 0) k) :
    FloatOps.addf (FloatOps.ofBits (F := Ideal) .f32 0x00000000#32 + ∑ k : Fin 256, mulf H Tt (idx k)) (b j1)
      = flat (score H Tt (one b)) i := by
  have hj : j1 = ix0 := eq_ix0 j1
  subst hj
  simp only [mulf_apply, hidx, Ideal.ofBits_def, Ideal.ofBits_zero_f32, Ideal.addf_def, zero_add]
  rfl

/-- The positive scores, when every graph id is one of the 64 row numbers: the gathered table row times Wbᵀ is the
    indicator row times (table · Wbᵀ). -/
theorem st_v195 (hb : ∀ r : Fin 50000, (x9 (ix1 r)).toNat < 64) :
    val_main_v195 (F := Ideal) x0 x1 x2 x3 x4 x5 x6 x7 x8 x9
      = flat (score (val_main_v82 (F := Ideal) x0 x1 x2 x3 x4 x7 x8)
          (pick (colI x9) (mm (val_main_v100 (F := Ideal) x0 x1 x2 x3 x4 x7 x8 x9) (val_main_v190 (F := Ideal) x5))) (one x6)) := by
  rw [pick_mm x9 hb, ← st_v191 x0 x1 x2 x3 x4 x5 x7 x8 x9 hb]
  funext i
  rw [val_main_v195_apply, val_main_v193_apply, val_main_v194_apply, val_main_cst_40_apply]
  delta val_main_v192
  exact score_row _ _ x6 i _ (fun k => idx_main_v193 i k) (fun k => funext fun a => Fin.ext (by match a with | ⟨0, _⟩ => rfl | ⟨1, _⟩ => rfl))

/-- The negative scores, likewise. -/
theorem st_v199 (hb : ∀ r : Fin 50000, (x9 (ix1 r)).toNat < 64) :
    val_main_v199 (F := Ideal) x0 x1 x2 x3 x4 x5 x6 x7 x8 x9 x10
      = flat (score (val_main_v182 (F := Ideal) x0 x1 x2 x3 x4 x7 x8 x10)
          (pick (colI x9) (mm (val_main_v100 (F := Ideal) x0 x1 x2 x3 x4 x7 x8 x9) (val_main_v190 (F := Ideal) x5))) (one x6)) := by
  rw [pick_mm x9 hb, ← st_v191 x0 x1 x2 x3 x4 x5 x7 x8 x9 hb]
  funext i
  rw [val_main_v199_apply, val_main_v197_apply, val_main_v198_apply, val_main_cst_41_apply]
  delta val_main_v196
  exact score_row _ _ x6 i _ (fun k => idx_main_v197 i k) (fun k => funext fun a => Fin.ext (by match a with | ⟨0, _⟩ => rfl | ⟨1, _⟩ => rfl))

end Cert.ReferenceIdeal.Stages

end
-- ==== Proof.KLayout.lean ====
/-
  The kernel program's layout changes on the host, read as the specification's: a vector reshaped to a column or to a
  row, a scalar to a 1 × 1 array, a column flattened to a vector.  Each keeps the row-major position of every entry, so
  entry (r, 0) of the column is entry r of the vector, and so on.
-/
import proofs.«415712_j89103391523491_2_alg».proof.KernelIdeal
import proofs.«415712_j89103391523491_2_alg».proof.Proof.Gen.KernelIdeal
import proofs.«415712_j89103391523491_2_alg».proof.Proof.Spec
import Idealize.ShloMosaic.Lib.Pipeline.Value
import Idealize.ShloMosaic.Lib.ValueIdx
import Idealize.ShloMosaic.Lib.ValueLayout

noncomputable section

open Idealize.ShloMosaic Idealize.ShloMosaic.ValueIdx

namespace Cert.KernelIdeal.KLayout

open Cert.KernelIdeal Cert.KernelIdeal.Gen
open Cert.Spec (colOf rowOf flat colI one)

/-- A length-n vector reshaped [n] → [n, 1] is the vector as a column (any entry type). -/
theorem col_apply {α : Type} {n : Nat} (x : (⟨1, ![n]⟩ : Shape).Idx → α) (h : (⟨1, ![n]⟩ : Shape).ShapeCasts ⟨2, ![n, 1]⟩)
    (i : (⟨2, ![n, 1]⟩ : Shape).Idx) : shapeCast ⟨2, ![n, 1]⟩ x h i = x (ix1 (i 0)) :=
  shapeCast_apply x h _ _ (by
    have h1 : (i 1).val = 0 := by have := (i 1).isLt; simp at this; omega
    rw [Shape.rowMajor_val_two, Shape.rowMajor_val_one]
    show (i 0).val = (i 0).val * 1 + (i 1).val
    rw [h1]; omega)

/-- A length-m vector reshaped [m] → [1, m] is the vector as a row. -/
theorem row_apply {α : Type} {k : Nat} (x : (⟨1, ![k]⟩ : Shape).Idx → α) (h : (⟨1, ![k]⟩ : Shape).ShapeCasts ⟨2, ![1, k]⟩)
    (i : (⟨2, ![1, k]⟩ : Shape).Idx) : shapeCast ⟨2, ![1, k]⟩ x h i = x (ix1 (i 1)) :=
  shapeCast_apply x h _ _ (by
    have h0 : (i 0).val = 0 := by have := (i 0).isLt; simp at this; omega
    rw [Shape.rowMajor_val_two, Shape.rowMajor_val_one]
    show (i 1).val = (i 0).val * k + (i 1).val
    rw [h0]; omega)

/-- A column [n, 1] flattened to [n] reads entry (r, 0). -/
theorem flat_apply {α : Type} {n : Nat} (y : (⟨2, ![n, 1]⟩ : Shape).Idx → α) (h : (⟨2, ![n, 1]⟩ : Shape).ShapeCasts ⟨1, ![n]⟩)
    (i : (⟨1, ![n]⟩ : Shape).Idx) : shapeCast ⟨1, ![n]⟩ y h i = y (ix2 (i 0) (0 : Fin 1)) :=
  shapeCast_apply y h _ _ (by
    rw [Shape.rowMajor_val_two, Shape.rowMajor_val_one]
    show (i 0).val * 1 + 0 = (i 0).val
    omega)

/-- The self-loop weights reshaped to a column. -/
theorem col_eq (x : FVec Ideal S50000 .f32) :
    (shapeCast S50000x1 x shapeCasts_S50000_S50000x1 : FVec Ideal S50000x1 .f32) = colOf x :=
  funext fun i => col_apply x _ i

/-- The graph ids reshaped to a column of words. -/
theorem colI_eq (x : IVec S50000 32) :
    (shapeCast S50000x1 x shapeCasts_S50000_S50000x1 : IVec S50000x1 32) = colI x :=
  funext fun i => col_apply x _ i

/-- A bias vector reshaped to a row. -/
theorem row_eq (b : FVec Ideal S256 .f32) :
    (shapeCast S1x256 b shapeCasts_S256_S1x256 : FVec Ideal S1x256 .f32) = rowOf b :=
  funext fun i => row_apply b _ i

/-- A score column flattened. -/
theorem flat_eq (y : FVec Ideal S50000x1 .f32) :
    (shapeCast S50000 y shapeCasts_S50000x1_S50000 : FVec Ideal S50000 .f32) = flat y :=
  funext fun i => flat_apply y _ i

/-- The scalar bias reshaped to 1 × 1. -/
theorem one_eq (x : FVec Ideal S_ .f32) :
    (shapeCast S1x1 x shapeCasts_S_S1x1 : FVec Ideal S1x1 .f32) = one x :=
  funext fun i => shapeCast_apply x _ i ix0 (by
    have h0 : (i 0).val = 0 := by have := (i 0).isLt; simp at this; omega
    have h1 : (i 1).val = 0 := by have := (i 1).isLt; simp at this; omega
    rw [Shape.rowMajor_val_two]
    show (S_.rowMajor ix0).val = (i 0).val * 1 + (i 1).val
    rw [h0, h1]
    have hn : S_.numel = 1 := by decide
    have hlt : (S_.rowMajor ix0).val < 1 := hn ▸ (S_.rowMajor ix0).isLt
    omega)

end Cert.KernelIdeal.KLayout

end
-- ==== Proof.Reg0.lean ====
import proofs.«415712_j89103391523491_2_alg».proof.Proof.Gen.KernelIdeal.Frame
import proofs.«415712_j89103391523491_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen

/-- Both block offsets of a whole-block rectangle are zero. -/
theorem hz : (![0, 0] : Fin 2 → Nat) = fun _ => 0 := funext fun a => by fin_cases a <;> rfl

/-! ## The product's operand indices: at output index (r, c) and contraction index l they are (r, l) and (l, c) -/

theorem lhs_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The body's f32 payload at entry (p, q) of a block: Σ_l x(p, l) · w(l, q). The two roundings of the operands to a
    narrower format are the identity on the extended reals, and the accumulator is the zero splat. -/
theorem pay1_apply (x : Vec Ideal S2000x128 .f32) (w : Vec Ideal S128x256 .f32) (p : Fin 2000) (q : Fin 256) :
    k0_pay1 (F := Ideal) x w (ix2 p q) = ∑ l : Fin 128, x (ix2 p l) * w (ix2 l q) := by
  unfold k0_pay1
  refine (Ideal.matmul_constant_zero_apply dot_S2000x128_S128x256_S2000x256_1_0_0_1_n_n none _ _ (ix2 p q)).trans ?_
  rw [← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs_0 _ _).trans hk
    | ⟨1, _⟩ => exact rhs_1 _ _)
  rw [el, er]
  rfl

/-- The bf16 payload holds the same extended reals. -/
theorem pay2_apply (x : Vec Ideal S2000x128 .f32) (w : Vec Ideal S128x256 .f32) (p : Fin 2000) (q : Fin 256) :
    k0_pay2 (F := Ideal) x w (ix2 p q) = ∑ l : Fin 128, x (ix2 p l) * w (ix2 l q) :=
  pay1_apply x w p q

/-- The printed index maps, decided once over the grid: the row-block windows sit at block (t, 0), the resident
    weight window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The left operand's block at point t is rows 2000·t … 2000·t + 1999 of the array. -/
theorem iblk_x (c : Dev nD) (t : Fin cfg0.N) (y : S2000x128.Idx) (k : S50000x128.Idx)
    (hk0 : (k 0).val = t.val * 2000 + (y 0).val) (hk1 : (k 1).val = (y 1).val) :
    iblk0 (F := Ideal) V c 0 t y = V c main_arg0 k := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * (y 0).val = (k 0).val; omega
  | ⟨1, _⟩ => show win0_0.index t (1 : Fin 2) * 128 + 1 * (y 1).val = (k 1).val; omega

/-- The right operand's block at every point is the whole array. -/
theorem iblk_w (c : Dev nD) (t : Fin cfg0.N) (y : S128x256.Idx) :
    iblk0 (F := Ideal) V c 1 t y = V c main_arg1 y := by
  obtain ⟨-, -, e2, e3, -⟩ := idx_facts t
  unfold iblk0
  rw [View.read_apply]
  show V c main_arg1 _ = V c main_arg1 _
  congr 1
  funext a
  apply Fin.ext
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- What point t writes back into the f32 output is block t of the matrix product. -/
theorem flushed2_eq (c : Dev nD) (t : Fin cfg0.N) :
    (dat0 (F := Ideal) V c).flushed 2 t = ((cfg0.win 2).blk t).view.read (Elt Ideal) (Cert.Spec.mm (V c main_arg0) (V c main_arg1)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x256) hz]
  obtain ⟨-, -, -, -, e4, e5, e6, e7⟩ := idx_facts t
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (ix2 p q) = Cert.Spec.mm (V c main_arg0) (V c main_arg1) (((cfg0.win 2).blk t).view.emb (ix2 p q))
  refine (pay1_apply _ _ p q).trans ?_
  unfold Cert.Spec.mm
  refine Finset.sum_congr rfl fun l _ => ?_
  have hx := iblk_x V c t (ix2 p l) (ix2 ((((cfg0.win 2).blk t).view.emb (ix2 p q)) 0) l)
    (by show win0_2.index t (0 : Fin 2) * 2000 + 1 * p.val = t.val * 2000 + p.val; omega) rfl
  have h1 : (((cfg0.win 2).blk t).view.emb (ix2 p q)) 1 = q :=
    Fin.ext (by show win0_2.index t (1 : Fin 2) * 256 + 1 * q.val = q.val; omega)
  rw [hx, iblk_w V c t (ix2 l q), h1]

/-- An index of the f32 output array is in point t's block iff each coordinate is in the block's range on its axis. -/
theorem mem_blk2 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v27_0).slice (win0_2.rect t)).set ↔ _
  rw [View.set_slice_whole, Rect.mem_set_unit]
  exact Iff.rfl

/-- Row r of the f32 output array lies in the block of point r / 2000, and every point writes back. -/
theorem cover2 (i : S50000x256.Idx) :
    ∃ t : Fin cfg0.N, (cfg0.win 2).flush t = true ∧ i ∈ ((cfg0.win 2).blk t).view.set := by
  have hN : cfg0.N = 25 := N_0
  have hi0 : (i 0).val < 50000 := (i 0).isLt
  have hi1 : (i 1).val < 256 := (i 1).isLt
  have ht : (i 0).val / 2000 < cfg0.N := by rw [hN]; omega
  obtain ⟨-, -, -, -, e4, e5, e6, e7⟩ := idx_facts ⟨(i 0).val / 2000, ht⟩
  refine ⟨⟨(i 0).val / 2000, ht⟩, flush0_2 _, ?_⟩
  rw [mem_blk2]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win0_2.index ⟨(i 0).val / 2000, ht⟩ (1 : Fin 2) * 256 ≤ (i 1).val ∧ (i 1).val < win0_2.index ⟨(i 0).val / 2000, ht⟩ (1 : Fin 2) * 256 + 256
    omega

/-- What point t writes back into the bf16 output is block t of the matrix product. -/
theorem flushed3_eq (c : Dev nD) (t : Fin cfg0.N) :
    (dat0 (F := Ideal) V c).flushed 3 t = ((cfg0.win 3).blk t).view.read (Elt Ideal) (Cert.Spec.mm (V c main_arg0) (V c main_arg1)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x256) hz]
  obtain ⟨-, -, -, -, e4, e5, e6, e7⟩ := idx_facts t
  funext j
  obtain ⟨p, q, rfl⟩ : ∃ (p : Fin 2000) (q : Fin 256), j = ix2 p q := ⟨j 0, j 1, eq_ix2 j⟩
  show k0_pay2 (F := Ideal) (iblk0 V c 0 t) (iblk0 V c 1 t) (ix2 p q) = Cert.Spec.mm (V c main_arg0) (V c main_arg1) (((cfg0.win 3).blk t).view.emb (ix2 p q))
  refine (pay2_apply _ _ p q).trans ?_
  unfold Cert.Spec.mm
  refine Finset.sum_congr rfl fun l _ => ?_
  have hx := iblk_x V c t (ix2 p l) (ix2 ((((cfg0.win 3).blk t).view.emb (ix2 p q)) 0) l)
    (by show win0_3.index t (0 : Fin 2) * 2000 + 1 * p.val = t.val * 2000 + p.val; omega) rfl
  have h1 : (((cfg0.win 3).blk t).view.emb (ix2 p q)) 1 = q :=
    Fin.ext (by show win0_3.index t (1 : Fin 2) * 256 + 1 * q.val = q.val; omega)
  rw [hx, iblk_w V c t (ix2 l q), h1]

/-- An index of the bf16 output array is in point t's block iff each coordinate is in the block's range on its axis. -/
theorem mem_blk3 (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v27_1).slice (win0_3.rect t)).set ↔ _
  rw [View.set_slice_whole, Rect.mem_set_unit]
  exact Iff.rfl

/-- Row r of the bf16 output array lies in the block of point r / 2000, and every point writes back. -/
theorem cover3 (i : S50000x256.Idx) :
    ∃ t : Fin cfg0.N, (cfg0.win 3).flush t = true ∧ i ∈ ((cfg0.win 3).blk t).view.set := by
  have hN : cfg0.N = 25 := N_0
  have hi0 : (i 0).val < 50000 := (i 0).isLt
  have hi1 : (i 1).val < 256 := (i 1).isLt
  have ht : (i 0).val / 2000 < cfg0.N := by rw [hN]; omega
  obtain ⟨-, -, -, -, e4, e5, e6, e7⟩ := idx_facts ⟨(i 0).val / 2000, ht⟩
  refine ⟨⟨(i 0).val / 2000, ht⟩, flush0_3 _, ?_⟩
  rw [mem_blk3]
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e6]
    show (i 0).val / 2000 * 2000 ≤ (i 0).val ∧ (i 0).val < (i 0).val / 2000 * 2000 + 2000
    omega
  | ⟨1, _⟩ =>
    show win0_3.index ⟨(i 0).val / 2000, ht⟩ (1 : Fin 2) * 256 ≤ (i 1).val ∧ (i 1).val < win0_3.index ⟨(i 0).val / 2000, ht⟩ (1 : Fin 2) * 256 + 256
    omega

/-- Region 0 (x · W1): its f32 output array after the run is the matrix product of the two arrays the region finds. -/
theorem out_f32 (c : Dev nD) :
    (dat0 (F := Ideal) V c).arrAt 2 cfg0.N = Cert.Spec.mm (V c main_arg0) (V c main_arg1) :=
  (dat0 (F := Ideal) V c).arrAt_eq_of_cover 2 (Cert.Spec.mm (V c main_arg0) (V c main_arg1)) (fun t _ => flushed2_eq V c t) cover2

/-- Its bf16 output array holds the same extended reals (a change of float format is the identity there). -/
theorem out_bf16 (c : Dev nD) :
    (dat0 (F := Ideal) V c).arrAt 3 cfg0.N = Cert.Spec.mm (V c main_arg0) (V c main_arg1) :=
  (dat0 (F := Ideal) V c).arrAt_eq_of_cover 3 (Cert.Spec.mm (V c main_arg0) (V c main_arg1)) (fun t _ => flushed3_eq V c t) cover3

end Cert.KernelIdeal.Reg0

end
-- ==== Proof.Reg1.lean ====
import proofs.«415712_j89103391523491_2_alg».proof.Proof.Gen.KernelIdeal.Frame
import proofs.«415712_j89103391523491_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg1

open Cert.KernelIdeal Cert.KernelIdeal.Gen

variable (V : (c : Dev nD) → (b : Ref sig .tc) → Buf (Elt Ideal) ((c : Thread nD τ).loc b))

/-- The two-zero offset vector is the constant-zero function. -/
theorem hz : (![0, 0] : Fin 2 → Nat) = fun _ => 0 :=
  funext fun a => match a with | ⟨0, _⟩ => rfl | ⟨1, _⟩ => rfl

/-! ## The product's operand indices: at output (r, c) and contraction index l they are (r, l) and (l, c) -/

theorem lhs_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The body's f32 value at (p, q): the sum over l of max(agg(p,l) + d(p)·h(p,l) + b(l), 0) · W(l, q).  The row and
    column broadcasts read the column d at (p, 0) and the bias row at (0, l); the change of float format before the
    product is the identity on the extended reals, and the product accumulates into the zero array. -/
theorem pay1_apply (agg h : Vec Ideal S2000x256 .f32) (d : Vec Ideal S2000x1 .f32) (b : Vec Ideal S1x256 .f32)
    (w : Vec Ideal S256x256 .f32) (p : Fin 2000) (q : Fin 256) :
    k1_pay1 (F := Ideal) agg d h b w (ix2 p q)
      = ∑ l : Fin 256, max (agg (ix2 p l) + d (ix2 p (0 : Fin 1)) * h (ix2 p l) + b (ix2 (0 : Fin 1) l)) 0 * w (ix2 l q) := by
  unfold k1_pay1
  refine (Ideal.matmul_constant_zero_apply _ none _ _ _).trans ?_
  rw [← Equiv.sum_comp (contrEquiv1 dot_S2000x256_S256x256_S2000x256_1_0_0_1_n_n 256 rfl rfl).symm]
  refine Finset.sum_congr rfl fun l _ => ?_
  have hk := contrEquiv1_symm_val dot_S2000x256_S256x256_S2000x256_1_0_0_1_n_n 256 rfl rfl l
  have el : dot_S2000x256_S256x256_S2000x256_1_0_0_1_n_n.lhsIdx (ix2 p q) ((contrEquiv1 dot_S2000x256_S256x256_S2000x256_1_0_0_1_n_n 256 rfl rfl).symm l) = ix2 p l := funext fun a => Fin.ext (by
    match a with
    | ⟨0, _⟩ => exact lhs_0 _ _
    | ⟨1, _⟩ => exact (lhs_1 _ _).trans hk)
  have er : dot_S2000x256_S256x256_S2000x256_1_0_0_1_n_n.rhsIdx (ix2 p q) ((contrEquiv1 dot_S2000x256_S256x256_S2000x256_1_0_0_1_n_n 256 rfl rfl).symm l) = ix2 l q := funext fun a => Fin.ext (by
    match a with
    | ⟨0, _⟩ => exact (rhs_0 _ _).trans hk
    | ⟨1, _⟩ => exact rhs_1 _ _)
  rw [el, er]
  simp only [shapeCast_self]
  show max (agg (ix2 p l) + broadcastTo S2000x256 d broadcasts_S2000x1_S2000x256 (ix2 p l) * h (ix2 p l)
      + broadcastTo S2000x256 b broadcasts_S1x256_S2000x256 (ix2 p l)) (Ideal.ofBits .f32 0x00000000#32) * w (ix2 l q) = _
  rw [broadcastTo_apply d broadcasts_S2000x1_S2000x256 (ix2 p l) (ix2 p (0 : Fin 1))
        (fun a => match a with | ⟨0, _⟩ => rfl | ⟨1, _⟩ => rfl),
    broadcastTo_apply b broadcasts_S1x256_S2000x256 (ix2 p l) (ix2 (0 : Fin 1) l)
        (fun a => match a with | ⟨0, _⟩ => rfl | ⟨1, _⟩ => rfl),
    Ideal.ofBits_zero_f32]

/-- The bf16 value is the same extended real. -/
theorem pay2_apply (agg h : Vec Ideal S2000x256 .f32) (d : Vec Ideal S2000x1 .f32) (b : Vec Ideal S1x256 .f32)
    (w : Vec Ideal S256x256 .f32) (j : S2000x256.Idx) :
    k1_pay2 (F := Ideal) agg d h b w j = k1_pay1 (F := Ideal) agg d h b w j := rfl

/-! ## Where each window's block sits: the row-block windows (agg, h, d and the two outputs) move with the point, the
    bias row and the weight matrix stay whole -/

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The grid has 25 points. -/
theorem t_lt (t : Fin cfg1.N) : t.val < 25 := by
  exact Nat.lt_of_lt_of_eq t.isLt N_1

/-- Row p of block t of agg is row 2000 t + p of the array. -/
theorem iblk0_apply (c : Dev nD) (t : Fin cfg1.N) (y : S2000x256.Idx) (k : S50000x256.Idx)
    (hk0 : (k 0).val = t.val * 2000 + (y 0).val) (hk1 : (k 1).val = (y 1).val) :
    (iblk1 V c 0 t : Vec Ideal S2000x256 .f32) y = (V c main_v41 : S50000x256.Idx → Elt Ideal .f32) k := by
  obtain ⟨e0, e1, -⟩ := idx_facts t
  unfold iblk1
  rw [View.read_apply]
  show (V c main_v41 : S50000x256.Idx → Elt Ideal .f32) _ = V c main_v41 _
  congr 1
  funext a
  apply Fin.ext
  match a with
  | ⟨0, _⟩ => show win1_0.index t (0 : Fin 2) * 2000 + 1 * (y 0).val = (k 0).val; rw [e0, hk0]; omega
  | ⟨1, _⟩ => show win1_0.index t (1 : Fin 2) * 256 + 1 * (y 1).val = (k 1).val; rw [e1, hk1]; omega

/-- Row p of block t of h is row 2000 t + p of the array. -/
theorem iblk1_apply (c : Dev nD) (t : Fin cfg1.N) (y : S2000x256.Idx) (k : S50000x256.Idx)
    (hk0 : (k 0).val = t.val * 2000 + (y 0).val) (hk1 : (k 1).val = (y 1).val) :
    (iblk1 V c 1 t : Vec Ideal S2000x256 .f32) y = (V c main_v27_0 : S50000x256.Idx → Elt Ideal .f32) k := by
  obtain ⟨-, -, e0, e1, -⟩ := idx_facts t
  unfold iblk1
  rw [View.read_apply]
  show (V c main_v27_0 : S50000x256.Idx → Elt Ideal .f32) _ = V c main_v27_0 _
  congr 1
  funext a
  apply Fin.ext
  match a with
  | ⟨0, _⟩ => show win1_1.index t (0 : Fin 2) * 2000 + 1 * (y 0).val = (k 0).val; rw [e0, hk0]; omega
  | ⟨1, _⟩ => show win1_1.index t (1 : Fin 2) * 256 + 1 * (y 1).val = (k 1).val; rw [e1, hk1]; omega

/-- Entry p of block t of the column d is entry 2000 t + p of the column. -/
theorem iblk2_apply (c : Dev nD) (t : Fin cfg1.N) (y : S2000x1.Idx) (k : S50000x1.Idx)
    (hk0 : (k 0).val = t.val * 2000 + (y 0).val) (hk1 : (k 1).val = (y 1).val) :
    (iblk1 V c 2 t : Vec Ideal S2000x1 .f32) y = (V c main_v9 : S50000x1.Idx → Elt Ideal .f32) k := by
  obtain ⟨-, -, -, -, e0, e1, -⟩ := idx_facts t
  unfold iblk1
  rw [View.read_apply]
  show (V c main_v9 : S50000x1.Idx → Elt Ideal .f32) _ = V c main_v9 _
  congr 1
  funext a
  apply Fin.ext
  match a with
  | ⟨0, _⟩ => show win1_2.index t (0 : Fin 2) * 2000 + 1 * (y 0).val = (k 0).val; rw [e0, hk0]; omega
  | ⟨1, _⟩ => show win1_2.index t (1 : Fin 2) * 1 + 1 * (y 1).val = (k 1).val; rw [e1, hk1]; omega

/-- The bias row's block is the whole row, at every point. -/
theorem iblk3_apply (c : Dev nD) (t : Fin cfg1.N) (y : S1x256.Idx) :
    (iblk1 V c 3 t : Vec Ideal S1x256 .f32) y = (V c main_v25 : S1x256.Idx → Elt Ideal .f32) y := by
  obtain ⟨-, -, -, -, -, -, e0, e1, -⟩ := idx_facts t
  unfold iblk1
  rw [View.read_apply]
  show (V c main_v25 : S1x256.Idx → Elt Ideal .f32) _ = V c main_v25 _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 256 + 1 * (y 1).val = (y 1).val; rw [e1]; omega

/-- The weight matrix's block is the whole matrix, at every point. -/
theorem iblk4_apply (c : Dev nD) (t : Fin cfg1.N) (y : S256x256.Idx) :
    (iblk1 V c 4 t : Vec Ideal S256x256 .f32) y = (V c main_arg3 : S256x256.Idx → Elt Ideal .f32) y := by
  obtain ⟨-, -, -, -, -, -, -, -, e0, e1, -⟩ := idx_facts t
  unfold iblk1
  rw [View.read_apply]
  show (V c main_arg3 : S256x256.Idx → Elt Ideal .f32) _ = V c main_arg3 _
  congr 1
  funext a
  apply Fin.ext
  match a with
  | ⟨0, _⟩ => show win1_4.index t (0 : Fin 2) * 256 + 1 * (y 0).val = (y 0).val; rw [e0]; omega
  | ⟨1, _⟩ => show win1_4.index t (1 : Fin 2) * 256 + 1 * (y 1).val = (y 1).val; rw [e1]; omega

/-- What point t computes at row p, column q of its block is the specification's value at row 2000 t + p, column q of
    the whole array: each block read is the array's entry at that row, the bias row and the weights are whole. -/
theorem blk_val (c : Dev nD) (t : Fin cfg1.N) (p : Fin 2000) (q : Fin 256) (r : Fin 50000) (hr : r.val = t.val * 2000 + p.val) :
    k1_pay1 (F := Ideal) (iblk1 V c 0 t) (iblk1 V c 2 t) (iblk1 V c 1 t) (iblk1 V c 3 t) (iblk1 V c 4 t) (ix2 p q)
      = Cert.Spec.mm (Cert.Spec.relu (Cert.Spec.fin (V c main_v41) (V c main_v27_0) (V c main_v9) (V c main_v25))) (V c main_arg3) (ix2 r q) := by
  refine (pay1_apply _ _ _ _ _ p q).trans ?_
  unfold Cert.Spec.mm Cert.Spec.relu Cert.Spec.fin
  show _ = ∑ l : Fin 256, _
  refine Finset.sum_congr rfl fun l _ => ?_
  rw [iblk0_apply V c t (ix2 p l) (ix2 r l) hr rfl, iblk1_apply V c t (ix2 p l) (ix2 r l) hr rfl,
    iblk2_apply V c t (ix2 p (0 : Fin 1)) (ix2 r (0 : Fin 1)) hr rfl, iblk3_apply V c t, iblk4_apply V c t]

/-- WHAT POINT t WRITES BACK to output window 5 is block t of the specification's array. -/
theorem flushed5_eq (c : Dev nD) (t : Fin cfg1.N) :
    (dat1 (F := Ideal) V c).flushed 5 t = ((cfg1.win 5).blk t).view.read (Elt Ideal)
      (Cert.Spec.mm (Cert.Spec.relu (Cert.Spec.fin (V c main_v41) (V c main_v27_0) (V c main_v9) (V c main_v25))) (V c main_arg3)) := by
  show (cfg1.win 5).cut (grid1.coords t) ((dat1 V c).after 5 t) = _
  rw [after1_5]
  unfold out1_5
  rw [View.canon_unit_zero hz]
  simp only [View.ld_unit_zero (S := S2000x256) hz, View.ld_unit_zero (S := S2000x1) hz, View.ld_unit_zero (S := S1x256) hz, View.ld_unit_zero (S := S256x256) hz]
  funext j
  revert j
  show ∀ j : S2000x256.Idx, k1_pay1 (F := Ideal) (iblk1 V c 0 t) (iblk1 V c 2 t) (iblk1 V c 1 t) (iblk1 V c 3 t) (iblk1 V c 4 t) j
    = Cert.Spec.mm (Cert.Spec.relu (Cert.Spec.fin (V c main_v41) (V c main_v27_0) (V c main_v9) (V c main_v25))) (V c main_arg3) (((cfg1.win 5).blk t).view.emb j)
  intro j
  obtain ⟨p, q, rfl⟩ : ∃ (p : Fin 2000) (q : Fin 256), j = ix2 p q := ⟨j 0, j 1, eq_ix2 j⟩
  have ht := t_lt t
  obtain ⟨-, -, -, -, -, -, -, -, -, -, e0, e1, -⟩ := idx_facts t
  have hemb : ((cfg1.win 5).blk t).view.emb (ix2 p q) = ix2 (⟨t.val * 2000 + p.val, by omega⟩ : Fin 50000) q := by
    funext a
    apply Fin.ext
    match a with
    | ⟨0, _⟩ => show win1_5.index t (0 : Fin 2) * 2000 + 1 * p.val = t.val * 2000 + p.val; rw [e0]; omega
    | ⟨1, _⟩ => show win1_5.index t (1 : Fin 2) * 256 + 1 * q.val = q.val; rw [e1]; omega
  rw [hemb]
  exact blk_val V c t p q _ rfl

/-- An index of the array is in point t's block iff each coordinate is in the block's range on its axis. -/
theorem mem_blk5 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v42_0).slice (win1_5.rect t)).set ↔ _
  rw [View.set_slice_whole, Rect.mem_set_unit]
  exact Iff.rfl

/-- Every row r of the array is in the block of point r / 2000, and every point writes its block back. -/
theorem cover5 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hq : (i 0).val / 2000 < 25 := by omega
  refine ⟨⟨(i 0).val / 2000, Nat.lt_of_lt_of_eq hq N_1.symm⟩, flush1_5 _, ?_⟩
  rw [mem_blk5]
  obtain ⟨-, -, -, -, -, -, -, -, -, -, e0, e1, -⟩ := idx_facts ⟨(i 0).val / 2000, Nat.lt_of_lt_of_eq hq N_1.symm⟩
  intro a
  match a with
  | ⟨0, _⟩ =>
    show win1_5.index _ (0 : Fin 2) * 2000 ≤ (i 0).val ∧ (i 0).val < win1_5.index _ (0 : Fin 2) * 2000 + 2000
    rw [e0]
    show (i 0).val / 2000 * 2000 ≤ (i 0).val ∧ (i 0).val < (i 0).val / 2000 * 2000 + 2000
    omega
  | ⟨1, _⟩ =>
    show win1_5.index _ (1 : Fin 2) * 256 ≤ (i 1).val ∧ (i 1).val < win1_5.index _ (1 : Fin 2) * 256 + 256
    rw [e1]
    omega

/-- WHAT POINT t WRITES BACK to output window 6 is block t of the specification's array. -/
theorem flushed6_eq (c : Dev nD) (t : Fin cfg1.N) :
    (dat1 (F := Ideal) V c).flushed 6 t = ((cfg1.win 6).blk t).view.read (Elt Ideal)
      (Cert.Spec.mm (Cert.Spec.relu (Cert.Spec.fin (V c main_v41) (V c main_v27_0) (V c main_v9) (V c main_v25))) (V c main_arg3)) := by
  show (cfg1.win 6).cut (grid1.coords t) ((dat1 V c).after 6 t) = _
  rw [after1_6]
  unfold out1_6
  rw [View.canon_unit_zero hz]
  simp only [View.ld_unit_zero (S := S2000x256) hz, View.ld_unit_zero (S := S2000x1) hz, View.ld_unit_zero (S := S1x256) hz, View.ld_unit_zero (S := S256x256) hz]
  funext j
  revert j
  show ∀ j : S2000x256.Idx, k1_pay2 (F := Ideal) (iblk1 V c 0 t) (iblk1 V c 2 t) (iblk1 V c 1 t) (iblk1 V c 3 t) (iblk1 V c 4 t) j
    = Cert.Spec.mm (Cert.Spec.relu (Cert.Spec.fin (V c main_v41) (V c main_v27_0) (V c main_v9) (V c main_v25))) (V c main_arg3) (((cfg1.win 6).blk t).view.emb j)
  intro j
  obtain ⟨p, q, rfl⟩ : ∃ (p : Fin 2000) (q : Fin 256), j = ix2 p q := ⟨j 0, j 1, eq_ix2 j⟩
  have ht := t_lt t
  obtain ⟨-, -, -, -, -, -, -, -, -, -, -, -, e0, e1⟩ := idx_facts t
  have hemb : ((cfg1.win 6).blk t).view.emb (ix2 p q) = ix2 (⟨t.val * 2000 + p.val, by omega⟩ : Fin 50000) q := by
    funext a
    apply Fin.ext
    match a with
    | ⟨0, _⟩ => show win1_6.index t (0 : Fin 2) * 2000 + 1 * p.val = t.val * 2000 + p.val; rw [e0]; omega
    | ⟨1, _⟩ => show win1_6.index t (1 : Fin 2) * 256 + 1 * q.val = q.val; rw [e1]; omega
  rw [hemb]
  exact blk_val V c t p q _ rfl

/-- An index of the array is in point t's block iff each coordinate is in the block's range on its axis. -/
theorem mem_blk6 (t : Fin cfg1.N) (i : S50000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v42_1).slice (win1_6.rect t)).set ↔ _
  rw [View.set_slice_whole, Rect.mem_set_unit]
  exact Iff.rfl

/-- Every row r of the array is in the block of point r / 2000, and every point writes its block back. -/
theorem cover6 (i : S50000x256.Idx) :
    ∃ t : Fin cfg1.N, (cfg1.win 6).flush t = true ∧ i ∈ ((cfg1.win 6).blk t).view.set := by
  have hi0 : (i 0).val < 50000 := (i 0).isLt
  have hi1 : (i 1).val < 256 := (i 1).isLt
  have hq : (i 0).val / 2000 < 25 := by omega
  refine ⟨⟨(i 0).val / 2000, Nat.lt_of_lt_of_eq hq N_1.symm⟩, flush1_6 _, ?_⟩
  rw [mem_blk6]
  obtain ⟨-, -, -, -, -, -, -, -, -, -, -, -, e0, e1⟩ := idx_facts ⟨(i 0).val / 2000, Nat.lt_of_lt_of_eq hq N_1.symm⟩
  intro a
  match a with
  | ⟨0, _⟩ =>
    show win1_6.index _ (0 : Fin 2) * 2000 ≤ (i 0).val ∧ (i 0).val < win1_6.index _ (0 : Fin 2) * 2000 + 2000
    rw [e0]
    show (i 0).val / 2000 * 2000 ≤ (i 0).val ∧ (i 0).val < (i 0).val / 2000 * 2000 + 2000
    omega
  | ⟨1, _⟩ =>
    show win1_6.index _ (1 : Fin 2) * 256 ≤ (i 1).val ∧ (i 1).val < win1_6.index _ (1 : Fin 2) * 256 + 256
    rw [e1]
    omega

/-- Region 1 (the first layer's finish, max(·, 0), then · W2): its f32 output array after the run. -/
theorem out_f32 (c : Dev nD) :
    (dat1 (F := Ideal) V c).arrAt 5 cfg1.N
      = Cert.Spec.mm (Cert.Spec.relu (Cert.Spec.fin (V c main_v41) (V c main_v27_0) (V c main_v9) (V c main_v25))) (V c main_arg3) :=
  (dat1 (F := Ideal) V c).arrAt_eq_of_cover 5 _ (fun t _ => flushed5_eq V c t) cover5

/-- Its bf16 output array holds the same extended reals. -/
theorem out_bf16 (c : Dev nD) :
    (dat1 (F := Ideal) V c).arrAt 6 cfg1.N
      = Cert.Spec.mm (Cert.Spec.relu (Cert.Spec.fin (V c main_v41) (V c main_v27_0) (V c main_v9) (V c main_v25))) (V c main_arg3) :=
  (dat1 (F := Ideal) V c).arrAt_eq_of_cover 6 _ (fun t _ => flushed6_eq V c t) cover6

end Cert.KernelIdeal.Reg1

end
-- ==== Proof.Reg2.lean ====
import proofs.«415712_j89103391523491_2_alg».proof.Proof.Gen.KernelIdeal.Frame
import proofs.«415712_j89103391523491_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg2

open Cert.KernelIdeal Cert.KernelIdeal.Gen

variable (V : (c : Dev nD) → (b : Ref sig .tc) → Buf (Elt Ideal) ((c : Thread nD τ).loc b))

/-- The zero offset of a whole-block access, as a constant function. -/
theorem hz : (![0, 0] : Fin 2 → Nat) = fun _ => 0 := funext fun a => by fin_cases a <;> rfl

/-- The stored block at row p, column q: (agg(p, q) + d(p) · h(p, q)) + b(q); the column d and the row b are
    spread over the block, the shape changes are identities. -/
theorem pay_apply (agg h : Vec Ideal S2000x256 .f32) (d : Vec Ideal S2000x1 .f32) (b : Vec Ideal S1x256 .f32)
    (p : Fin 2000) (q : Fin 256) :
    k2_pay1 agg d h b (ix2 p q) = agg (ix2 p q) + d (ix2 p 0) * h (ix2 p q) + b (ix2 0 q) := by
  unfold k2_pay1
  simp only [shapeCast_self]
  have hd : broadcastTo S2000x256 d broadcasts_S2000x1_S2000x256 (ix2 p q) = d (ix2 p 0) :=
    broadcastTo_apply d _ (ix2 p q) (ix2 p 0) (fun a => by match a with | ⟨0, _⟩ => rfl | ⟨1, _⟩ => rfl)
  have hb : broadcastTo S2000x256 b broadcasts_S1x256_S2000x256 (ix2 p q) = b (ix2 0 q) :=
    broadcastTo_apply b _ (ix2 p q) (ix2 0 q) (fun a => by match a with | ⟨0, _⟩ => rfl | ⟨1, _⟩ => rfl)
  show agg (ix2 p q) + broadcastTo S2000x256 d broadcasts_S2000x1_S2000x256 (ix2 p q) * h (ix2 p q)
      + broadcastTo S2000x256 b broadcasts_S1x256_S2000x256 (ix2 p q) = _
  rw [hd, hb]

/-- The block numbers of the five windows at every point of the grid: the row blocks move with the point, the bias row
    stays at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p, column q of point t's block of agg is row 2000·t + p, column q of the array. -/
theorem blk_agg (c : Dev nD) (t : Fin cfg2.N) (p : Fin 2000) (q : Fin 256) (k : S50000x256.Idx)
    (hk0 : (k 0).val = t.val * 2000 + p.val) (hk1 : (k 1).val = q.val) :
    (iblk2 V c 0 t : Vec Ideal S2000x256 .f32) (ix2 p q) = V c main_v56 k := by
  obtain ⟨e0, e1, -⟩ := idx_facts t
  unfold iblk2
  rw [View.read_apply]
  show V c main_v56 _ = V c main_v56 _
  congr 1
  funext a
  apply Fin.ext
  match a with
  | ⟨0, _⟩ => show win2_0.index t (0 : Fin 2) * 2000 + 1 * p.val = (k 0).val; rw [e0, hk0]; omega
  | ⟨1, _⟩ => show win2_0.index t (1 : Fin 2) * 256 + 1 * q.val = (k 1).val; rw [e1, hk1]; omega

/-- The same for h. -/
theorem blk_h (c : Dev nD) (t : Fin cfg2.N) (p : Fin 2000) (q : Fin 256) (k : S50000x256.Idx)
    (hk0 : (k 0).val = t.val * 2000 + p.val) (hk1 : (k 1).val = q.val) :
    (iblk2 V c 1 t : Vec Ideal S2000x256 .f32) (ix2 p q) = V c main_v42_0 k := by
  obtain ⟨-, -, e0, e1, -⟩ := idx_facts t
  unfold iblk2
  rw [View.read_apply]
  show V c main_v42_0 _ = V c main_v42_0 _
  congr 1
  funext a
  apply Fin.ext
  match a with
  | ⟨0, _⟩ => show win2_1.index t (0 : Fin 2) * 2000 + 1 * p.val = (k 0).val; rw [e0, hk0]; omega
  | ⟨1, _⟩ => show win2_1.index t (1 : Fin 2) * 256 + 1 * q.val = (k 1).val; rw [e1, hk1]; omega

/-- Row p of point t's block of the column d is row 2000·t + p of the column. -/
theorem blk_d (c : Dev nD) (t : Fin cfg2.N) (p : Fin 2000) (k : S50000x1.Idx)
    (hk0 : (k 0).val = t.val * 2000 + p.val) :
    (iblk2 V c 2 t : Vec Ideal S2000x1 .f32) (ix2 p 0) = V c main_v9 k := by
  obtain ⟨-, -, -, -, e0, e1, -⟩ := idx_facts t
  unfold iblk2
  rw [View.read_apply]
  show V c main_v9 _ = V c main_v9 _
  congr 1
  funext a
  apply Fin.ext
  have hk1 : (k 1).val < 1 := (k 1).isLt
  match a with
  | ⟨0, _⟩ => show win2_2.index t (0 : Fin 2) * 2000 + 1 * p.val = (k 0).val; rw [e0, hk0]; omega
  | ⟨1, _⟩ => show win2_2.index t (1 : Fin 2) * 1 + 1 * 0 = (k 1).val; rw [e1]; omega

/-- Column q of the resident bias row is column q of the row. -/
theorem blk_b (c : Dev nD) (t : Fin cfg2.N) (q : Fin 256) (k : S1x256.Idx)
    (hk1 : (k 1).val = q.val) :
    (iblk2 V c 3 t : Vec Ideal S1x256 .f32) (ix2 0 q) = V c main_v26 k := by
  obtain ⟨-, -, -, -, -, -, e0, e1, -⟩ := idx_facts t
  unfold iblk2
  rw [View.read_apply]
  show V c main_v26 _ = V c main_v26 _
  congr 1
  funext a
  apply Fin.ext
  have hk0 : (k 0).val < 1 := (k 0).isLt
  match a with
  | ⟨0, _⟩ => show win2_3.index t (0 : Fin 2) * 1 + 1 * 0 = (k 0).val; rw [e0]; omega
  | ⟨1, _⟩ => show win2_3.index t (1 : Fin 2) * 256 + 1 * q.val = (k 1).val; rw [e1, hk1]; omega

/-- What point t writes back is block t of the layer finish of the arrays the region finds. -/
theorem flushed_eq (c : Dev nD) (t : Fin cfg2.N) :
    (dat2 (F := Ideal) V c).flushed 4 t = ((cfg2.win 4).blk t).view.read (Elt Ideal)
      (Cert.Spec.fin (V c main_v56) (V c main_v42_0) (V c main_v9) (V c main_v26)) := by
  show (cfg2.win 4).cut (grid2.coords t) ((dat2 V c).after 4 t) = _
  rw [after2_4]
  unfold out2_4
  rw [View.canon_unit_zero hz]
  simp only [View.ld_unit_zero (S := S2000x256) hz, View.ld_unit_zero (S := S2000x1) hz, View.ld_unit_zero (S := S1x256) hz]
  funext j
  obtain ⟨p, q, rfl⟩ : ∃ (p : Fin 2000) (q : Fin 256), j = ix2 p q := ⟨j 0, j 1, eq_ix2 j⟩
  show k2_pay1 (iblk2 V c 0 t) (iblk2 V c 2 t) (iblk2 V c 1 t) (iblk2 V c 3 t) (ix2 p q) = _
  refine (pay_apply _ _ _ _ p q).trans ?_
  rw [View.read_apply]
  obtain ⟨-, -, -, -, -, -, -, -, e0, e1⟩ := idx_facts t
  generalize hk : ((View.whole main_v57).slice ((win2 4).rect t)).emb (ix2 p q) = k
  have hk0 : (k 0).val = t.val * 2000 + p.val := by
    rw [← hk]; show win2_4.index t (0 : Fin 2) * 2000 + 1 * p.val = _; rw [e0]; omega
  have hk1 : (k 1).val = q.val := by
    rw [← hk]; show win2_4.index t (1 : Fin 2) * 256 + 1 * q.val = _; rw [e1]; omega
  unfold Cert.Spec.fin
  rw [blk_agg V c t p q k hk0 hk1, blk_h V c t p q k hk0 hk1,
    blk_d V c t p (ix2 (k 0) (0 : Fin 1)) hk0, blk_b V c t q (ix2 (0 : Fin 1) (k 1)) hk1]
  rfl

/-- An index of the array is in point t's block iff each coordinate is in the block's range on its axis. -/
theorem mem_blk (t : Fin cfg2.N) (i : S50000x256.Idx) :
    i ∈ ((cfg2.win 4).blk t).view.set ↔ ∀ a : Fin 2, win2_4.index t a * S2000x256.size a ≤ (i a).val
      ∧ (i a).val < win2_4.index t a * S2000x256.size a + S2000x256.size a := by
  show i ∈ ((View.whole main_v57).slice (win2_4.rect t)).set ↔ _
  rw [View.set_slice_whole, Rect.mem_set_unit]
  exact Iff.rfl

/-- Every row is in the block of the point numbered by the row's quotient by 2000. -/
theorem cover (i : S50000x256.Idx) :
    ∃ t : Fin cfg2.N, (cfg2.win 4).flush t = true ∧ i ∈ ((cfg2.win 4).blk t).view.set := by
  have hi0 : (i 0).val < 50000 := (i 0).isLt
  have hi1 : (i 1).val < 256 := (i 1).isLt
  have hN : cfg2.N = 25 := N_2
  refine ⟨⟨(i 0).val / 2000, by rw [hN]; omega⟩, flush2_4 _, ?_⟩
  rw [mem_blk]
  obtain ⟨-, -, -, -, -, -, -, -, e0, e1⟩ := idx_facts ⟨(i 0).val / 2000, by rw [hN]; omega⟩
  intro a
  match a with
  | ⟨0, _⟩ =>
    show win2_4.index _ (0 : Fin 2) * 2000 ≤ (i 0).val ∧ (i 0).val < win2_4.index _ (0 : Fin 2) * 2000 + 2000
    rw [e0]; show (i 0).val / 2000 * 2000 ≤ (i 0).val ∧ (i 0).val < (i 0).val / 2000 * 2000 + 2000; omega
  | ⟨1, _⟩ =>
    show win2_4.index _ (1 : Fin 2) * 256 ≤ (i 1).val ∧ (i 1).val < win2_4.index _ (1 : Fin 2) * 256 + 256
    rw [e1]; omega

/-- Region 2 (the plain layer finish): its output array after the run, as one function of the arrays the region finds. -/
theorem out (c : Dev nD) :
    (dat2 (F := Ideal) V c).arrAt 4 cfg2.N
      = Cert.Spec.fin (V c main_v56) (V c main_v42_0) (V c main_v9) (V c main_v26) :=
  (dat2 (F := Ideal) V c).arrAt_eq_of_cover 4
    (Cert.Spec.fin (V c main_v56) (V c main_v42_0) (V c main_v9) (V c main_v26))
    (fun t _ => flushed_eq V c t) cover

end Cert.KernelIdeal.Reg2

end
-- ==== Proof.ChainA.lean ====
/-
  The kernel's buffers after its third region (the positive pass done): each live buffer holds the reference's stage of
  the same name's value.  Host stretches are the reference's own operations applied to equal operands; a region's
  outputs are the specification's functions of the arrays it finds, which the reference's stages also are.
-/
import proofs.«415712_j89103391523491_2_alg».proof.Proof.Gen.KernelIdeal.Frame
import proofs.«415712_j89103391523491_2_alg».proof.Proof.Gen.ReferenceIdeal.Read
import proofs.«415712_j89103391523491_2_alg».proof.Proof.Spec
import proofs.«415712_j89103391523491_2_alg».proof.Proof.RefStages
import proofs.«415712_j89103391523491_2_alg».proof.Proof.KLayout
import proofs.«415712_j89103391523491_2_alg».proof.Proof.Reg0
import proofs.«415712_j89103391523491_2_alg».proof.Proof.Reg1
import proofs.«415712_j89103391523491_2_alg».proof.Proof.Reg2
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open Idealize.ShloMosaic.StableHlo

namespace Cert.KernelIdeal.ChainA

open Cert.KernelIdeal Cert.KernelIdeal.Gen
open Cert.Spec (mm fin relu colOf rowOf flat colI one pick rows score)

variable (m : (ℓ : Loc nD τ sig) → Buf (Elt Ideal) ℓ) (ρ : Dev nD → PrngReg) (c : Dev nD)

/-- The argument arrays as launched, on core `c`. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)
abbrev a8 := m ((c.tc : Thread nD τ).loc main_arg8)
abbrev a9 := m ((c.tc : Thread nD τ).loc main_arg9)
abbrev a10 := m ((c.tc : Thread nD τ).loc main_arg10)

/-! ## The host stretches leave every buffer they do not compute -/

/-- A buffer that is the result of none of the 35 host operations of this stretch is left as it was. -/
theorem kept0 (F : Valuation τ sig (Elt Ideal)) (b : Ref sig .tc)
    (hb : b ∉ ([main_cst, main_v0, main_cst_0, main_v1, main_v2, main_v3, main_cst_1, main_v4, main_v5, main_cst_2, main_v6, main_v7, main_v8, main_v9, main_c, main_v10, main_v11, main_c_3, main_v12, main_v13, main_v14, main_v15, main_v16, main_c_4, main_v17, main_v18, main_c_5, main_v19, main_v20, main_v21, main_v22, main_v23, main_v24, main_v25, main_v26] : List (Ref sig .tc))) :
    StableHlo.after hostOps0 F (Proc.devRef .tc b) = F (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => hb (by rw [e]; decide))))

/-- A buffer that is the result of none of the 17 host operations of this stretch is left as it was. -/
theorem kept1 (F : Valuation τ sig (Elt Ideal)) (b : Ref sig .tc)
    (hb : b ∉ ([main_c_6, main_v28, main_v29, main_c_7, main_v30, main_v31, main_v32, main_v33, main_v34, main_v35, main_v36, main_v37, main_v38, main_cst_8, main_v39, main_v40, main_v41] : List (Ref sig .tc))) :
    StableHlo.after hostOps1 F (Proc.devRef .tc b) = F (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => hb (by rw [e]; decide))))

/-- A buffer that is the result of none of the 17 host operations of this stretch is left as it was. -/
theorem kept2 (F : Valuation τ sig (Elt Ideal)) (b : Ref sig .tc)
    (hb : b ∉ ([main_c_9, main_v43, main_v44, main_c_10, main_v45, main_v46, main_v47, main_v48, main_v49, main_v50, main_v51, main_v52, main_v53, main_cst_11, main_v54, main_v55, main_v56] : List (Ref sig .tc))) :
    StableHlo.after hostOps2 F (Proc.devRef .tc b) = F (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => hb (by rw [e]; decide))))

/-! ## After the first host stretch: the weights, the bias rows, the arguments -/

theorem w1_arg0 : W1 m ρ c (Proc.devRef .tc main_arg0) = a0 m c :=
  kept0 (W0 m ρ c) main_arg0 (by decide)

theorem w1_arg1 : W1 m ρ c (Proc.devRef .tc main_arg1) = a1 m c :=
  kept0 (W0 m ρ c) main_arg1 (by decide)

theorem w1_arg3 : W1 m ρ c (Proc.devRef .tc main_arg3) = a3 m c :=
  kept0 (W0 m ρ c) main_arg3 (by decide)

theorem w1_arg5 : W1 m ρ c (Proc.devRef .tc main_arg5) = a5 m c :=
  kept0 (W0 m ρ c) main_arg5 (by decide)

theorem w1_arg6 : W1 m ρ c (Proc.devRef .tc main_arg6) = a6 m c :=
  kept0 (W0 m ρ c) main_arg6 (by decide)

theorem w1_arg7 : W1 m ρ c (Proc.devRef .tc main_arg7) = a7 m c :=
  kept0 (W0 m ρ c) main_arg7 (by decide)

theorem w1_arg8 : W1 m ρ c (Proc.devRef .tc main_arg8) = a8 m c :=
  kept0 (W0 m ρ c) main_arg8 (by decide)

theorem w1_arg9 : W1 m ρ c (Proc.devRef .tc main_arg9) = a9 m c :=
  kept0 (W0 m ρ c) main_arg9 (by decide)

theorem w1_arg10 : W1 m ρ c (Proc.devRef .tc main_arg10) = a10 m c :=
  kept0 (W0 m ρ c) main_arg10 (by decide)

/-- The self-loop weights d² as a column: the product d · d reshaped. -/
theorem w1_v9 : W1 m ρ c (Proc.devRef .tc main_v9) = colOf (Cert.ReferenceIdeal.Read.val_main_v37 (F := Ideal) (a8 m c)) := by
  show StableHlo.after hostOps0 (W0 m ρ c) (Proc.devRef .tc main_v9) = _
  after_results_simp
  exact Cert.KernelIdeal.KLayout.col_eq _

/-- The edge weights d[src] · d[dst]: the same host operations on the same arguments. -/
theorem w1_v24 : W1 m ρ c (Proc.devRef .tc main_v24) = Cert.ReferenceIdeal.Read.val_main_v23 (F := Ideal) (a7 m c) (a8 m c) := by
  show StableHlo.after hostOps0 (W0 m ρ c) (Proc.devRef .tc main_v24) = _
  after_results_simp
  rfl

/-- The first bias row: the bias vector reshaped. -/
theorem w1_v25 : W1 m ρ c (Proc.devRef .tc main_v25) = rowOf (a2 m c) := by
  show StableHlo.after hostOps0 (W0 m ρ c) (Proc.devRef .tc main_v25) = _
  after_results_simp
  exact Cert.KernelIdeal.KLayout.row_eq _

/-- The second bias row: the bias vector reshaped. -/
theorem w1_v26 : W1 m ρ c (Proc.devRef .tc main_v26) = rowOf (a4 m c) := by
  show StableHlo.after hostOps0 (W0 m ρ c) (Proc.devRef .tc main_v26) = _
  after_results_simp
  exact Cert.KernelIdeal.KLayout.row_eq _

/-! ## After the first region: x · W1 in both copies -/

theorem w2_arg0 : W2 m ρ c (Proc.devRef .tc main_arg0) = a0 m c :=
  (W2_arr m ρ c 0).trans (((dat0 (V1 m ρ) c).arrAt_in 0 rfl _).trans ((A_eq0 (V1 m ρ) c 0).trans (w1_arg0 m ρ c)))
theorem w2_arg1 : W2 m ρ c (Proc.devRef .tc main_arg1) = a1 m c :=
  (W2_arr m ρ c 1).trans (((dat0 (V1 m ρ) c).arrAt_in 1 rfl _).trans ((A_eq0 (V1 m ρ) c 1).trans (w1_arg1 m ρ c)))
theorem w2_arg3 : W2 m ρ c (Proc.devRef .tc main_arg3) = a3 m c :=
  (W2_of_ne m ρ c main_arg3 (by decide)).trans (w1_arg3 m ρ c)
theorem w2_arg5 : W2 m ρ c (Proc.devRef .tc main_arg5) = a5 m c :=
  (W2_of_ne m ρ c main_arg5 (by decide)).trans (w1_arg5 m ρ c)
theorem w2_arg6 : W2 m ρ c (Proc.devRef .tc main_arg6) = a6 m c :=
  (W2_of_ne m ρ c main_arg6 (by decide)).trans (w1_arg6 m ρ c)
theorem w2_arg7 : W2 m ρ c (Proc.devRef .tc main_arg7) = a7 m c :=
  (W2_of_ne m ρ c main_arg7 (by decide)).trans (w1_arg7 m ρ c)
theorem w2_arg8 : W2 m ρ c (Proc.devRef .tc main_arg8) = a8 m c :=
  (W2_of_ne m ρ c main_arg8 (by decide)).trans (w1_arg8 m ρ c)
theorem w2_arg9 : W2 m ρ c (Proc.devRef .tc main_arg9) = a9 m c :=
  (W2_of_ne m ρ c main_arg9 (by decide)).trans (w1_arg9 m ρ c)
theorem w2_arg10 : W2 m ρ c (Proc.devRef .tc main_arg10) = a10 m c :=
  (W2_of_ne m ρ c main_arg10 (by decide)).trans (w1_arg10 m ρ c)
theorem w2_v9 : W2 m ρ c (Proc.devRef .tc main_v9) = colOf (Cert.ReferenceIdeal.Read.val_main_v37 (F := Ideal) (a8 m c)) :=
  (W2_of_ne m ρ c main_v9 (by decide)).trans (w1_v9 m ρ c)
theorem w2_v24 : W2 m ρ c (Proc.devRef .tc main_v24) = Cert.ReferenceIdeal.Read.val_main_v23 (F := Ideal) (a7 m c) (a8 m c) :=
  (W2_of_ne m ρ c main_v24 (by decide)).trans (w1_v24 m ρ c)
theorem w2_v25 : W2 m ρ c (Proc.devRef .tc main_v25) = rowOf (a2 m c) :=
  (W2_of_ne m ρ c main_v25 (by decide)).trans (w1_v25 m ρ c)
theorem w2_v26 : W2 m ρ c (Proc.devRef .tc main_v26) = rowOf (a4 m c) :=
  (W2_of_ne m ρ c main_v26 (by decide)).trans (w1_v26 m ρ c)

/-- x · W1: the region's product of the two arguments is the reference's. -/
theorem w2_v27_0 : W2 m ρ c (Proc.devRef .tc main_v27_0) = Cert.ReferenceIdeal.Read.val_main_v8 (F := Ideal) (a0 m c) (a1 m c) :=
  (W2_arr m ρ c 2).trans ((Cert.KernelIdeal.Reg0.out_f32 (V1 m ρ) c).trans (by
    show mm (W1 m ρ c (Proc.devRef .tc main_arg0)) (W1 m ρ c (Proc.devRef .tc main_arg1)) = _
    rw [w1_arg0 m ρ c, w1_arg1 m ρ c]
    exact (Cert.ReferenceIdeal.Stages.st_v8 (a0 m c) (a1 m c)).symm))

/-- x · W1, the half-width copy: the same extended reals. -/
theorem w2_v27_1 : W2 m ρ c (Proc.devRef .tc main_v27_1) = Cert.ReferenceIdeal.Read.val_main_v8 (F := Ideal) (a0 m c) (a1 m c) :=
  (W2_arr m ρ c 3).trans ((Cert.KernelIdeal.Reg0.out_bf16 (V1 m ρ) c).trans (by
    show mm (W1 m ρ c (Proc.devRef .tc main_arg0)) (W1 m ρ c (Proc.devRef .tc main_arg1)) = _
    rw [w1_arg0 m ρ c, w1_arg1 m ρ c]
    exact (Cert.ReferenceIdeal.Stages.st_v8 (a0 m c) (a1 m c)).symm))

/-! ## After the second host stretch: the first layer's edge aggregate -/

theorem w3_arg0 : W3 m ρ c (Proc.devRef .tc main_arg0) = a0 m c :=
  (kept1 (W2 m ρ c) main_arg0 (by decide)).trans (w2_arg0 m ρ c)
theorem w3_arg1 : W3 m ρ c (Proc.devRef .tc main_arg1) = a1 m c :=
  (kept1 (W2 m ρ c) main_arg1 (by decide)).trans (w2_arg1 m ρ c)
theorem w3_arg3 : W3 m ρ c (Proc.devRef .tc main_arg3) = a3 m c :=
  (kept1 (W2 m ρ c) main_arg3 (by decide)).trans (w2_arg3 m ρ c)
theorem w3_arg5 : W3 m ρ c (Proc.devRef .tc main_arg5) = a5 m c :=
  (kept1 (W2 m ρ c) main_arg5 (by decide)).trans (w2_arg5 m ρ c)
theorem w3_arg6 : W3 m ρ c (Proc.devRef .tc main_arg6) = a6 m c :=
  (kept1 (W2 m ρ c) main_arg6 (by decide)).trans (w2_arg6 m ρ c)
theorem w3_arg7 : W3 m ρ c (Proc.devRef .tc main_arg7) = a7 m c :=
  (kept1 (W2 m ρ c) main_arg7 (by decide)).trans (w2_arg7 m ρ c)
theorem w3_arg8 : W3 m ρ c (Proc.devRef .tc main_arg8) = a8 m c :=
  (kept1 (W2 m ρ c) main_arg8 (by decide)).trans (w2_arg8 m ρ c)
theorem w3_arg9 : W3 m ρ c (Proc.devRef .tc main_arg9) = a9 m c :=
  (kept1 (W2 m ρ c) main_arg9 (by decide)).trans (w2_arg9 m ρ c)
theorem w3_arg10 : W3 m ρ c (Proc.devRef .tc main_arg10) = a10 m c :=
  (kept1 (W2 m ρ c) main_arg10 (by decide)).trans (w2_arg10 m ρ c)
theorem w3_v9 : W3 m ρ c (Proc.devRef .tc main_v9) = colOf (Cert.ReferenceIdeal.Read.val_main_v37 (F := Ideal) (a8 m c)) :=
  (kept1 (W2 m ρ c) main_v9 (by decide)).trans (w2_v9 m ρ c)
theorem w3_v24 : W3 m ρ c (Proc.devRef .tc main_v24) = Cert.ReferenceIdeal.Read.val_main_v23 (F := Ideal) (a7 m c) (a8 m c) :=
  (kept1 (W2 m ρ c) main_v24 (by decide)).trans (w2_v24 m ρ c)
theorem w3_v25 : W3 m ρ c (Proc.devRef .tc main_v25) = rowOf (a2 m c) :=
  (kept1 (W2 m ρ c) main_v25 (by decide)).trans (w2_v25 m ρ c)
theorem w3_v26 : W3 m ρ c (Proc.devRef .tc main_v26) = rowOf (a4 m c) :=
  (kept1 (W2 m ρ c) main_v26 (by decide)).trans (w2_v26 m ρ c)
theorem w3_v27_0 : W3 m ρ c (Proc.devRef .tc main_v27_0) = Cert.ReferenceIdeal.Read.val_main_v8 (F := Ideal) (a0 m c) (a1 m c) :=
  (kept1 (W2 m ρ c) main_v27_0 (by decide)).trans (w2_v27_0 m ρ c)

set_option maxHeartbeats 1000000 in
/-- The first layer's edge aggregate: the rows of x · W1 gathered at the edges' sources (a change of float format is the identity), scaled
    by the edge weights and added up at the targets: the reference's operations on equal operands. -/
theorem w3_v41 : W3 m ρ c (Proc.devRef .tc main_v41) = Cert.ReferenceIdeal.Read.val_main_v36 (F := Ideal) (a0 m c) (a1 m c) (a7 m c) (a8 m c) := by
  show StableHlo.after hostOps1 (W2 m ρ c) (Proc.devRef .tc main_v41) = _
  after_results_simp
  rw [w2_v27_1 m ρ c, w2_v24 m ρ c, w2_arg7 m ρ c, w2_arg8 m ρ c]
  rfl

/-! ## After the second region: the first layer finished, times W2 -/

theorem w4_v9 : W4 m ρ c (Proc.devRef .tc main_v9) = colOf (Cert.ReferenceIdeal.Read.val_main_v37 (F := Ideal) (a8 m c)) :=
  (W4_arr m ρ c 2).trans (((dat1 (V3 m ρ) c).arrAt_in 2 rfl _).trans ((A_eq1 (V3 m ρ) c 2).trans (w3_v9 m ρ c)))
theorem w4_v25 : W4 m ρ c (Proc.devRef .tc main_v25) = rowOf (a2 m c) :=
  (W4_arr m ρ c 3).trans (((dat1 (V3 m ρ) c).arrAt_in 3 rfl _).trans ((A_eq1 (V3 m ρ) c 3).trans (w3_v25 m ρ c)))
theorem w4_arg3 : W4 m ρ c (Proc.devRef .tc main_arg3) = a3 m c :=
  (W4_arr m ρ c 4).trans (((dat1 (V3 m ρ) c).arrAt_in 4 rfl _).trans ((A_eq1 (V3 m ρ) c 4).trans (w3_arg3 m ρ c)))
theorem w4_arg0 : W4 m ρ c (Proc.devRef .tc main_arg0) = a0 m c :=
  (W4_of_ne m ρ c main_arg0 (by decide)).trans (w3_arg0 m ρ c)
theorem w4_arg1 : W4 m ρ c (Proc.devRef .tc main_arg1) = a1 m c :=
  (W4_of_ne m ρ c main_arg1 (by decide)).trans (w3_arg1 m ρ c)
theorem w4_arg5 : W4 m ρ c (Proc.devRef .tc main_arg5) = a5 m c :=
  (W4_of_ne m ρ c main_arg5 (by decide)).trans (w3_arg5 m ρ c)
theorem w4_arg6 : W4 m ρ c (Proc.devRef .tc main_arg6) = a6 m c :=
  (W4_of_ne m ρ c main_arg6 (by decide)).trans (w3_arg6 m ρ c)
theorem w4_arg7 : W4 m ρ c (Proc.devRef .tc main_arg7) = a7 m c :=
  (W4_of_ne m ρ c main_arg7 (by decide)).trans (w3_arg7 m ρ c)
theorem w4_arg8 : W4 m ρ c (Proc.devRef .tc main_arg8) = a8 m c :=
  (W4_of_ne m ρ c main_arg8 (by decide)).trans (w3_arg8 m ρ c)
theorem w4_arg9 : W4 m ρ c (Proc.devRef .tc main_arg9) = a9 m c :=
  (W4_of_ne m ρ c main_arg9 (by decide)).trans (w3_arg9 m ρ c)
theorem w4_arg10 : W4 m ρ c (Proc.devRef .tc main_arg10) = a10 m c :=
  (W4_of_ne m ρ c main_arg10 (by decide)).trans (w3_arg10 m ρ c)
theorem w4_v24 : W4 m ρ c (Proc.devRef .tc main_v24) = Cert.ReferenceIdeal.Read.val_main_v23 (F := Ideal) (a7 m c) (a8 m c) :=
  (W4_of_ne m ρ c main_v24 (by decide)).trans (w3_v24 m ρ c)
theorem w4_v26 : W4 m ρ c (Proc.devRef .tc main_v26) = rowOf (a4 m c) :=
  (W4_of_ne m ρ c main_v26 (by decide)).trans (w3_v26 m ρ c)

/-- The first layer finished, clamped at zero, times W2: the region's function of the arrays it finds is the reference's stage. -/
theorem w4_v42_0 : W4 m ρ c (Proc.devRef .tc main_v42_0) = Cert.ReferenceIdeal.Read.val_main_v46 (F := Ideal) (a0 m c) (a1 m c) (a2 m c) (a3 m c) (a7 m c) (a8 m c) :=
  (W4_arr m ρ c 5).trans ((Cert.KernelIdeal.Reg1.out_f32 (V3 m ρ) c).trans (by
    show mm (relu (fin (W3 m ρ c (Proc.devRef .tc main_v41)) (W3 m ρ c (Proc.devRef .tc main_v27_0)) (W3 m ρ c (Proc.devRef .tc main_v9))
      (W3 m ρ c (Proc.devRef .tc main_v25)))) (W3 m ρ c (Proc.devRef .tc main_arg3)) = _
    rw [w3_v41 m ρ c, w3_v27_0 m ρ c, w3_v9 m ρ c, w3_v25 m ρ c, w3_arg3 m ρ c]
    exact (Cert.ReferenceIdeal.Stages.st_v46 (a0 m c) (a1 m c) (a2 m c) (a3 m c) (a7 m c) (a8 m c)).symm))

/-- The same, the half-width copy: the region's function of the arrays it finds is the reference's stage. -/
theorem w4_v42_1 : W4 m ρ c (Proc.devRef .tc main_v42_1) = Cert.ReferenceIdeal.Read.val_main_v46 (F := Ideal) (a0 m c) (a1 m c) (a2 m c) (a3 m c) (a7 m c) (a8 m c) :=
  (W4_arr m ρ c 6).trans ((Cert.KernelIdeal.Reg1.out_bf16 (V3 m ρ) c).trans (by
    show mm (relu (fin (W3 m ρ c (Proc.devRef .tc main_v41)) (W3 m ρ c (Proc.devRef .tc main_v27_0)) (W3 m ρ c (Proc.devRef .tc main_v9))
      (W3 m ρ c (Proc.devRef .tc main_v25)))) (W3 m ρ c (Proc.devRef .tc main_arg3)) = _
    rw [w3_v41 m ρ c, w3_v27_0 m ρ c, w3_v9 m ρ c, w3_v25 m ρ c, w3_arg3 m ρ c]
    exact (Cert.ReferenceIdeal.Stages.st_v46 (a0 m c) (a1 m c) (a2 m c) (a3 m c) (a7 m c) (a8 m c)).symm))

/-! ## After the third host stretch: the second layer's edge aggregate -/

theorem w5_arg0 : W5 m ρ c (Proc.devRef .tc main_arg0) = a0 m c :=
  (kept2 (W4 m ρ c) main_arg0 (by decide)).trans (w4_arg0 m ρ c)
theorem w5_arg1 : W5 m ρ c (Proc.devRef .tc main_arg1) = a1 m c :=
  (kept2 (W4 m ρ c) main_arg1 (by decide)).trans (w4_arg1 m ρ c)
theorem w5_arg3 : W5 m ρ c (Proc.devRef .tc main_arg3) = a3 m c :=
  (kept2 (W4 m ρ c) main_arg3 (by decide)).trans (w4_arg3 m ρ c)
theorem w5_arg5 : W5 m ρ c (Proc.devRef .tc main_arg5) = a5 m c :=
  (kept2 (W4 m ρ c) main_arg5 (by decide)).trans (w4_arg5 m ρ c)
theorem w5_arg6 : W5 m ρ c (Proc.devRef .tc main_arg6) = a6 m c :=
  (kept2 (W4 m ρ c) main_arg6 (by decide)).trans (w4_arg6 m ρ c)
theorem w5_arg7 : W5 m ρ c (Proc.devRef .tc main_arg7) = a7 m c :=
  (kept2 (W4 m ρ c) main_arg7 (by decide)).trans (w4_arg7 m ρ c)
theorem w5_arg8 : W5 m ρ c (Proc.devRef .tc main_arg8) = a8 m c :=
  (kept2 (W4 m ρ c) main_arg8 (by decide)).trans (w4_arg8 m ρ c)
theorem w5_arg9 : W5 m ρ c (Proc.devRef .tc main_arg9) = a9 m c :=
  (kept2 (W4 m ρ c) main_arg9 (by decide)).trans (w4_arg9 m ρ c)
theorem w5_arg10 : W5 m ρ c (Proc.devRef .tc main_arg10) = a10 m c :=
  (kept2 (W4 m ρ c) main_arg10 (by decide)).trans (w4_arg10 m ρ c)
theorem w5_v9 : W5 m ρ c (Proc.devRef .tc main_v9) = colOf (Cert.ReferenceIdeal.Read.val_main_v37 (F := Ideal) (a8 m c)) :=
  (kept2 (W4 m ρ c) main_v9 (by decide)).trans (w4_v9 m ρ c)
theorem w5_v24 : W5 m ρ c (Proc.devRef .tc main_v24) = Cert.ReferenceIdeal.Read.val_main_v23 (F := Ideal) (a7 m c) (a8 m c) :=
  (kept2 (W4 m ρ c) main_v24 (by decide)).trans (w4_v24 m ρ c)
theorem w5_v25 : W5 m ρ c (Proc.devRef .tc main_v25) = rowOf (a2 m c) :=
  (kept2 (W4 m ρ c) main_v25 (by decide)).trans (w4_v25 m ρ c)
theorem w5_v26 : W5 m ρ c (Proc.devRef .tc main_v26) = rowOf (a4 m c) :=
  (kept2 (W4 m ρ c) main_v26 (by decide)).trans (w4_v26 m ρ c)
theorem w5_v42_0 : W5 m ρ c (Proc.devRef .tc main_v42_0) = Cert.ReferenceIdeal.Read.val_main_v46 (F := Ideal) (a0 m c) (a1 m c) (a2 m c) (a3 m c) (a7 m c) (a8 m c) :=
  (kept2 (W4 m ρ c) main_v42_0 (by decide)).trans (w4_v42_0 m ρ c)

set_option maxHeartbeats 1000000 in
/-- The second layer's edge aggregate: as the first, over the first layer's output (the reference computes the edge weights anew, by the
    same operations). -/
theorem w5_v56 : W5 m ρ c (Proc.devRef .tc main_v56) = Cert.ReferenceIdeal.Read.val_main_v74 (F := Ideal) (a0 m c) (a1 m c) (a2 m c) (a3 m c) (a7 m c) (a8 m c) := by
  show StableHlo.after hostOps2 (W4 m ρ c) (Proc.devRef .tc main_v56) = _
  after_results_simp
  rw [w4_v42_1 m ρ c, w4_v24 m ρ c, w4_arg7 m ρ c, w4_arg8 m ρ c]
  rfl

/-! ## After the third region: h1, and everything the negative pass and the scores still read -/

/-- h1, the second layer finished: the reference's stage. -/
theorem w6_v57 : W6 m ρ c (Proc.devRef .tc main_v57)
    = Cert.ReferenceIdeal.Read.val_main_v82 (F := Ideal) (a0 m c) (a1 m c) (a2 m c) (a3 m c) (a4 m c) (a7 m c) (a8 m c) :=
  (W6_arr m ρ c 4).trans ((Cert.KernelIdeal.Reg2.out (V5 m ρ) c).trans (by
    show fin (W5 m ρ c (Proc.devRef .tc main_v56)) (W5 m ρ c (Proc.devRef .tc main_v42_0)) (W5 m ρ c (Proc.devRef .tc main_v9))
      (W5 m ρ c (Proc.devRef .tc main_v26)) = _
    rw [w5_v56 m ρ c, w5_v42_0 m ρ c, w5_v9 m ρ c, w5_v26 m ρ c]
    exact (Cert.ReferenceIdeal.Stages.st_v82 (a0 m c) (a1 m c) (a2 m c) (a3 m c) (a4 m c) (a7 m c) (a8 m c)).symm))

/-- The self-loop weights d² as a column. -/
theorem w6_v9 : W6 m ρ c (Proc.devRef .tc main_v9) = colOf (Cert.ReferenceIdeal.Read.val_main_v37 (F := Ideal) (a8 m c)) :=
  (W6_arr m ρ c 2).trans (((dat2 (V5 m ρ) c).arrAt_in 2 rfl _).trans ((A_eq2 (V5 m ρ) c 2).trans (w5_v9 m ρ c)))

/-- The edge weights d[src] · d[dst]. -/
theorem w6_v24 : W6 m ρ c (Proc.devRef .tc main_v24) = Cert.ReferenceIdeal.Read.val_main_v23 (F := Ideal) (a7 m c) (a8 m c) :=
  (W6_of_ne m ρ c main_v24 (by decide)).trans (w5_v24 m ρ c)

/-- The two bias rows. -/
theorem w6_v25 : W6 m ρ c (Proc.devRef .tc main_v25) = rowOf (a2 m c) :=
  (W6_of_ne m ρ c main_v25 (by decide)).trans (w5_v25 m ρ c)
theorem w6_v26 : W6 m ρ c (Proc.devRef .tc main_v26) = rowOf (a4 m c) :=
  (W6_arr m ρ c 3).trans (((dat2 (V5 m ρ) c).arrAt_in 3 rfl _).trans ((A_eq2 (V5 m ρ) c 3).trans (w5_v26 m ρ c)))

/-- The arguments are as launched. -/
theorem w6_arg0 : W6 m ρ c (Proc.devRef .tc main_arg0) = a0 m c :=
  (W6_of_ne m ρ c main_arg0 (by decide)).trans (w5_arg0 m ρ c)
theorem w6_arg1 : W6 m ρ c (Proc.devRef .tc main_arg1) = a1 m c :=
  (W6_of_ne m ρ c main_arg1 (by decide)).trans (w5_arg1 m ρ c)
theorem w6_arg3 : W6 m ρ c (Proc.devRef .tc main_arg3) = a3 m c :=
  (W6_of_ne m ρ c main_arg3 (by decide)).trans (w5_arg3 m ρ c)
theorem w6_arg5 : W6 m ρ c (Proc.devRef .tc main_arg5) = a5 m c :=
  (W6_of_ne m ρ c main_arg5 (by decide)).trans (w5_arg5 m ρ c)
theorem w6_arg6 : W6 m ρ c (Proc.devRef .tc main_arg6) = a6 m c :=
  (W6_of_ne m ρ c main_arg6 (by decide)).trans (w5_arg6 m ρ c)
theorem w6_arg7 : W6 m ρ c (Proc.devRef .tc main_arg7) = a7 m c :=
  (W6_of_ne m ρ c main_arg7 (by decide)).trans (w5_arg7 m ρ c)
theorem w6_arg8 : W6 m ρ c (Proc.devRef .tc main_arg8) = a8 m c :=
  (W6_of_ne m ρ c main_arg8 (by decide)).trans (w5_arg8 m ρ c)
theorem w6_arg9 : W6 m ρ c (Proc.devRef .tc main_arg9) = a9 m c :=
  (W6_of_ne m ρ c main_arg9 (by decide)).trans (w5_arg9 m ρ c)
theorem w6_arg10 : W6 m ρ c (Proc.devRef .tc main_arg10) = a10 m c :=
  (W6_of_ne m ρ c main_arg10 (by decide)).trans (w5_arg10 m ρ c)

end Cert.KernelIdeal.ChainA

end
-- ==== Proof.Reg3.lean ====
import proofs.«415712_j89103391523491_2_alg».proof.Proof.Gen.KernelIdeal.Frame
import proofs.«415712_j89103391523491_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg3

open Cert.KernelIdeal Cert.KernelIdeal.Gen

/-- Both block offsets of a whole-block rectangle are zero. -/
theorem hz : (![0, 0] : Fin 2 → Nat) = fun _ => 0 := funext fun a => by fin_cases a <;> rfl

/-! ## The product's operand indices: at output index (r, c) and contraction index l they are (r, l) and (l, c) -/

theorem lhs_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The body's f32 payload at entry (p, q) of a block: Σ_l x(p, l) · w(l, q). The left operand is first recast to its
    own shape, which changes nothing; the two roundings of the operands to a narrower format are the identity on the
    extended reals, and the accumulator is the zero splat. -/
theorem pay1_apply (x : Vec Ideal S2000x128 .f32) (w : Vec Ideal S128x256 .f32) (p : Fin 2000) (q : Fin 256) :
    k3_pay1 (F := Ideal) x w (ix2 p q) = ∑ l : Fin 128, x (ix2 p l) * w (ix2 l q) := by
  unfold k3_pay1
  refine (Ideal.matmul_constant_zero_apply dot_S2000x128_S128x256_S2000x256_1_0_0_1_n_n none _ _ (ix2 p q)).trans ?_
  rw [← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs_0 _ _).trans hk
    | ⟨1, _⟩ => exact rhs_1 _ _)
  rw [el, er]
  exact congrArg (fun z => z * w (ix2 k q)) (congrFun (shapeCast_self x shapeCasts_S2000x128_S2000x128) (ix2 p k))

/-- The bf16 payload holds the same extended reals. -/
theorem pay2_apply (x : Vec Ideal S2000x128 .f32) (w : Vec Ideal S128x256 .f32) (p : Fin 2000) (q : Fin 256) :
    k3_pay2 (F := Ideal) x w (ix2 p q) = ∑ l : Fin 128, x (ix2 p l) * w (ix2 l q) :=
  pay1_apply x w p q

/-- The printed index maps, decided once over the grid: the row-block windows sit at block (t, 0), the resident
    weight window at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- The left operand's block at point t is rows 2000·t … 2000·t + 1999 of the array. -/
theorem iblk_x (c : Dev nD) (t : Fin cfg3.N) (y : S2000x128.Idx) (k : S50000x128.Idx)
    (hk0 : (k 0).val = t.val * 2000 + (y 0).val) (hk1 : (k 1).val = (y 1).val) :
    iblk3 (F := Ideal) V c 0 t y = V c main_v82 k := by
  obtain ⟨e0, e1, -⟩ := idx_facts t
  unfold iblk3
  rw [View.read_apply]
  show V c main_v82 _ = V c main_v82 _
  congr 1
  funext a
  apply Fin.ext
  match a with
  | ⟨0, _⟩ => show win3_0.index t (0 : Fin 2) * 2000 + 1 * (y 0).val = (k 0).val; omega
  | ⟨1, _⟩ => show win3_0.index t (1 : Fin 2) * 128 + 1 * (y 1).val = (k 1).val; omega

/-- The right operand's block at every point is the whole array. -/
theorem iblk_w (c : Dev nD) (t : Fin cfg3.N) (y : S128x256.Idx) :
    iblk3 (F := Ideal) V c 1 t y = V c main_arg1 y := by
  obtain ⟨-, -, e2, e3, -⟩ := idx_facts t
  unfold iblk3
  rw [View.read_apply]
  show V c main_arg1 _ = V c main_arg1 _
  congr 1
  funext a
  apply Fin.ext
  match a with
  | ⟨0, _⟩ => show win3_1.index t (0 : Fin 2) * 128 + 1 * (y 0).val = (y 0).val; omega
  | ⟨1, _⟩ => show win3_1.index t (1 : Fin 2) * 256 + 1 * (y 1).val = (y 1).val; omega

/-- What point t writes back into the f32 output is block t of the matrix product. -/
theorem flushed2_eq (c : Dev nD) (t : Fin cfg3.N) :
    (dat3 (F := Ideal) V c).flushed 2 t = ((cfg3.win 2).blk t).view.read (Elt Ideal) (Cert.Spec.mm (V c main_v82) (V c main_arg1)) := by
  show (cfg3.win 2).cut (grid3.coords t) ((dat3 V c).after 2 t) = _
  rw [after3_2]
  unfold out3_2
  rw [View.canon_unit_zero hz]
  simp only [View.ld_unit_zero (S := S2000x128) hz, View.ld_unit_zero (S := S128x256) hz]
  obtain ⟨-, -, -, -, e4, e5, e6, e7⟩ := idx_facts t
  funext j
  obtain ⟨p, q, rfl⟩ : ∃ (p : Fin 2000) (q : Fin 256), j = ix2 p q := ⟨j 0, j 1, eq_ix2 j⟩
  show k3_pay1 (F := Ideal) (iblk3 V c 0 t) (iblk3 V c 1 t) (ix2 p q) = Cert.Spec.mm (V c main_v82) (V c main_arg1) (((cfg3.win 2).blk t).view.emb (ix2 p q))
  refine (pay1_apply _ _ p q).trans ?_
  unfold Cert.Spec.mm
  refine Finset.sum_congr rfl fun l _ => ?_
  have hx := iblk_x V c t (ix2 p l) (ix2 ((((cfg3.win 2).blk t).view.emb (ix2 p q)) 0) l)
    (by show win3_2.index t (0 : Fin 2) * 2000 + 1 * p.val = t.val * 2000 + p.val; omega) rfl
  have h1 : (((cfg3.win 2).blk t).view.emb (ix2 p q)) 1 = q :=
    Fin.ext (by show win3_2.index t (1 : Fin 2) * 256 + 1 * q.val = q.val; omega)
  rw [hx, iblk_w V c t (ix2 l q), h1]

/-- An index of the f32 output array is in point t's block iff each coordinate is in the block's range on its axis. -/
theorem mem_blk2 (t : Fin cfg3.N) (i : S50000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v83_0).slice (win3_2.rect t)).set ↔ _
  rw [View.set_slice_whole, Rect.mem_set_unit]
  exact Iff.rfl

/-- Row r of the f32 output array lies in the block of point r / 2000, and every point writes back. -/
theorem cover2 (i : S50000x256.Idx) :
    ∃ t : Fin cfg3.N, (cfg3.win 2).flush t = true ∧ i ∈ ((cfg3.win 2).blk t).view.set := by
  have hN : cfg3.N = 25 := N_3
  have hi0 : (i 0).val < 50000 := (i 0).isLt
  have hi1 : (i 1).val < 256 := (i 1).isLt
  have ht : (i 0).val / 2000 < cfg3.N := by rw [hN]; omega
  obtain ⟨-, -, -, -, e4, e5, e6, e7⟩ := idx_facts ⟨(i 0).val / 2000, ht⟩
  refine ⟨⟨(i 0).val / 2000, ht⟩, flush3_2 _, ?_⟩
  rw [mem_blk2]
  intro a
  match a with
  | ⟨0, _⟩ =>
    show win3_2.index ⟨(i 0).val / 2000, ht⟩ (0 : Fin 2) * 2000 ≤ (i 0).val ∧ (i 0).val < win3_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win3_2.index ⟨(i 0).val / 2000, ht⟩ (1 : Fin 2) * 256 ≤ (i 1).val ∧ (i 1).val < win3_2.index ⟨(i 0).val / 2000, ht⟩ (1 : Fin 2) * 256 + 256
    omega

/-- What point t writes back into the bf16 output is block t of the matrix product. -/
theorem flushed3_eq (c : Dev nD) (t : Fin cfg3.N) :
    (dat3 (F := Ideal) V c).flushed 3 t = ((cfg3.win 3).blk t).view.read (Elt Ideal) (Cert.Spec.mm (V c main_v82) (V c main_arg1)) := by
  show (cfg3.win 3).cut (grid3.coords t) ((dat3 V c).after 3 t) = _
  rw [after3_3]
  unfold out3_3
  rw [View.canon_unit_zero hz]
  simp only [View.ld_unit_zero (S := S2000x128) hz, View.ld_unit_zero (S := S128x256) hz]
  obtain ⟨-, -, -, -, e4, e5, e6, e7⟩ := idx_facts t
  funext j
  obtain ⟨p, q, rfl⟩ : ∃ (p : Fin 2000) (q : Fin 256), j = ix2 p q := ⟨j 0, j 1, eq_ix2 j⟩
  show k3_pay2 (F := Ideal) (iblk3 V c 0 t) (iblk3 V c 1 t) (ix2 p q) = Cert.Spec.mm (V c main_v82) (V c main_arg1) (((cfg3.win 3).blk t).view.emb (ix2 p q))
  refine (pay2_apply _ _ p q).trans ?_
  unfold Cert.Spec.mm
  refine Finset.sum_congr rfl fun l _ => ?_
  have hx := iblk_x V c t (ix2 p l) (ix2 ((((cfg3.win 3).blk t).view.emb (ix2 p q)) 0) l)
    (by show win3_3.index t (0 : Fin 2) * 2000 + 1 * p.val = t.val * 2000 + p.val; omega) rfl
  have h1 : (((cfg3.win 3).blk t).view.emb (ix2 p q)) 1 = q :=
    Fin.ext (by show win3_3.index t (1 : Fin 2) * 256 + 1 * q.val = q.val; omega)
  rw [hx, iblk_w V c t (ix2 l q), h1]

/-- An index of the bf16 output array is in point t's block iff each coordinate is in the block's range on its axis. -/
theorem mem_blk3 (t : Fin cfg3.N) (i : S50000x256.Idx) :
    i ∈ ((cfg3.win 3).blk t).view.set ↔ ∀ a : Fin 2, win3_3.index t a * S2000x256.size a ≤ (i a).val ∧ (i a).val < win3_3.index t a * S2000x256.size a + S2000x256.size a := by
  show i ∈ ((View.whole main_v83_1).slice (win3_3.rect t)).set ↔ _
  rw [View.set_slice_whole, Rect.mem_set_unit]
  exact Iff.rfl

/-- Row r of the bf16 output array lies in the block of point r / 2000, and every point writes back. -/
theorem cover3 (i : S50000x256.Idx) :
    ∃ t : Fin cfg3.N, (cfg3.win 3).flush t = true ∧ i ∈ ((cfg3.win 3).blk t).view.set := by
  have hN : cfg3.N = 25 := N_3
  have hi0 : (i 0).val < 50000 := (i 0).isLt
  have hi1 : (i 1).val < 256 := (i 1).isLt
  have ht : (i 0).val / 2000 < cfg3.N := by rw [hN]; omega
  obtain ⟨-, -, -, -, e4, e5, e6, e7⟩ := idx_facts ⟨(i 0).val / 2000, ht⟩
  refine ⟨⟨(i 0).val / 2000, ht⟩, flush3_3 _, ?_⟩
  rw [mem_blk3]
  intro a
  match a with
  | ⟨0, _⟩ =>
    show win3_3.index ⟨(i 0).val / 2000, ht⟩ (0 : Fin 2) * 2000 ≤ (i 0).val ∧ (i 0).val < win3_3.index ⟨(i 0).val / 2000, ht⟩ (0 : Fin 2) * 2000 + 2000
    rw [e6]
    show (i 0).val / 2000 * 2000 ≤ (i 0).val ∧ (i 0).val < (i 0).val / 2000 * 2000 + 2000
    omega
  | ⟨1, _⟩ =>
    show win3_3.index ⟨(i 0).val / 2000, ht⟩ (1 : Fin 2) * 256 ≤ (i 1).val ∧ (i 1).val < win3_3.index ⟨(i 0).val / 2000, ht⟩ (1 : Fin 2) * 256 + 256
    omega

/-- Region 3 (x[perm] · W1): its f32 output array after the run is the matrix product of the two arrays the region finds. -/
theorem out_f32 (c : Dev nD) :
    (dat3 (F := Ideal) V c).arrAt 2 cfg3.N = Cert.Spec.mm (V c main_v82) (V c main_arg1) :=
  (dat3 (F := Ideal) V c).arrAt_eq_of_cover 2 (Cert.Spec.mm (V c main_v82) (V c main_arg1)) (fun t _ => flushed2_eq V c t) cover2

/-- Its bf16 output array holds the same extended reals (a change of float format is the identity there). -/
theorem out_bf16 (c : Dev nD) :
    (dat3 (F := Ideal) V c).arrAt 3 cfg3.N = Cert.Spec.mm (V c main_v82) (V c main_arg1) :=
  (dat3 (F := Ideal) V c).arrAt_eq_of_cover 3 (Cert.Spec.mm (V c main_v82) (V c main_arg1)) (fun t _ => flushed3_eq V c t) cover3

end Cert.KernelIdeal.Reg3

end
-- ==== Proof.Reg4.lean ====
import proofs.«415712_j89103391523491_2_alg».proof.Proof.Gen.KernelIdeal.Frame
import proofs.«415712_j89103391523491_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg4

open Cert.KernelIdeal Cert.KernelIdeal.Gen

variable (V : (c : Dev nD) → (b : Ref sig .tc) → Buf (Elt Ideal) ((c : Thread nD τ).loc b))

/-- The two-zero offset vector is the constant-zero function. -/
theorem hz : (![0, 0] : Fin 2 → Nat) = fun _ => 0 :=
  funext fun a => match a with | ⟨0, _⟩ => rfl | ⟨1, _⟩ => rfl

/-! ## The product's operand indices: at output (r, c) and contraction index l they are (r, l) and (l, c) -/

theorem lhs_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The body's f32 value at (p, q): the sum over l of max(agg(p,l) + d(p)·h(p,l) + b(l), 0) · W(l, q).  The row and
    column broadcasts read the column d at (p, 0) and the bias row at (0, l); the change of float format before the
    product is the identity on the extended reals, and the product accumulates into the zero array. -/
theorem pay1_apply (agg h : Vec Ideal S2000x256 .f32) (d : Vec Ideal S2000x1 .f32) (b : Vec Ideal S1x256 .f32)
    (w : Vec Ideal S256x256 .f32) (p : Fin 2000) (q : Fin 256) :
    k4_pay1 (F := Ideal) agg d h b w (ix2 p q)
      = ∑ l : Fin 256, max (agg (ix2 p l) + d (ix2 p (0 : Fin 1)) * h (ix2 p l) + b (ix2 (0 : Fin 1) l)) 0 * w (ix2 l q) := by
  unfold k4_pay1
  refine (Ideal.matmul_constant_zero_apply _ none _ _ _).trans ?_
  rw [← Equiv.sum_comp (contrEquiv1 dot_S2000x256_S256x256_S2000x256_1_0_0_1_n_n 256 rfl rfl).symm]
  refine Finset.sum_congr rfl fun l _ => ?_
  have hk := contrEquiv1_symm_val dot_S2000x256_S256x256_S2000x256_1_0_0_1_n_n 256 rfl rfl l
  have el : dot_S2000x256_S256x256_S2000x256_1_0_0_1_n_n.lhsIdx (ix2 p q) ((contrEquiv1 dot_S2000x256_S256x256_S2000x256_1_0_0_1_n_n 256 rfl rfl).symm l) = ix2 p l := funext fun a => Fin.ext (by
    match a with
    | ⟨0, _⟩ => exact lhs_0 _ _
    | ⟨1, _⟩ => exact (lhs_1 _ _).trans hk)
  have er : dot_S2000x256_S256x256_S2000x256_1_0_0_1_n_n.rhsIdx (ix2 p q) ((contrEquiv1 dot_S2000x256_S256x256_S2000x256_1_0_0_1_n_n 256 rfl rfl).symm l) = ix2 l q := funext fun a => Fin.ext (by
    match a with
    | ⟨0, _⟩ => exact (rhs_0 _ _).trans hk
    | ⟨1, _⟩ => exact rhs_1 _ _)
  rw [el, er]
  simp only [shapeCast_self]
  show max (agg (ix2 p l) + broadcastTo S2000x256 d broadcasts_S2000x1_S2000x256 (ix2 p l) * h (ix2 p l)
      + broadcastTo S2000x256 b broadcasts_S1x256_S2000x256 (ix2 p l)) (Ideal.ofBits .f32 0x00000000#32) * w (ix2 l q) = _
  rw [broadcastTo_apply d broadcasts_S2000x1_S2000x256 (ix2 p l) (ix2 p (0 : Fin 1))
        (fun a => match a with | ⟨0, _⟩ => rfl | ⟨1, _⟩ => rfl),
    broadcastTo_apply b broadcasts_S1x256_S2000x256 (ix2 p l) (ix2 (0 : Fin 1) l)
        (fun a => match a with | ⟨0, _⟩ => rfl | ⟨1, _⟩ => rfl),
    Ideal.ofBits_zero_f32]

/-- The bf16 value is the same extended real. -/
theorem pay2_apply (agg h : Vec Ideal S2000x256 .f32) (d : Vec Ideal S2000x1 .f32) (b : Vec Ideal S1x256 .f32)
    (w : Vec Ideal S256x256 .f32) (j : S2000x256.Idx) :
    k4_pay2 (F := Ideal) agg d h b w j = k4_pay1 (F := Ideal) agg d h b w j := rfl

/-! ## Where each window's block sits: the row-block windows (agg, h, d and the two outputs) move with the point, the
    bias row and the weight matrix stay whole -/

theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

/-- The grid has 25 points. -/
theorem t_lt (t : Fin cfg4.N) : t.val < 25 := by
  exact Nat.lt_of_lt_of_eq t.isLt N_4

/-- Row p of block t of agg is row 2000 t + p of the array. -/
theorem iblk0_apply (c : Dev nD) (t : Fin cfg4.N) (y : S2000x256.Idx) (k : S50000x256.Idx)
    (hk0 : (k 0).val = t.val * 2000 + (y 0).val) (hk1 : (k 1).val = (y 1).val) :
    (iblk4 V c 0 t : Vec Ideal S2000x256 .f32) y = (V c main_v97 : S50000x256.Idx → Elt Ideal .f32) k := by
  obtain ⟨e0, e1, -⟩ := idx_facts t
  unfold iblk4
  rw [View.read_apply]
  show (V c main_v97 : S50000x256.Idx → Elt Ideal .f32) _ = V c main_v97 _
  congr 1
  funext a
  apply Fin.ext
  match a with
  | ⟨0, _⟩ => show win4_0.index t (0 : Fin 2) * 2000 + 1 * (y 0).val = (k 0).val; rw [e0, hk0]; omega
  | ⟨1, _⟩ => show win4_0.index t (1 : Fin 2) * 256 + 1 * (y 1).val = (k 1).val; rw [e1, hk1]; omega

/-- Row p of block t of h is row 2000 t + p of the array. -/
theorem iblk1_apply (c : Dev nD) (t : Fin cfg4.N) (y : S2000x256.Idx) (k : S50000x256.Idx)
    (hk0 : (k 0).val = t.val * 2000 + (y 0).val) (hk1 : (k 1).val = (y 1).val) :
    (iblk4 V c 1 t : Vec Ideal S2000x256 .f32) y = (V c main_v83_0 : S50000x256.Idx → Elt Ideal .f32) k := by
  obtain ⟨-, -, e0, e1, -⟩ := idx_facts t
  unfold iblk4
  rw [View.read_apply]
  show (V c main_v83_0 : S50000x256.Idx → Elt Ideal .f32) _ = V c main_v83_0 _
  congr 1
  funext a
  apply Fin.ext
  match a with
  | ⟨0, _⟩ => show win4_1.index t (0 : Fin 2) * 2000 + 1 * (y 0).val = (k 0).val; rw [e0, hk0]; omega
  | ⟨1, _⟩ => show win4_1.index t (1 : Fin 2) * 256 + 1 * (y 1).val = (k 1).val; rw [e1, hk1]; omega

/-- Entry p of block t of the column d is entry 2000 t + p of the column. -/
theorem iblk2_apply (c : Dev nD) (t : Fin cfg4.N) (y : S2000x1.Idx) (k : S50000x1.Idx)
    (hk0 : (k 0).val = t.val * 2000 + (y 0).val) (hk1 : (k 1).val = (y 1).val) :
    (iblk4 V c 2 t : Vec Ideal S2000x1 .f32) y = (V c main_v9 : S50000x1.Idx → Elt Ideal .f32) k := by
  obtain ⟨-, -, -, -, e0, e1, -⟩ := idx_facts t
  unfold iblk4
  rw [View.read_apply]
  show (V c main_v9 : S50000x1.Idx → Elt Ideal .f32) _ = V c main_v9 _
  congr 1
  funext a
  apply Fin.ext
  match a with
  | ⟨0, _⟩ => show win4_2.index t (0 : Fin 2) * 2000 + 1 * (y 0).val = (k 0).val; rw [e0, hk0]; omega
  | ⟨1, _⟩ => show win4_2.index t (1 : Fin 2) * 1 + 1 * (y 1).val = (k 1).val; rw [e1, hk1]; omega

/-- The bias row's block is the whole row, at every point. -/
theorem iblk3_apply (c : Dev nD) (t : Fin cfg4.N) (y : S1x256.Idx) :
    (iblk4 V c 3 t : Vec Ideal S1x256 .f32) y = (V c main_v25 : S1x256.Idx → Elt Ideal .f32) y := by
  obtain ⟨-, -, -, -, -, -, e0, e1, -⟩ := idx_facts t
  unfold iblk4
  rw [View.read_apply]
  show (V c main_v25 : S1x256.Idx → Elt Ideal .f32) _ = V c main_v25 _
  congr 1
  funext a
  apply Fin.ext
  match a with
  | ⟨0, _⟩ => show win4_3.index t (0 : Fin 2) * 1 + 1 * (y 0).val = (y 0).val; rw [e0]; omega
  | ⟨1, _⟩ => show win4_3.index t (1 : Fin 2) * 256 + 1 * (y 1).val = (y 1).val; rw [e1]; omega

/-- The weight matrix's block is the whole matrix, at every point. -/
theorem iblk4_apply (c : Dev nD) (t : Fin cfg4.N) (y : S256x256.Idx) :
    (iblk4 V c 4 t : Vec Ideal S256x256 .f32) y = (V c main_arg3 : S256x256.Idx → Elt Ideal .f32) y := by
  obtain ⟨-, -, -, -, -, -, -, -, e0, e1, -⟩ := idx_facts t
  unfold iblk4
  rw [View.read_apply]
  show (V c main_arg3 : S256x256.Idx → Elt Ideal .f32) _ = V c main_arg3 _
  congr 1
  funext a
  apply Fin.ext
  match a with
  | ⟨0, _⟩ => show win4_4.index t (0 : Fin 2) * 256 + 1 * (y 0).val = (y 0).val; rw [e0]; omega
  | ⟨1, _⟩ => show win4_4.index t (1 : Fin 2) * 256 + 1 * (y 1).val = (y 1).val; rw [e1]; omega

/-- What point t computes at row p, column q of its block is the specification's value at row 2000 t + p, column q of
    the whole array: each block read is the array's entry at that row, the bias row and the weights are whole. -/
theorem blk_val (c : Dev nD) (t : Fin cfg4.N) (p : Fin 2000) (q : Fin 256) (r : Fin 50000) (hr : r.val = t.val * 2000 + p.val) :
    k4_pay1 (F := Ideal) (iblk4 V c 0 t) (iblk4 V c 2 t) (iblk4 V c 1 t) (iblk4 V c 3 t) (iblk4 V c 4 t) (ix2 p q)
      = Cert.Spec.mm (Cert.Spec.relu (Cert.Spec.fin (V c main_v97) (V c main_v83_0) (V c main_v9) (V c main_v25))) (V c main_arg3) (ix2 r q) := by
  refine (pay1_apply _ _ _ _ _ p q).trans ?_
  unfold Cert.Spec.mm Cert.Spec.relu Cert.Spec.fin
  show _ = ∑ l : Fin 256, _
  refine Finset.sum_congr rfl fun l _ => ?_
  rw [iblk0_apply V c t (ix2 p l) (ix2 r l) hr rfl, iblk1_apply V c t (ix2 p l) (ix2 r l) hr rfl,
    iblk2_apply V c t (ix2 p (0 : Fin 1)) (ix2 r (0 : Fin 1)) hr rfl, iblk3_apply V c t, iblk4_apply V c t]

/-- WHAT POINT t WRITES BACK to output window 5 is block t of the specification's array. -/
theorem flushed5_eq (c : Dev nD) (t : Fin cfg4.N) :
    (dat4 (F := Ideal) V c).flushed 5 t = ((cfg4.win 5).blk t).view.read (Elt Ideal)
      (Cert.Spec.mm (Cert.Spec.relu (Cert.Spec.fin (V c main_v97) (V c main_v83_0) (V c main_v9) (V c main_v25))) (V c main_arg3)) := by
  show (cfg4.win 5).cut (grid4.coords t) ((dat4 V c).after 5 t) = _
  rw [after4_5]
  unfold out4_5
  rw [View.canon_unit_zero hz]
  simp only [View.ld_unit_zero (S := S2000x256) hz, View.ld_unit_zero (S := S2000x1) hz, View.ld_unit_zero (S := S1x256) hz, View.ld_unit_zero (S := S256x256) hz]
  funext j
  revert j
  show ∀ j : S2000x256.Idx, k4_pay1 (F := Ideal) (iblk4 V c 0 t) (iblk4 V c 2 t) (iblk4 V c 1 t) (iblk4 V c 3 t) (iblk4 V c 4 t) j
    = Cert.Spec.mm (Cert.Spec.relu (Cert.Spec.fin (V c main_v97) (V c main_v83_0) (V c main_v9) (V c main_v25))) (V c main_arg3) (((cfg4.win 5).blk t).view.emb j)
  intro j
  obtain ⟨p, q, rfl⟩ : ∃ (p : Fin 2000) (q : Fin 256), j = ix2 p q := ⟨j 0, j 1, eq_ix2 j⟩
  have ht := t_lt t
  obtain ⟨-, -, -, -, -, -, -, -, -, -, e0, e1, -⟩ := idx_facts t
  have hemb : ((cfg4.win 5).blk t).view.emb (ix2 p q) = ix2 (⟨t.val * 2000 + p.val, by omega⟩ : Fin 50000) q := by
    funext a
    apply Fin.ext
    match a with
    | ⟨0, _⟩ => show win4_5.index t (0 : Fin 2) * 2000 + 1 * p.val = t.val * 2000 + p.val; rw [e0]; omega
    | ⟨1, _⟩ => show win4_5.index t (1 : Fin 2) * 256 + 1 * q.val = q.val; rw [e1]; omega
  rw [hemb]
  exact blk_val V c t p q _ rfl

/-- An index of the array is in point t's block iff each coordinate is in the block's range on its axis. -/
theorem mem_blk5 (t : Fin cfg4.N) (i : S50000x256.Idx) :
    i ∈ ((cfg4.win 5).blk t).view.set ↔ ∀ a : Fin 2, win4_5.index t a * S2000x256.size a ≤ (i a).val ∧ (i a).val < win4_5.index t a * S2000x256.size a + S2000x256.size a := by
  show i ∈ ((View.whole main_v98_0).slice (win4_5.rect t)).set ↔ _
  rw [View.set_slice_whole, Rect.mem_set_unit]
  exact Iff.rfl

/-- Every row r of the array is in the block of point r / 2000, and every point writes its block back. -/
theorem cover5 (i : S50000x256.Idx) :
    ∃ t : Fin cfg4.N, (cfg4.win 5).flush t = true ∧ i ∈ ((cfg4.win 5).blk t).view.set := by
  have hi0 : (i 0).val < 50000 := (i 0).isLt
  have hi1 : (i 1).val < 256 := (i 1).isLt
  have hq : (i 0).val / 2000 < 25 := by omega
  refine ⟨⟨(i 0).val / 2000, Nat.lt_of_lt_of_eq hq N_4.symm⟩, flush4_5 _, ?_⟩
  rw [mem_blk5]
  obtain ⟨-, -, -, -, -, -, -, -, -, -, e0, e1, -⟩ := idx_facts ⟨(i 0).val / 2000, Nat.lt_of_lt_of_eq hq N_4.symm⟩
  intro a
  match a with
  | ⟨0, _⟩ =>
    show win4_5.index _ (0 : Fin 2) * 2000 ≤ (i 0).val ∧ (i 0).val < win4_5.index _ (0 : Fin 2) * 2000 + 2000
    rw [e0]
    show (i 0).val / 2000 * 2000 ≤ (i 0).val ∧ (i 0).val < (i 0).val / 2000 * 2000 + 2000
    omega
  | ⟨1, _⟩ =>
    show win4_5.index _ (1 : Fin 2) * 256 ≤ (i 1).val ∧ (i 1).val < win4_5.index _ (1 : Fin 2) * 256 + 256
    rw [e1]
    omega

/-- WHAT POINT t WRITES BACK to output window 6 is block t of the specification's array. -/
theorem flushed6_eq (c : Dev nD) (t : Fin cfg4.N) :
    (dat4 (F := Ideal) V c).flushed 6 t = ((cfg4.win 6).blk t).view.read (Elt Ideal)
      (Cert.Spec.mm (Cert.Spec.relu (Cert.Spec.fin (V c main_v97) (V c main_v83_0) (V c main_v9) (V c main_v25))) (V c main_arg3)) := by
  show (cfg4.win 6).cut (grid4.coords t) ((dat4 V c).after 6 t) = _
  rw [after4_6]
  unfold out4_6
  rw [View.canon_unit_zero hz]
  simp only [View.ld_unit_zero (S := S2000x256) hz, View.ld_unit_zero (S := S2000x1) hz, View.ld_unit_zero (S := S1x256) hz, View.ld_unit_zero (S := S256x256) hz]
  funext j
  revert j
  show ∀ j : S2000x256.Idx, k4_pay2 (F := Ideal) (iblk4 V c 0 t) (iblk4 V c 2 t) (iblk4 V c 1 t) (iblk4 V c 3 t) (iblk4 V c 4 t) j
    = Cert.Spec.mm (Cert.Spec.relu (Cert.Spec.fin (V c main_v97) (V c main_v83_0) (V c main_v9) (V c main_v25))) (V c main_arg3) (((cfg4.win 6).blk t).view.emb j)
  intro j
  obtain ⟨p, q, rfl⟩ : ∃ (p : Fin 2000) (q : Fin 256), j = ix2 p q := ⟨j 0, j 1, eq_ix2 j⟩
  have ht := t_lt t
  obtain ⟨-, -, -, -, -, -, -, -, -, -, -, -, e0, e1⟩ := idx_facts t
  have hemb : ((cfg4.win 6).blk t).view.emb (ix2 p q) = ix2 (⟨t.val * 2000 + p.val, by omega⟩ : Fin 50000) q := by
    funext a
    apply Fin.ext
    match a with
    | ⟨0, _⟩ => show win4_6.index t (0 : Fin 2) * 2000 + 1 * p.val = t.val * 2000 + p.val; rw [e0]; omega
    | ⟨1, _⟩ => show win4_6.index t (1 : Fin 2) * 256 + 1 * q.val = q.val; rw [e1]; omega
  rw [hemb]
  exact blk_val V c t p q _ rfl

/-- An index of the array is in point t's block iff each coordinate is in the block's range on its axis. -/
theorem mem_blk6 (t : Fin cfg4.N) (i : S50000x256.Idx) :
    i ∈ ((cfg4.win 6).blk t).view.set ↔ ∀ a : Fin 2, win4_6.index t a * S2000x256.size a ≤ (i a).val ∧ (i a).val < win4_6.index t a * S2000x256.size a + S2000x256.size a := by
  show i ∈ ((View.whole main_v98_1).slice (win4_6.rect t)).set ↔ _
  rw [View.set_slice_whole, Rect.mem_set_unit]
  exact Iff.rfl

/-- Every row r of the array is in the block of point r / 2000, and every point writes its block back. -/
theorem cover6 (i : S50000x256.Idx) :
    ∃ t : Fin cfg4.N, (cfg4.win 6).flush t = true ∧ i ∈ ((cfg4.win 6).blk t).view.set := by
  have hi0 : (i 0).val < 50000 := (i 0).isLt
  have hi1 : (i 1).val < 256 := (i 1).isLt
  have hq : (i 0).val / 2000 < 25 := by omega
  refine ⟨⟨(i 0).val / 2000, Nat.lt_of_lt_of_eq hq N_4.symm⟩, flush4_6 _, ?_⟩
  rw [mem_blk6]
  obtain ⟨-, -, -, -, -, -, -, -, -, -, -, -, e0, e1⟩ := idx_facts ⟨(i 0).val / 2000, Nat.lt_of_lt_of_eq hq N_4.symm⟩
  intro a
  match a with
  | ⟨0, _⟩ =>
    show win4_6.index _ (0 : Fin 2) * 2000 ≤ (i 0).val ∧ (i 0).val < win4_6.index _ (0 : Fin 2) * 2000 + 2000
    rw [e0]
    show (i 0).val / 2000 * 2000 ≤ (i 0).val ∧ (i 0).val < (i 0).val / 2000 * 2000 + 2000
    omega
  | ⟨1, _⟩ =>
    show win4_6.index _ (1 : Fin 2) * 256 ≤ (i 1).val ∧ (i 1).val < win4_6.index _ (1 : Fin 2) * 256 + 256
    rw [e1]
    omega

/-- Region 4 (the first layer's finish, max(·, 0), then · W2): its f32 output array after the run. -/
theorem out_f32 (c : Dev nD) :
    (dat4 (F := Ideal) V c).arrAt 5 cfg4.N
      = Cert.Spec.mm (Cert.Spec.relu (Cert.Spec.fin (V c main_v97) (V c main_v83_0) (V c main_v9) (V c main_v25))) (V c main_arg3) :=
  (dat4 (F := Ideal) V c).arrAt_eq_of_cover 5 _ (fun t _ => flushed5_eq V c t) cover5

/-- Its bf16 output array holds the same extended reals. -/
theorem out_bf16 (c : Dev nD) :
    (dat4 (F := Ideal) V c).arrAt 6 cfg4.N
      = Cert.Spec.mm (Cert.Spec.relu (Cert.Spec.fin (V c main_v97) (V c main_v83_0) (V c main_v9) (V c main_v25))) (V c main_arg3) :=
  (dat4 (F := Ideal) V c).arrAt_eq_of_cover 6 _ (fun t _ => flushed6_eq V c t) cover6

end Cert.KernelIdeal.Reg4

end
-- ==== Proof.ChainN.lean ====
/-
  The kernel's buffers after its fifth region (the negative pass's first layer done, the pooled table computed): each
  live buffer holds the reference's stage of the same meaning.
-/
import proofs.«415712_j89103391523491_2_alg».proof.Proof.Gen.KernelIdeal.Frame
import proofs.«415712_j89103391523491_2_alg».proof.Proof.Gen.ReferenceIdeal.Read
import proofs.«415712_j89103391523491_2_alg».proof.Proof.Spec
import proofs.«415712_j89103391523491_2_alg».proof.Proof.KLayout
import proofs.«415712_j89103391523491_2_alg».proof.Proof.RefStages
import proofs.«415712_j89103391523491_2_alg».proof.Proof.ChainA
import proofs.«415712_j89103391523491_2_alg».proof.Proof.Reg3
import proofs.«415712_j89103391523491_2_alg».proof.Proof.Reg4
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open Idealize.ShloMosaic.StableHlo

namespace Cert.KernelIdeal.ChainN

open Cert.KernelIdeal Cert.KernelIdeal.Gen
open Cert.Spec (mm fin relu colOf rowOf flat colI one pick rows score)

variable (m : (ℓ : Loc nD τ sig) → Buf (Elt Ideal) ℓ) (ρ : Dev nD → PrngReg) (c : Dev nD)

open Cert.KernelIdeal.ChainA (a0 a1 a2 a3 a4 a5 a6 a7 a8 a9 a10)

/-! ## The host stretches leave every buffer they do not compute -/

/-- A buffer that is the result of none of the 33 host operations of the stretch before the fourth region (the pooled
    table, then x[perm]) is left as it was. -/
theorem kept3 (F : Valuation τ sig (Elt Ideal)) (b : Ref sig .tc)
    (hb : b ∉ ([main_cst_12, main_v58, main_cst_13, main_v59, main_v60, main_v61, main_cst_14, main_v62, main_v63, main_v64, main_cst_15, main_v65, main_v66, main_v67, main_v68, main_v69, main_v70, main_v71, main_cst_16, main_v72, main_v73, main_cst_17, main_v74, main_v75, main_c_18, main_v76, main_v77, main_c_19, main_v78, main_v79, main_v80, main_v81, main_v82] : List (Ref sig .tc))) :
    StableHlo.after hostOps3 F (Proc.devRef .tc b) = F (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => hb (by rw [e]; decide))))

/-- A buffer that is the result of none of the 17 host operations of the stretch before the fifth region (the edge
    aggregate of the negative pass) is left as it was. -/
theorem kept4 (F : Valuation τ sig (Elt Ideal)) (b : Ref sig .tc)
    (hb : b ∉ ([main_c_20, main_v84, main_v85, main_c_21, main_v86, main_v87, main_v88, main_v89, main_v90, main_v91, main_v92, main_v93, main_v94, main_cst_22, main_v95, main_v96, main_v97] : List (Ref sig .tc))) :
    StableHlo.after hostOps4 F (Proc.devRef .tc b) = F (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => hb (by rw [e]; decide))))

/-! ## After the host stretch that follows the third region: the pooled table, x[perm], and what is kept -/

theorem w7_v57 : W7 m ρ c (Proc.devRef .tc main_v57)
    = Cert.ReferenceIdeal.Read.val_main_v82 (F := Ideal) (a0 m c) (a1 m c) (a2 m c) (a3 m c) (a4 m c) (a7 m c) (a8 m c) :=
  (kept3 (W6 m ρ c) main_v57 (by decide)).trans (Cert.KernelIdeal.ChainA.w6_v57 m ρ c)

theorem w7_v9 : W7 m ρ c (Proc.devRef .tc main_v9)
    = colOf (Cert.ReferenceIdeal.Read.val_main_v37 (F := Ideal) (a8 m c)) :=
  (kept3 (W6 m ρ c) main_v9 (by decide)).trans (Cert.KernelIdeal.ChainA.w6_v9 m ρ c)

theorem w7_v24 : W7 m ρ c (Proc.devRef .tc main_v24)
    = Cert.ReferenceIdeal.Read.val_main_v23 (F := Ideal) (a7 m c) (a8 m c) :=
  (kept3 (W6 m ρ c) main_v24 (by decide)).trans (Cert.KernelIdeal.ChainA.w6_v24 m ρ c)

theorem w7_v25 : W7 m ρ c (Proc.devRef .tc main_v25)
    = rowOf (a2 m c) :=
  (kept3 (W6 m ρ c) main_v25 (by decide)).trans (Cert.KernelIdeal.ChainA.w6_v25 m ρ c)

theorem w7_v26 : W7 m ρ c (Proc.devRef .tc main_v26)
    = rowOf (a4 m c) :=
  (kept3 (W6 m ρ c) main_v26 (by decide)).trans (Cert.KernelIdeal.ChainA.w6_v26 m ρ c)

theorem w7_arg1 : W7 m ρ c (Proc.devRef .tc main_arg1)
    = a1 m c :=
  (kept3 (W6 m ρ c) main_arg1 (by decide)).trans (Cert.KernelIdeal.ChainA.w6_arg1 m ρ c)

theorem w7_arg3 : W7 m ρ c (Proc.devRef .tc main_arg3)
    = a3 m c :=
  (kept3 (W6 m ρ c) main_arg3 (by decide)).trans (Cert.KernelIdeal.ChainA.w6_arg3 m ρ c)

theorem w7_arg5 : W7 m ρ c (Proc.devRef .tc main_arg5)
    = a5 m c :=
  (kept3 (W6 m ρ c) main_arg5 (by decide)).trans (Cert.KernelIdeal.ChainA.w6_arg5 m ρ c)

theorem w7_arg6 : W7 m ρ c (Proc.devRef .tc main_arg6)
    = a6 m c :=
  (kept3 (W6 m ρ c) main_arg6 (by decide)).trans (Cert.KernelIdeal.ChainA.w6_arg6 m ρ c)

theorem w7_arg7 : W7 m ρ c (Proc.devRef .tc main_arg7)
    = a7 m c :=
  (kept3 (W6 m ρ c) main_arg7 (by decide)).trans (Cert.KernelIdeal.ChainA.w6_arg7 m ρ c)

theorem w7_arg8 : W7 m ρ c (Proc.devRef .tc main_arg8)
    = a8 m c :=
  (kept3 (W6 m ρ c) main_arg8 (by decide)).trans (Cert.KernelIdeal.ChainA.w6_arg8 m ρ c)

theorem w7_arg9 : W7 m ρ c (Proc.devRef .tc main_arg9)
    = a9 m c :=
  (kept3 (W6 m ρ c) main_arg9 (by decide)).trans (Cert.KernelIdeal.ChainA.w6_arg9 m ρ c)

/-- The pooled table: per-graph sums of h1 divided by max(per-graph counts, 1), then 1 / (1 + exp(−·)).  The stretch
    applies to h1 and the graph ids the very operations the reference's stages are made of. -/
theorem w7_v75 : W7 m ρ c (Proc.devRef .tc main_v75)
    = Cert.ReferenceIdeal.Read.val_main_v100 (F := Ideal) (a0 m c) (a1 m c) (a2 m c) (a3 m c) (a4 m c) (a7 m c) (a8 m c) (a9 m c) := by
  show StableHlo.after hostOps3 (W6 m ρ c) (Proc.devRef .tc main_v75) = _
  after_results_simp
  rw [Cert.KernelIdeal.ChainA.w6_v57 m ρ c, Cert.KernelIdeal.ChainA.w6_arg9 m ρ c]
  rfl

/-- x[perm]: the rows of x gathered at the wrapped permutation, the reference's own operations on the same arguments. -/
theorem w7_v82 : W7 m ρ c (Proc.devRef .tc main_v82)
    = Cert.ReferenceIdeal.Read.val_main_v107 (F := Ideal) (a0 m c) (a10 m c) := by
  show StableHlo.after hostOps3 (W6 m ρ c) (Proc.devRef .tc main_v82) = _
  after_results_simp
  rw [Cert.KernelIdeal.ChainA.w6_arg0 m ρ c, Cert.KernelIdeal.ChainA.w6_arg10 m ρ c]
  rfl

/-! ## After the fourth region: x[perm] · W1 in both copies -/

/-- The f32 output is the product of the two arrays the region finds, which is the reference's stage. -/
theorem w8_v83_0 : W8 m ρ c (Proc.devRef .tc main_v83_0)
    = Cert.ReferenceIdeal.Read.val_main_v108 (F := Ideal) (a0 m c) (a1 m c) (a10 m c) := by
  refine (W8_arr m ρ c 2).trans ((Cert.KernelIdeal.Reg3.out_f32 (V7 m ρ) c).trans ?_)
  show mm (W7 m ρ c (Proc.devRef .tc main_v82)) (W7 m ρ c (Proc.devRef .tc main_arg1)) = _
  rw [w7_v82 m ρ c, w7_arg1 m ρ c]
  exact (Cert.ReferenceIdeal.Stages.st_v108 _ _ _).symm

/-- The bf16 copy holds the same extended reals. -/
theorem w8_v83_1 : W8 m ρ c (Proc.devRef .tc main_v83_1)
    = Cert.ReferenceIdeal.Read.val_main_v108 (F := Ideal) (a0 m c) (a1 m c) (a10 m c) := by
  refine (W8_arr m ρ c 3).trans ((Cert.KernelIdeal.Reg3.out_bf16 (V7 m ρ) c).trans ?_)
  show mm (W7 m ρ c (Proc.devRef .tc main_v82)) (W7 m ρ c (Proc.devRef .tc main_arg1)) = _
  rw [w7_v82 m ρ c, w7_arg1 m ρ c]
  exact (Cert.ReferenceIdeal.Stages.st_v108 _ _ _).symm

theorem w8_v57 : W8 m ρ c (Proc.devRef .tc main_v57)
    = Cert.ReferenceIdeal.Read.val_main_v82 (F := Ideal) (a0 m c) (a1 m c) (a2 m c) (a3 m c) (a4 m c) (a7 m c) (a8 m c) :=
  (W8_of_ne m ρ c main_v57 (by decide)).trans (w7_v57 m ρ c)

theorem w8_v75 : W8 m ρ c (Proc.devRef .tc main_v75)
    = Cert.ReferenceIdeal.Read.val_main_v100 (F := Ideal) (a0 m c) (a1 m c) (a2 m c) (a3 m c) (a4 m c) (a7 m c) (a8 m c) (a9 m c) :=
  (W8_of_ne m ρ c main_v75 (by decide)).trans (w7_v75 m ρ c)

theorem w8_v9 : W8 m ρ c (Proc.devRef .tc main_v9)
    = colOf (Cert.ReferenceIdeal.Read.val_main_v37 (F := Ideal) (a8 m c)) :=
  (W8_of_ne m ρ c main_v9 (by decide)).trans (w7_v9 m ρ c)

theorem w8_v24 : W8 m ρ c (Proc.devRef .tc main_v24)
    = Cert.ReferenceIdeal.Read.val_main_v23 (F := Ideal) (a7 m c) (a8 m c) :=
  (W8_of_ne m ρ c main_v24 (by decide)).trans (w7_v24 m ρ c)

theorem w8_v25 : W8 m ρ c (Proc.devRef .tc main_v25)
    = rowOf (a2 m c) :=
  (W8_of_ne m ρ c main_v25 (by decide)).trans (w7_v25 m ρ c)

theorem w8_v26 : W8 m ρ c (Proc.devRef .tc main_v26)
    = rowOf (a4 m c) :=
  (W8_of_ne m ρ c main_v26 (by decide)).trans (w7_v26 m ρ c)

theorem w8_arg3 : W8 m ρ c (Proc.devRef .tc main_arg3)
    = a3 m c :=
  (W8_of_ne m ρ c main_arg3 (by decide)).trans (w7_arg3 m ρ c)

theorem w8_arg5 : W8 m ρ c (Proc.devRef .tc main_arg5)
    = a5 m c :=
  (W8_of_ne m ρ c main_arg5 (by decide)).trans (w7_arg5 m ρ c)

theorem w8_arg6 : W8 m ρ c (Proc.devRef .tc main_arg6)
    = a6 m c :=
  (W8_of_ne m ρ c main_arg6 (by decide)).trans (w7_arg6 m ρ c)

theorem w8_arg7 : W8 m ρ c (Proc.devRef .tc main_arg7)
    = a7 m c :=
  (W8_of_ne m ρ c main_arg7 (by decide)).trans (w7_arg7 m ρ c)

theorem w8_arg8 : W8 m ρ c (Proc.devRef .tc main_arg8)
    = a8 m c :=
  (W8_of_ne m ρ c main_arg8 (by decide)).trans (w7_arg8 m ρ c)

theorem w8_arg9 : W8 m ρ c (Proc.devRef .tc main_arg9)
    = a9 m c :=
  (W8_of_ne m ρ c main_arg9 (by decide)).trans (w7_arg9 m ρ c)

/-! ## After the host stretch that follows the fourth region: the edge aggregate of the negative pass -/

theorem w9_v83_0 : W9 m ρ c (Proc.devRef .tc main_v83_0)
    = Cert.ReferenceIdeal.Read.val_main_v108 (F := Ideal) (a0 m c) (a1 m c) (a10 m c) :=
  (kept4 (W8 m ρ c) main_v83_0 (by decide)).trans (w8_v83_0 m ρ c)

theorem w9_v57 : W9 m ρ c (Proc.devRef .tc main_v57)
    = Cert.ReferenceIdeal.Read.val_main_v82 (F := Ideal) (a0 m c) (a1 m c) (a2 m c) (a3 m c) (a4 m c) (a7 m c) (a8 m c) :=
  (kept4 (W8 m ρ c) main_v57 (by decide)).trans (w8_v57 m ρ c)

theorem w9_v75 : W9 m ρ c (Proc.devRef .tc main_v75)
    = Cert.ReferenceIdeal.Read.val_main_v100 (F := Ideal) (a0 m c) (a1 m c) (a2 m c) (a3 m c) (a4 m c) (a7 m c) (a8 m c) (a9 m c) :=
  (kept4 (W8 m ρ c) main_v75 (by decide)).trans (w8_v75 m ρ c)

theorem w9_v9 : W9 m ρ c (Proc.devRef .tc main_v9)
    = colOf (Cert.ReferenceIdeal.Read.val_main_v37 (F := Ideal) (a8 m c)) :=
  (kept4 (W8 m ρ c) main_v9 (by decide)).trans (w8_v9 m ρ c)

theorem w9_v24 : W9 m ρ c (Proc.devRef .tc main_v24)
    = Cert.ReferenceIdeal.Read.val_main_v23 (F := Ideal) (a7 m c) (a8 m c) :=
  (kept4 (W8 m ρ c) main_v24 (by decide)).trans (w8_v24 m ρ c)

theorem w9_v25 : W9 m ρ c (Proc.devRef .tc main_v25)
    = rowOf (a2 m c) :=
  (kept4 (W8 m ρ c) main_v25 (by decide)).trans (w8_v25 m ρ c)

theorem w9_v26 : W9 m ρ c (Proc.devRef .tc main_v26)
    = rowOf (a4 m c) :=
  (kept4 (W8 m ρ c) main_v26 (by decide)).trans (w8_v26 m ρ c)

theorem w9_arg3 : W9 m ρ c (Proc.devRef .tc main_arg3)
    = a3 m c :=
  (kept4 (W8 m ρ c) main_arg3 (by decide)).trans (w8_arg3 m ρ c)

theorem w9_arg5 : W9 m ρ c (Proc.devRef .tc main_arg5)
    = a5 m c :=
  (kept4 (W8 m ρ c) main_arg5 (by decide)).trans (w8_arg5 m ρ c)

theorem w9_arg6 : W9 m ρ c (Proc.devRef .tc main_arg6)
    = a6 m c :=
  (kept4 (W8 m ρ c) main_arg6 (by decide)).trans (w8_arg6 m ρ c)

theorem w9_arg7 : W9 m ρ c (Proc.devRef .tc main_arg7)
    = a7 m c :=
  (kept4 (W8 m ρ c) main_arg7 (by decide)).trans (w8_arg7 m ρ c)

theorem w9_arg8 : W9 m ρ c (Proc.devRef .tc main_arg8)
    = a8 m c :=
  (kept4 (W8 m ρ c) main_arg8 (by decide)).trans (w8_arg8 m ρ c)

theorem w9_arg9 : W9 m ρ c (Proc.devRef .tc main_arg9)
    = a9 m c :=
  (kept4 (W8 m ρ c) main_arg9 (by decide)).trans (w8_arg9 m ρ c)

/-- The aggregate: rows of the bf16 copy of x[perm] · W1 gathered at the wrapped source ids (the change of float format
    back is the identity on the extended reals), times the edge weights, summed into the destination rows. -/
theorem w9_v97 : W9 m ρ c (Proc.devRef .tc main_v97)
    = Cert.ReferenceIdeal.Read.val_main_v136 (F := Ideal) (a0 m c) (a1 m c) (a7 m c) (a8 m c) (a10 m c) := by
  show StableHlo.after hostOps4 (W8 m ρ c) (Proc.devRef .tc main_v97) = _
  after_results_simp
  rw [w8_arg8 m ρ c, w8_v83_1 m ρ c, w8_arg7 m ρ c, w8_v24 m ρ c]
  rfl

/-! ## After the fifth region -/

/-- Region 4's f32 output: relu(first layer of x[perm]) · W2, the reference's stage. -/
theorem w10_v98_0 : W10 m ρ c (Proc.devRef .tc main_v98_0)
    = Cert.ReferenceIdeal.Read.val_main_v146 (F := Ideal) (a0 m c) (a1 m c) (a2 m c) (a3 m c) (a7 m c) (a8 m c) (a10 m c) := by
  refine (W10_arr m ρ c 5).trans ((Cert.KernelIdeal.Reg4.out_f32 (V9 m ρ) c).trans ?_)
  show mm (relu (fin (W9 m ρ c (Proc.devRef .tc main_v97)) (W9 m ρ c (Proc.devRef .tc main_v83_0))
    (W9 m ρ c (Proc.devRef .tc main_v9)) (W9 m ρ c (Proc.devRef .tc main_v25)))) (W9 m ρ c (Proc.devRef .tc main_arg3)) = _
  rw [w9_v97 m ρ c, w9_v83_0 m ρ c, w9_v9 m ρ c, w9_v25 m ρ c, w9_arg3 m ρ c]
  exact (Cert.ReferenceIdeal.Stages.st_v146 _ _ _ _ _ _ _).symm

/-- Its bf16 copy holds the same extended reals. -/
theorem w10_v98_1 : W10 m ρ c (Proc.devRef .tc main_v98_1)
    = Cert.ReferenceIdeal.Read.val_main_v146 (F := Ideal) (a0 m c) (a1 m c) (a2 m c) (a3 m c) (a7 m c) (a8 m c) (a10 m c) := by
  refine (W10_arr m ρ c 6).trans ((Cert.KernelIdeal.Reg4.out_bf16 (V9 m ρ) c).trans ?_)
  show mm (relu (fin (W9 m ρ c (Proc.devRef .tc main_v97)) (W9 m ρ c (Proc.devRef .tc main_v83_0))
    (W9 m ρ c (Proc.devRef .tc main_v9)) (W9 m ρ c (Proc.devRef .tc main_v25)))) (W9 m ρ c (Proc.devRef .tc main_arg3)) = _
  rw [w9_v97 m ρ c, w9_v83_0 m ρ c, w9_v9 m ρ c, w9_v25 m ρ c, w9_arg3 m ρ c]
  exact (Cert.ReferenceIdeal.Stages.st_v146 _ _ _ _ _ _ _).symm

/-- h1 is kept. -/
theorem w10_v57 : W10 m ρ c (Proc.devRef .tc main_v57)
    = Cert.ReferenceIdeal.Read.val_main_v82 (F := Ideal) (a0 m c) (a1 m c) (a2 m c) (a3 m c) (a4 m c) (a7 m c) (a8 m c) :=
  (W10_of_ne m ρ c main_v57 (by decide)).trans (w9_v57 m ρ c)

/-- The pooled table c = sigmoid(per-graph mean of h1): the reference's stage. -/
theorem w10_v75 : W10 m ρ c (Proc.devRef .tc main_v75)
    = Cert.ReferenceIdeal.Read.val_main_v100 (F := Ideal) (a0 m c) (a1 m c) (a2 m c) (a3 m c) (a4 m c) (a7 m c) (a8 m c) (a9 m c) :=
  (W10_of_ne m ρ c main_v75 (by decide)).trans (w9_v75 m ρ c)

/-- The self-loop weights as a column, the edge weights, the second bias row: kept. -/
theorem w10_v9 : W10 m ρ c (Proc.devRef .tc main_v9) = colOf (Cert.ReferenceIdeal.Read.val_main_v37 (F := Ideal) (a8 m c)) :=
  (W10_arr m ρ c 2).trans (((dat4 (V9 m ρ) c).arrAt_in 2 rfl _).trans ((A_eq4 (V9 m ρ) c 2).trans (w9_v9 m ρ c)))
theorem w10_v24 : W10 m ρ c (Proc.devRef .tc main_v24) = Cert.ReferenceIdeal.Read.val_main_v23 (F := Ideal) (a7 m c) (a8 m c) :=
  (W10_of_ne m ρ c main_v24 (by decide)).trans (w9_v24 m ρ c)
theorem w10_v26 : W10 m ρ c (Proc.devRef .tc main_v26) = rowOf (a4 m c) :=
  (W10_of_ne m ρ c main_v26 (by decide)).trans (w9_v26 m ρ c)

/-- The arguments are as launched. -/
theorem w10_arg5 : W10 m ρ c (Proc.devRef .tc main_arg5) = a5 m c :=
  (W10_of_ne m ρ c main_arg5 (by decide)).trans (w9_arg5 m ρ c)
theorem w10_arg6 : W10 m ρ c (Proc.devRef .tc main_arg6) = a6 m c :=
  (W10_of_ne m ρ c main_arg6 (by decide)).trans (w9_arg6 m ρ c)
theorem w10_arg7 : W10 m ρ c (Proc.devRef .tc main_arg7) = a7 m c :=
  (W10_of_ne m ρ c main_arg7 (by decide)).trans (w9_arg7 m ρ c)
theorem w10_arg8 : W10 m ρ c (Proc.devRef .tc main_arg8) = a8 m c :=
  (W10_of_ne m ρ c main_arg8 (by decide)).trans (w9_arg8 m ρ c)
theorem w10_arg9 : W10 m ρ c (Proc.devRef .tc main_arg9) = a9 m c :=
  (W10_of_ne m ρ c main_arg9 (by decide)).trans (w9_arg9 m ρ c)

end Cert.KernelIdeal.ChainN

end
-- ==== Proof.KDot64.lean ====
/-
  The kernel program's one host matrix product, the pooled 64-row table times Wbᵀ, read index by index: entry (g, j) is
  Σ_k table(g, k) · w(k, j).
-/
import proofs.«415712_j89103391523491_2_alg».proof.KernelIdeal
import proofs.«415712_j89103391523491_2_alg».proof.Proof.Gen.KernelIdeal
import proofs.«415712_j89103391523491_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.KDot64

open Cert.KernelIdeal Cert.KernelIdeal.Gen

/-! ## The product's operand indices: at output index (g, j) and contraction index k they are (g, k) and (k, j) -/

theorem lhs_0 (i : S64x256.Idx) (q : Cert.KernelIdeal.dot_S64x256_S256x256_S64x256_1_0_0_1_n_n.contr.Idx) :
    (Cert.KernelIdeal.dot_S64x256_S256x256_S64x256_1_0_0_1_n_n.lhsIdx i q 0).val = (i 0).val := by
  unfold DotDims.lhsIdx
  rw [dif_neg (show ¬(0 : Fin S64x256.rank) ∈ Cert.KernelIdeal.dot_S64x256_S256x256_S64x256_1_0_0_1_n_n.lhsBatch by decide), dif_pos (show (0 : Fin S64x256.rank) ∈ Cert.KernelIdeal.dot_S64x256_S256x256_S64x256_1_0_0_1_n_n.lhsNonContracting by decide)]
  rfl
theorem lhs_1 (i : S64x256.Idx) (q : Cert.KernelIdeal.dot_S64x256_S256x256_S64x256_1_0_0_1_n_n.contr.Idx) :
    (Cert.KernelIdeal.dot_S64x256_S256x256_S64x256_1_0_0_1_n_n.lhsIdx i q 1).val = (q ⟨0, by decide⟩).val :=
  Cert.KernelIdeal.dot_S64x256_S256x256_S64x256_1_0_0_1_n_n.lhsIdx_val_of_single rfl i q
theorem rhs_0 (i : S64x256.Idx) (q : Cert.KernelIdeal.dot_S64x256_S256x256_S64x256_1_0_0_1_n_n.contr.Idx) :
    (Cert.KernelIdeal.dot_S64x256_S256x256_S64x256_1_0_0_1_n_n.rhsIdx i q 0).val = (q ⟨0, by decide⟩).val :=
  Cert.KernelIdeal.dot_S64x256_S256x256_S64x256_1_0_0_1_n_n.rhsIdx_val_of_single rfl i q
theorem rhs_1 (i : S64x256.Idx) (q : Cert.KernelIdeal.dot_S64x256_S256x256_S64x256_1_0_0_1_n_n.contr.Idx) :
    (Cert.KernelIdeal.dot_S64x256_S256x256_S64x256_1_0_0_1_n_n.rhsIdx i q 1).val = (i 1).val := by
  unfold DotDims.rhsIdx
  rw [dif_neg (show ¬(1 : Fin S256x256.rank) ∈ Cert.KernelIdeal.dot_S64x256_S256x256_S64x256_1_0_0_1_n_n.rhsBatch by decide), dif_pos (show (1 : Fin S256x256.rank) ∈ Cert.KernelIdeal.dot_S64x256_S256x256_S64x256_1_0_0_1_n_n.rhsNonContracting by decide)]
  rfl

/-- The 64-row product is the specification's matrix product. -/
theorem dot64_eq (x : FVec Ideal S64x256 .f32) (w : FVec Ideal S256x256 .f32) :
    Host.dotGeneral dot_S64x256_S256x256_S64x256_1_0_0_1_n_n none x w = Cert.Spec.mm x w := by
  funext i
  simp only [Host.dotGeneral]
  refine (Ideal.dotGeneral_apply Cert.KernelIdeal.dot_S64x256_S256x256_S64x256_1_0_0_1_n_n none _ x w i).trans ?_
  unfold Cert.Spec.mm
  rw [← Equiv.sum_comp (contrEquiv1 Cert.KernelIdeal.dot_S64x256_S256x256_S64x256_1_0_0_1_n_n 256 rfl rfl).symm]
  refine Finset.sum_congr rfl fun k _ => ?_
  have hk := contrEquiv1_symm_val Cert.KernelIdeal.dot_S64x256_S256x256_S64x256_1_0_0_1_n_n 256 rfl rfl k
  have el : Cert.KernelIdeal.dot_S64x256_S256x256_S64x256_1_0_0_1_n_n.lhsIdx i ((contrEquiv1 Cert.KernelIdeal.dot_S64x256_S256x256_S64x256_1_0_0_1_n_n 256 rfl rfl).symm k) = ix2 (i 0) k := funext fun a => Fin.ext (by
    match a with
    | ⟨0, _⟩ => exact lhs_0 _ _
    | ⟨1, _⟩ => exact (lhs_1 _ _).trans hk)
  have er : Cert.KernelIdeal.dot_S64x256_S256x256_S64x256_1_0_0_1_n_n.rhsIdx i ((contrEquiv1 Cert.KernelIdeal.dot_S64x256_S256x256_S64x256_1_0_0_1_n_n 256 rfl rfl).symm k) = ix2 k (i 1) := funext fun a => Fin.ext (by
    match a with
    | ⟨0, _⟩ => exact (rhs_0 _ _).trans hk
    | ⟨1, _⟩ => exact rhs_1 _ _)
  rw [el, er]
  rfl

end Cert.KernelIdeal.KDot64

end
-- ==== Proof.Reg5.lean ====
/-
  Region 5: the two score columns.  At each grid point the region holds 2000 rows.  The indicator rows [g = id(r)]
  (g = 0 … 63) times the 64-row table give, at (r, c), Σ_g [g = id(r)] · tab(g, c); the first score of row r is
  Σ_c h1(r, c) · that + bb, the second is the same with h1's row replaced by the finished layer row
  (agg(r, c) + d(r) · h(r, c)) + b(c).  Each payload is read at an index, each block is read as rows
  2000·t … 2000·t + 1999 of its array, and the 25 blocks cover the 50000 rows.
-/
import proofs.«415712_j89103391523491_2_alg».proof.Proof.Gen.KernelIdeal.Frame
import proofs.«415712_j89103391523491_2_alg».proof.Proof.Spec
import proofs.«415712_j89103391523491_2_alg».proof.Proof.LibScatterGather
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg5

open Cert.KernelIdeal Cert.KernelIdeal.Gen

/-! ## The table product's operand indices, axis by axis -/

theorem lhs_t_0 (i : S2000x256.Idx) (q : dot_S2000x64_S64x256_S2000x256_1_0_0_1_n_n.contr.Idx) :
    (dot_S2000x64_S64x256_S2000x256_1_0_0_1_n_n.lhsIdx i q 0).val = (i 0).val := by
  unfold DotDims.lhsIdx
  rw [dif_neg (show ¬(0 : Fin S2000x64.rank) ∈ dot_S2000x64_S64x256_S2000x256_1_0_0_1_n_n.lhsBatch by decide), dif_pos (show (0 : Fin S2000x64.rank) ∈ dot_S2000x64_S64x256_S2000x256_1_0_0_1_n_n.lhsNonContracting by decide)]
  rfl
theorem lhs_t_1 (i : S2000x256.Idx) (q : dot_S2000x64_S64x256_S2000x256_1_0_0_1_n_n.contr.Idx) :
    (dot_S2000x64_S64x256_S2000x256_1_0_0_1_n_n.lhsIdx i q 1).val = (q ⟨0, by decide⟩).val :=
  dot_S2000x64_S64x256_S2000x256_1_0_0_1_n_n.lhsIdx_val_of_single rfl i q
theorem rhs_t_0 (i : S2000x256.Idx) (q : dot_S2000x64_S64x256_S2000x256_1_0_0_1_n_n.contr.Idx) :
    (dot_S2000x64_S64x256_S2000x256_1_0_0_1_n_n.rhsIdx i q 0).val = (q ⟨0, by decide⟩).val :=
  dot_S2000x64_S64x256_S2000x256_1_0_0_1_n_n.rhsIdx_val_of_single rfl i q
theorem rhs_t_1 (i : S2000x256.Idx) (q : dot_S2000x64_S64x256_S2000x256_1_0_0_1_n_n.contr.Idx) :
    (dot_S2000x64_S64x256_S2000x256_1_0_0_1_n_n.rhsIdx i q 1).val = (i 1).val := by
  unfold DotDims.rhsIdx
  rw [dif_neg (show ¬(1 : Fin S64x256.rank) ∈ dot_S2000x64_S64x256_S2000x256_1_0_0_1_n_n.rhsBatch by decide), dif_pos (show (1 : Fin S64x256.rank) ∈ dot_S2000x64_S64x256_S2000x256_1_0_0_1_n_n.rhsNonContracting by decide)]
  rfl

/-! ## The payloads at an index -/

/-- The indicator entry (r, g): one when g is row r's graph id, zero otherwise. -/
theorem ind_apply (ids : Vec Ideal S2000x1 .i32) (p : Fin 2000) (g : Fin 64) :
    (truncf .bf16 (sitofp (F := Ideal) .f32 (extui 32 (cmpi .eq (iota .tc S2000x64 32 [1] iota_S2000x64_d1_w32)
        (broadcastTo S2000x64 (shapeCast S2000x1 (shapeCast S2000x1 ids shapeCasts_S2000x1_S2000x1) shapeCasts_S2000x1_S2000x1) broadcasts_S2000x1_S2000x64)) natLt_1_32)) bitsLt_bf16_f32 : FVec Ideal S2000x64 .bf16) (ix2 p g)
      = if BitVec.ofNat 32 g.val = ids (ix2 p 0) then (1 : EReal) else 0 := by
  rw [shapeCast_self, shapeCast_self]
  show (FloatOps.sitofp .f32 ((IntOp.cmpi .eq (iota .tc S2000x64 32 [1] iota_S2000x64_d1_w32 (ix2 p g)) (broadcastTo S2000x64 ids broadcasts_S2000x1_S2000x64 (ix2 p g))).setWidth 32) : Ideal .f32) = _
  rw [iota_single_apply, broadcastTo_apply ids broadcasts_S2000x1_S2000x64 (ix2 p g) (ix2 p 0) (by intro a; match a with | ⟨0,_⟩ => rfl | ⟨1,_⟩ => rfl), Cert.LibSG.sitofp_setWidth_bit]
  exact if_congr StableHlo.Predicate.cmpi_eq_iff rfl rfl

/-- The indicator rows times the table, at (r, c): Σ_g [g = id(r)] · tab(g, c). -/
theorem pay2_apply (ids : Vec Ideal S2000x1 .i32) (tab : Vec Ideal S64x256 .f32) (p : Fin 2000) (q : Fin 256) :
    k5_pay2 (F := Ideal) ids tab (ix2 p q)
      = ∑ g : Fin 64, (if BitVec.ofNat 32 g.val = ids (ix2 p 0) then (1 : EReal) else 0) * tab (ix2 g q) := by
  unfold k5_pay2
  refine (Ideal.matmul_constant_zero_apply _ none _ _ (ix2 p q)).trans ?_
  rw [← Equiv.sum_comp (contrEquiv1 dot_S2000x64_S64x256_S2000x256_1_0_0_1_n_n 64 rfl rfl).symm]
  refine Finset.sum_congr rfl fun g _ => ?_
  have hk := contrEquiv1_symm_val dot_S2000x64_S64x256_S2000x256_1_0_0_1_n_n 64 rfl rfl g
  have el : dot_S2000x64_S64x256_S2000x256_1_0_0_1_n_n.lhsIdx (ix2 p q) ((contrEquiv1 dot_S2000x64_S64x256_S2000x256_1_0_0_1_n_n 64 rfl rfl).symm g) = ix2 p g := funext fun a => Fin.ext (by
    match a with
    | ⟨0, _⟩ => exact lhs_t_0 _ _
    | ⟨1, _⟩ => exact (lhs_t_1 _ _).trans hk)
  have er : dot_S2000x64_S64x256_S2000x256_1_0_0_1_n_n.rhsIdx (ix2 p q) ((contrEquiv1 dot_S2000x64_S64x256_S2000x256_1_0_0_1_n_n 64 rfl rfl).symm g) = ix2 g q := funext fun a => Fin.ext (by
    match a with
    | ⟨0, _⟩ => exact (rhs_t_0 _ _).trans hk
    | ⟨1, _⟩ => exact rhs_t_1 _ _)
  rw [el, er, ind_apply, shapeCast_self]
  rfl

/-- The lane sum's inserted index: row r, lane k. -/
theorem lift_row (p : Fin 2000) (k : Fin (S2000x256.size 1)) :
    reduces_S2000x256_S2000.lift (ix1 p) k = ix2 p k :=
  funext fun a => Fin.ext (by match a with | ⟨0, _⟩ => rfl | ⟨1, _⟩ => rfl)

/-- A lane sum reshaped to a column, at row r: Σ_k x(r, k). -/
theorem rowsum_apply (x : FVec Ideal S2000x256 .f32) (hφ : FKind.Formats .f32)
    (hacc : (0x00000000#32 : BitVec 32) = FKind.add.neutral .f32 hφ) (p : Fin 2000) :
    shapeCast S2000x1 (multiReduction .add [1] S2000 x 0x00000000#32 reduces_S2000x256_S2000 hφ hacc) shapeCasts_S2000_S2000x1 (ix2 p 0)
      = ∑ k : Fin 256, x (ix2 p k) := by
  refine (shapeCast_apply _ shapeCasts_S2000_S2000x1 (ix2 p 0) (ix1 p) ?_).trans ?_
  · rw [Shape.rowMajor_val_one, Shape.rowMajor_val_two]
    show p.val = p.val * 1 + 0
    omega
  · refine (Ideal.multiReduction_add_single x _ reduces_S2000x256_S2000 hφ hacc (ix1 p)).trans ?_
    exact Finset.sum_congr rfl fun k _ => congrArg x (lift_row p k)

/-- The 1 × 1 offset broadcast down the column. -/
theorem bb_apply (bb : Vec Ideal S1x1 .f32) (p : Fin 2000) :
    broadcastTo S2000x1 (shapeCast S1x1 bb shapeCasts_S1x1_S1x1) broadcasts_S1x1_S2000x1 (ix2 p 0) = bb (ix2 0 0) := by
  rw [shapeCast_self]
  exact broadcastTo_apply bb broadcasts_S1x1_S2000x1 (ix2 p 0) (ix2 0 0) (by intro a; match a with | ⟨0, _⟩ => rfl | ⟨1, _⟩ => rfl)

/-- The first score payload is the score of the block's rows against the picked table rows. -/
theorem pay3_eq (ids : Vec Ideal S2000x1 .i32) (tab : Vec Ideal S64x256 .f32) (h : Vec Ideal S2000x256 .f32) (bb : Vec Ideal S1x1 .f32) :
    k5_pay3 (F := Ideal) ids tab h bb = Cert.Spec.score h (Cert.Spec.pick ids tab) bb := by
  funext j
  obtain ⟨p, z, rfl⟩ : ∃ (p : Fin 2000) (z : Fin 1), j = ix2 p z := ⟨j 0, j 1, eq_ix2 j⟩
  obtain rfl : z = 0 := Subsingleton.elim _ _
  unfold k5_pay3
  refine (addf_apply _ _ _).trans ?_
  refine (congrArg₂ (· + ·) (rowsum_apply _ _ _ p) (bb_apply bb p)).trans ?_
  show _ = (∑ k : Fin 256, h (ix2 p k) * Cert.Spec.pick ids tab (ix2 p k)) + bb (ix2 0 0)
  congr 1
  refine Finset.sum_congr rfl fun k _ => ?_
  refine (mulf_apply _ _ _).trans ?_
  rw [pay2_apply, shapeCast_self]
  rfl

/-- A layer's last step on a block, at (r, c). -/
theorem fin_apply (agg hb : Vec Ideal S2000x256 .f32) (d : Vec Ideal S2000x1 .f32) (b : Vec Ideal S1x256 .f32) (p : Fin 2000) (q : Fin 256) :
    (addf (addf (shapeCast S2000x256 agg shapeCasts_S2000x256_S2000x256)
        (mulf (broadcastTo S2000x256 (shapeCast S2000x1 d shapeCasts_S2000x1_S2000x1) broadcasts_S2000x1_S2000x256) (shapeCast S2000x256 hb shapeCasts_S2000x256_S2000x256)))
      (broadcastTo S2000x256 (shapeCast S1x256 b shapeCasts_S1x256_S1x256) broadcasts_S1x256_S2000x256) : FVec Ideal S2000x256 .f32) (ix2 p q)
      = Cert.Spec.fin agg hb d b (ix2 p q) := by
  rw [shapeCast_self, shapeCast_self, shapeCast_self, shapeCast_self]
  show (agg (ix2 p q) + broadcastTo S2000x256 d broadcasts_S2000x1_S2000x256 (ix2 p q) * hb (ix2 p q)) + broadcastTo S2000x256 b broadcasts_S1x256_S2000x256 (ix2 p q) = _
  rw [broadcastTo_apply d broadcasts_S2000x1_S2000x256 (ix2 p q) (ix2 p 0) (by intro a; match a with | ⟨0, _⟩ => rfl | ⟨1, _⟩ => rfl),
    broadcastTo_apply b broadcasts_S1x256_S2000x256 (ix2 p q) (ix2 0 q) (by intro a; match a with | ⟨0, _⟩ => rfl | ⟨1, _⟩ => rfl)]
  rfl

/-- The second score payload is the score of the finished block's rows against the picked table rows. -/
theorem pay14_eq (agg : Vec Ideal S2000x256 .f32) (d : Vec Ideal S2000x1 .f32) (hb : Vec Ideal S2000x256 .f32) (b : Vec Ideal S1x256 .f32)
    (ids : Vec Ideal S2000x1 .i32) (tab : Vec Ideal S64x256 .f32) (bb : Vec Ideal S1x1 .f32) :
    k5_pay1 (F := Ideal) (k5_pay4 agg d hb b ids tab) bb
      = Cert.Spec.score (Cert.Spec.fin agg hb d b) (Cert.Spec.pick ids tab) bb := by
  funext j
  obtain ⟨p, z, rfl⟩ : ∃ (p : Fin 2000) (z : Fin 1), j = ix2 p z := ⟨j 0, j 1, eq_ix2 j⟩
  obtain rfl : z = 0 := Subsingleton.elim _ _
  unfold k5_pay1 k5_pay4
  refine (addf_apply _ _ _).trans ?_
  refine (congrArg₂ (· + ·) (rowsum_apply _ _ _ p) (bb_apply bb p)).trans ?_
  show _ = (∑ k : Fin 256, Cert.Spec.fin agg hb d b (ix2 p k) * Cert.Spec.pick ids tab (ix2 p k)) + bb (ix2 0 0)
  congr 1
  refine Finset.sum_congr rfl fun k _ => ?_
  refine (mulf_apply _ _ _).trans ?_
  rw [pay2_apply]
  exact congrArg₂ (· * ·) (fin_apply agg hb d b p k) rfl

/-- The score of a row depends on that row of the features and of the ids only. -/
theorem score_rows {n N m G : Nat} (h : Cert.Spec.Mat n m) (H : Cert.Spec.Mat N m)
    (ids : (⟨2, ![n, 1]⟩ : Shape).Idx → BitVec 32) (ID : (⟨2, ![N, 1]⟩ : Shape).Idx → BitVec 32)
    (tab : Cert.Spec.Mat G m) (bb : Cert.Spec.Mat 1 1) (p : Fin n) (k : (⟨2, ![N, 1]⟩ : Shape).Idx)
    (hh : ∀ q : Fin m, h (ix2 p q) = H (ix2 (k 0) q)) (hid : ids (ix2 p 0) = ID (ix2 (k 0) 0)) :
    Cert.Spec.score h (Cert.Spec.pick ids tab) bb (ix2 p 0) = Cert.Spec.score H (Cert.Spec.pick ID tab) bb k := by
  show (∑ j : Fin m, h (ix2 p j) * ∑ g : Fin G, (if BitVec.ofNat 32 g.val = ids (ix2 p 0) then (1 : EReal) else 0) * tab (ix2 g j)) + bb (ix2 0 0)
    = (∑ j : Fin m, H (ix2 (k 0) j) * ∑ g : Fin G, (if BitVec.ofNat 32 g.val = ID (ix2 (k 0) 0) then (1 : EReal) else 0) * tab (ix2 g j)) + bb (ix2 0 0)
  rw [hid]
  simp only [hh]

/-- A layer's last step at a row depends on that row of its operands only. -/
theorem fin_rows {n N m : Nat} (agg hb : Cert.Spec.Mat n m) (AGG HB : Cert.Spec.Mat N m) (d : Cert.Spec.Mat n 1) (D : Cert.Spec.Mat N 1)
    (b : Cert.Spec.Mat 1 m) (p : Fin n) (r : Fin N) (k : Fin m)
    (ha : agg (ix2 p k) = AGG (ix2 r k)) (hh : hb (ix2 p k) = HB (ix2 r k)) (hd : d (ix2 p 0) = D (ix2 r 0)) :
    Cert.Spec.fin agg hb d b (ix2 p k) = Cert.Spec.fin AGG HB D b (ix2 r k) := by
  show agg (ix2 p k) + d (ix2 p 0) * hb (ix2 p k) + b (ix2 0 k) = AGG (ix2 r k) + D (ix2 r 0) * HB (ix2 r k) + b (ix2 0 k)
  rw [ha, hh, hd]

/-! ## The windows' blocks as rows of their arrays -/

variable (V : (c : Dev nD) → (b : Ref sig .tc) → Buf (Elt Ideal) ((c : Thread nD τ).loc b))

/-- The zero offset of a whole-block access, as a constant function. -/
theorem hz : (![0, 0] : Fin 2 → Nat) = fun _ => 0 := funext fun a => by fin_cases a <;> rfl

/-! The block numbers of the ten windows at every point of the grid: a row-block window is at block (t, 0), a resident
    one stays at block (0, 0). -/
theorem idx5_0 : ∀ t : Fin cfg5.N, win5_0.index t (0 : Fin 2) = t.val ∧ win5_0.index t (1 : Fin 2) = 0 :=
  (by decide +kernel : ∀ t : Fin grid5.N, _)
theorem idx5_1 : ∀ t : Fin cfg5.N, win5_1.index t (0 : Fin 2) = t.val ∧ win5_1.index t (1 : Fin 2) = 0 :=
  (by decide +kernel : ∀ t : Fin grid5.N, _)
theorem idx5_2 : ∀ t : Fin cfg5.N, win5_2.index t (0 : Fin 2) = t.val ∧ win5_2.index t (1 : Fin 2) = 0 :=
  (by decide +kernel : ∀ t : Fin grid5.N, _)
theorem idx5_3 : ∀ t : Fin cfg5.N, win5_3.index t (0 : Fin 2) = t.val ∧ win5_3.index t (1 : Fin 2) = 0 :=
  (by decide +kernel : ∀ t : Fin grid5.N, _)
theorem idx5_4 : ∀ t : Fin cfg5.N, win5_4.index t (0 : Fin 2) = 0 ∧ win5_4.index t (1 : Fin 2) = 0 :=
  (by decide +kernel : ∀ t : Fin grid5.N, _)
theorem idx5_5 : ∀ t : Fin cfg5.N, win5_5.index t (0 : Fin 2) = t.val ∧ win5_5.index t (1 : Fin 2) = 0 :=
  (by decide +kernel : ∀ t : Fin grid5.N, _)
theorem idx5_6 : ∀ t : Fin cfg5.N, win5_6.index t (0 : Fin 2) = 0 ∧ win5_6.index t (1 : Fin 2) = 0 :=
  (by decide +kernel : ∀ t : Fin grid5.N, _)
theorem idx5_7 : ∀ t : Fin cfg5.N, win5_7.index t (0 : Fin 2) = 0 ∧ win5_7.index t (1 : Fin 2) = 0 :=
  (by decide +kernel : ∀ t : Fin grid5.N, _)
theorem idx5_8 : ∀ t : Fin cfg5.N, win5_8.index t (0 : Fin 2) = t.val ∧ win5_8.index t (1 : Fin 2) = 0 :=
  (by decide +kernel : ∀ t : Fin grid5.N, _)
theorem idx5_9 : ∀ t : Fin cfg5.N, win5_9.index t (0 : Fin 2) = t.val ∧ win5_9.index t (1 : Fin 2) = 0 :=
  (by decide +kernel : ∀ t : Fin grid5.N, _)

/-- Row p, column q of point t's block of the first pass's features is row 2000·t + p, column q of the array. -/
theorem blk_h1 (c : Dev nD) (t : Fin cfg5.N) (p : Fin 2000) (q : Fin 256) (k : S50000x256.Idx)
    (hk0 : (k 0).val = t.val * 2000 + p.val) (hk1 : (k 1).val = q.val) :
    (iblk5 V c 0 t : Vec Ideal S2000x256 .f32) (ix2 p q) = V c main_v57 k := by
  obtain ⟨e0, e1⟩ := idx5_0 t
  unfold iblk5
  rw [View.read_apply]
  show V c main_v57 _ = V c main_v57 _
  congr 1
  funext a
  apply Fin.ext
  match a with
  | ⟨0, _⟩ => show win5_0.index t (0 : Fin 2) * 2000 + 1 * p.val = (k 0).val; rw [e0, hk0]; omega
  | ⟨1, _⟩ => show win5_0.index t (1 : Fin 2) * 256 + 1 * q.val = (k 1).val; rw [e1, hk1]; omega

/-- The same for the second pass's aggregate. -/
theorem blk_agg (c : Dev nD) (t : Fin cfg5.N) (p : Fin 2000) (q : Fin 256) (k : S50000x256.Idx)
    (hk0 : (k 0).val = t.val * 2000 + p.val) (hk1 : (k 1).val = q.val) :
    (iblk5 V c 1 t : Vec Ideal S2000x256 .f32) (ix2 p q) = V c main_v112 k := by
  obtain ⟨e0, e1⟩ := idx5_1 t
  unfold iblk5
  rw [View.read_apply]
  show V c main_v112 _ = V c main_v112 _
  congr 1
  funext a
  apply Fin.ext
  match a with
  | ⟨0, _⟩ => show win5_1.index t (0 : Fin 2) * 2000 + 1 * p.val = (k 0).val; rw [e0, hk0]; omega
  | ⟨1, _⟩ => show win5_1.index t (1 : Fin 2) * 256 + 1 * q.val = (k 1).val; rw [e1, hk1]; omega

/-- The same for the second pass's transformed features. -/
theorem blk_hb (c : Dev nD) (t : Fin cfg5.N) (p : Fin 2000) (q : Fin 256) (k : S50000x256.Idx)
    (hk0 : (k 0).val = t.val * 2000 + p.val) (hk1 : (k 1).val = q.val) :
    (iblk5 V c 2 t : Vec Ideal S2000x256 .f32) (ix2 p q) = V c main_v98_0 k := by
  obtain ⟨e0, e1⟩ := idx5_2 t
  unfold iblk5
  rw [View.read_apply]
  show V c main_v98_0 _ = V c main_v98_0 _
  congr 1
  funext a
  apply Fin.ext
  match a with
  | ⟨0, _⟩ => show win5_2.index t (0 : Fin 2) * 2000 + 1 * p.val = (k 0).val; rw [e0, hk0]; omega
  | ⟨1, _⟩ => show win5_2.index t (1 : Fin 2) * 256 + 1 * q.val = (k 1).val; rw [e1, hk1]; omega

/-- Row p of point t's block of the column d is row 2000·t + p of the column. -/
theorem blk_d (c : Dev nD) (t : Fin cfg5.N) (p : Fin 2000) (k : S50000x1.Idx)
    (hk0 : (k 0).val = t.val * 2000 + p.val) :
    (iblk5 V c 3 t : Vec Ideal S2000x1 .f32) (ix2 p 0) = V c main_v9 k := by
  obtain ⟨e0, e1⟩ := idx5_3 t
  unfold iblk5
  rw [View.read_apply]
  show V c main_v9 _ = V c main_v9 _
  congr 1
  funext a
  apply Fin.ext
  have hk1 : (k 1).val < 1 := (k 1).isLt
  match a with
  | ⟨0, _⟩ => show win5_3.index t (0 : Fin 2) * 2000 + 1 * p.val = (k 0).val; rw [e0, hk0]; omega
  | ⟨1, _⟩ => show win5_3.index t (1 : Fin 2) * 1 + 1 * 0 = (k 1).val; rw [e1]; omega

/-- Row p of point t's block of the graph ids is row 2000·t + p of the column of ids. -/
theorem blk_id (c : Dev nD) (t : Fin cfg5.N) (p : Fin 2000) (k : S50000x1.Idx)
    (hk0 : (k 0).val = t.val * 2000 + p.val) :
    (iblk5 V c 5 t : Vec Ideal S2000x1 .i32) (ix2 p 0) = V c main_v115 k := by
  obtain ⟨e0, e1⟩ := idx5_5 t
  unfold iblk5
  rw [View.read_apply]
  show V c main_v115 _ = V c main_v115 _
  congr 1
  funext a
  apply Fin.ext
  have hk1 : (k 1).val < 1 := (k 1).isLt
  match a with
  | ⟨0, _⟩ => show win5_5.index t (0 : Fin 2) * 2000 + 1 * p.val = (k 0).val; rw [e0, hk0]; omega
  | ⟨1, _⟩ => show win5_5.index t (1 : Fin 2) * 1 + 1 * 0 = (k 1).val; rw [e1]; omega

/-- The resident bias row is the whole row. -/
theorem blk_b (c : Dev nD) (t : Fin cfg5.N) :
    (iblk5 V c 4 t : Vec Ideal S1x256 .f32) = V c main_v26 := by
  obtain ⟨e0, e1⟩ := idx5_4 t
  funext y
  unfold iblk5
  rw [View.read_apply]
  show V c main_v26 _ = V c main_v26 _
  congr 1
  funext a
  apply Fin.ext
  match a with
  | ⟨0, _⟩ => show win5_4.index t (0 : Fin 2) * 1 + 1 * (y 0).val = (y 0).val; rw [e0]; omega
  | ⟨1, _⟩ => show win5_4.index t (1 : Fin 2) * 256 + 1 * (y 1).val = (y 1).val; rw [e1]; omega

/-- The resident table is the whole table. -/
theorem blk_tab (c : Dev nD) (t : Fin cfg5.N) :
    (iblk5 V c 6 t : Vec Ideal S64x256 .f32) = V c main_v114 := by
  obtain ⟨e0, e1⟩ := idx5_6 t
  funext y
  unfold iblk5
  rw [View.read_apply]
  show V c main_v114 _ = V c main_v114 _
  congr 1
  funext a
  apply Fin.ext
  match a with
  | ⟨0, _⟩ => show win5_6.index t (0 : Fin 2) * 64 + 1 * (y 0).val = (y 0).val; rw [e0]; omega
  | ⟨1, _⟩ => show win5_6.index t (1 : Fin 2) * 256 + 1 * (y 1).val = (y 1).val; rw [e1]; omega

/-- The resident offset is the whole 1 × 1 array. -/
theorem blk_bb (c : Dev nD) (t : Fin cfg5.N) :
    (iblk5 V c 7 t : Vec Ideal S1x1 .f32) = V c main_v116 := by
  obtain ⟨e0, e1⟩ := idx5_7 t
  funext y
  unfold iblk5
  rw [View.read_apply]
  show V c main_v116 _ = V c main_v116 _
  congr 1
  funext a
  apply Fin.ext
  match a with
  | ⟨0, _⟩ => show win5_7.index t (0 : Fin 2) * 1 + 1 * (y 0).val = (y 0).val; rw [e0]; omega
  | ⟨1, _⟩ => show win5_7.index t (1 : Fin 2) * 1 + 1 * (y 1).val = (y 1).val; rw [e1]; omega

/-- What point t writes back to the first output is block t of the first score of the arrays the region finds. -/
theorem flushed8_eq (c : Dev nD) (t : Fin cfg5.N) :
    (dat5 (F := Ideal) V c).flushed 8 t = ((cfg5.win 8).blk t).view.read (Elt Ideal)
      (Cert.Spec.score (V c main_v57) (Cert.Spec.pick (V c main_v115) (V c main_v114)) (V c main_v116)) := by
  show (cfg5.win 8).cut (grid5.coords t) ((dat5 V c).after 8 t) = _
  rw [after5_8]
  unfold out5_8
  rw [View.canon_unit_zero hz]
  simp only [View.ld_unit_zero (S := S2000x256) hz, View.ld_unit_zero (S := S2000x1) hz, View.ld_unit_zero (S := S1x256) hz,
    View.ld_unit_zero (S := S64x256) hz, View.ld_unit_zero (S := S1x1) hz]
  funext j
  obtain ⟨p, z, rfl⟩ : ∃ (p : Fin 2000) (z : Fin 1), j = ix2 p z := ⟨j 0, j 1, eq_ix2 j⟩
  obtain rfl : z = 0 := Subsingleton.elim _ _
  show k5_pay3 (iblk5 V c 5 t) (iblk5 V c 6 t) (iblk5 V c 0 t) (iblk5 V c 7 t) (ix2 p 0) = _
  rw [pay3_eq, View.read_apply]
  obtain ⟨e0, e1⟩ := idx5_8 t
  generalize hk : ((View.whole main_v117_0).slice ((win5 8).rect t)).emb (ix2 p 0) = k
  have hk0 : (k 0).val = t.val * 2000 + p.val := by
    rw [← hk]; show win5_8.index t (0 : Fin 2) * 2000 + 1 * p.val = _; rw [e0]; omega
  rw [blk_tab V c t, blk_bb V c t]
  refine (score_rows _ (V c main_v57) _ (V c main_v115) _ _ p k (fun q => blk_h1 V c t p q (ix2 (k 0) q) hk0 rfl) (blk_id V c t p (ix2 (k 0) (0 : Fin 1)) hk0)).trans ?_
  rfl

/-- An index of the array is in point t's block iff each coordinate is in the block's range on its axis. -/
theorem mem_blk8 (t : Fin cfg5.N) (i : S50000x1.Idx) :
    i ∈ ((cfg5.win 8).blk t).view.set ↔ ∀ a : Fin 2, win5_8.index t a * S2000x1.size a ≤ (i a).val
      ∧ (i a).val < win5_8.index t a * S2000x1.size a + S2000x1.size a := by
  show i ∈ ((View.whole main_v117_0).slice (win5_8.rect t)).set ↔ _
  rw [View.set_slice_whole, Rect.mem_set_unit]
  exact Iff.rfl

/-- Every row is in the block of the point numbered by the row's quotient by 2000. -/
theorem cover8 (i : S50000x1.Idx) :
    ∃ t : Fin cfg5.N, (cfg5.win 8).flush t = true ∧ i ∈ ((cfg5.win 8).blk t).view.set := by
  have hi0 : (i 0).val < 50000 := (i 0).isLt
  have hi1 : (i 1).val < 1 := (i 1).isLt
  have hN : cfg5.N = 25 := N_5
  refine ⟨⟨(i 0).val / 2000, by rw [hN]; omega⟩, flush5_8 _, ?_⟩
  rw [mem_blk8]
  obtain ⟨e0, e1⟩ := idx5_8 ⟨(i 0).val / 2000, by rw [hN]; omega⟩
  intro a
  match a with
  | ⟨0, _⟩ =>
    show win5_8.index _ (0 : Fin 2) * 2000 ≤ (i 0).val ∧ (i 0).val < win5_8.index _ (0 : Fin 2) * 2000 + 2000
    rw [e0]; show (i 0).val / 2000 * 2000 ≤ (i 0).val ∧ (i 0).val < (i 0).val / 2000 * 2000 + 2000; omega
  | ⟨1, _⟩ =>
    show win5_8.index _ (1 : Fin 2) * 1 ≤ (i 1).val ∧ (i 1).val < win5_8.index _ (1 : Fin 2) * 1 + 1
    rw [e1]; omega
/-- What point t writes back to the second output is block t of the second score of the arrays the region finds. -/
theorem flushed9_eq (c : Dev nD) (t : Fin cfg5.N) :
    (dat5 (F := Ideal) V c).flushed 9 t = ((cfg5.win 9).blk t).view.read (Elt Ideal)
      (Cert.Spec.score (Cert.Spec.fin (V c main_v112) (V c main_v98_0) (V c main_v9) (V c main_v26)) (Cert.Spec.pick (V c main_v115) (V c main_v114)) (V c main_v116)) := by
  show (cfg5.win 9).cut (grid5.coords t) ((dat5 V c).after 9 t) = _
  rw [after5_9]
  unfold out5_9
  rw [View.canon_unit_zero hz]
  simp only [View.ld_unit_zero (S := S2000x256) hz, View.ld_unit_zero (S := S2000x1) hz, View.ld_unit_zero (S := S1x256) hz,
    View.ld_unit_zero (S := S64x256) hz, View.ld_unit_zero (S := S1x1) hz]
  funext j
  obtain ⟨p, z, rfl⟩ : ∃ (p : Fin 2000) (z : Fin 1), j = ix2 p z := ⟨j 0, j 1, eq_ix2 j⟩
  obtain rfl : z = 0 := Subsingleton.elim _ _
  show k5_pay1 (k5_pay4 (iblk5 V c 1 t) (iblk5 V c 3 t) (iblk5 V c 2 t) (iblk5 V c 4 t) (iblk5 V c 5 t) (iblk5 V c 6 t)) (iblk5 V c 7 t) (ix2 p 0) = _
  rw [pay14_eq, View.read_apply]
  obtain ⟨e0, e1⟩ := idx5_9 t
  generalize hk : ((View.whole main_v117_1).slice ((win5 9).rect t)).emb (ix2 p 0) = k
  have hk0 : (k 0).val = t.val * 2000 + p.val := by
    rw [← hk]; show win5_9.index t (0 : Fin 2) * 2000 + 1 * p.val = _; rw [e0]; omega
  rw [blk_tab V c t, blk_bb V c t, blk_b V c t]
  refine (score_rows _ (Cert.Spec.fin (V c main_v112) (V c main_v98_0) (V c main_v9) (V c main_v26)) _ (V c main_v115) _ _ p k (fun q => fin_rows _ _ _ _ _ _ _ p (k 0) q (blk_agg V c t p q (ix2 (k 0) q) hk0 rfl) (blk_hb V c t p q (ix2 (k 0) q) hk0 rfl) (blk_d V c t p (ix2 (k 0) (0 : Fin 1)) hk0)) (blk_id V c t p (ix2 (k 0) (0 : Fin 1)) hk0)).trans ?_
  rfl

/-- An index of the array is in point t's block iff each coordinate is in the block's range on its axis. -/
theorem mem_blk9 (t : Fin cfg5.N) (i : S50000x1.Idx) :
    i ∈ ((cfg5.win 9).blk t).view.set ↔ ∀ a : Fin 2, win5_9.index t a * S2000x1.size a ≤ (i a).val
      ∧ (i a).val < win5_9.index t a * S2000x1.size a + S2000x1.size a := by
  show i ∈ ((View.whole main_v117_1).slice (win5_9.rect t)).set ↔ _
  rw [View.set_slice_whole, Rect.mem_set_unit]
  exact Iff.rfl

/-- Every row is in the block of the point numbered by the row's quotient by 2000. -/
theorem cover9 (i : S50000x1.Idx) :
    ∃ t : Fin cfg5.N, (cfg5.win 9).flush t = true ∧ i ∈ ((cfg5.win 9).blk t).view.set := by
  have hi0 : (i 0).val < 50000 := (i 0).isLt
  have hi1 : (i 1).val < 1 := (i 1).isLt
  have hN : cfg5.N = 25 := N_5
  refine ⟨⟨(i 0).val / 2000, by rw [hN]; omega⟩, flush5_9 _, ?_⟩
  rw [mem_blk9]
  obtain ⟨e0, e1⟩ := idx5_9 ⟨(i 0).val / 2000, by rw [hN]; omega⟩
  intro a
  match a with
  | ⟨0, _⟩ =>
    show win5_9.index _ (0 : Fin 2) * 2000 ≤ (i 0).val ∧ (i 0).val < win5_9.index _ (0 : Fin 2) * 2000 + 2000
    rw [e0]; show (i 0).val / 2000 * 2000 ≤ (i 0).val ∧ (i 0).val < (i 0).val / 2000 * 2000 + 2000; omega
  | ⟨1, _⟩ =>
    show win5_9.index _ (1 : Fin 2) * 1 ≤ (i 1).val ∧ (i 1).val < win5_9.index _ (1 : Fin 2) * 1 + 1
    rw [e1]; omega

/-- Region 5, first output: the score of each node's row of h1 against the table row its graph id picks. -/
theorem out_sc1 (c : Dev nD) :
    (dat5 (F := Ideal) V c).arrAt 8 cfg5.N
      = Cert.Spec.score (V c main_v57) (Cert.Spec.pick (V c main_v115) (V c main_v114)) (V c main_v116) :=
  (dat5 (F := Ideal) V c).arrAt_eq_of_cover 8
    (Cert.Spec.score (V c main_v57) (Cert.Spec.pick (V c main_v115) (V c main_v114)) (V c main_v116))
    (fun t _ => flushed8_eq V c t) cover8

/-- Region 5, second output: the same score for the negative pass's last layer, finished inside the region. -/
theorem out_sc2 (c : Dev nD) :
    (dat5 (F := Ideal) V c).arrAt 9 cfg5.N
      = Cert.Spec.score (Cert.Spec.fin (V c main_v112) (V c main_v98_0) (V c main_v9) (V c main_v26))
          (Cert.Spec.pick (V c main_v115) (V c main_v114)) (V c main_v116) :=
  (dat5 (F := Ideal) V c).arrAt_eq_of_cover 9
    (Cert.Spec.score (Cert.Spec.fin (V c main_v112) (V c main_v98_0) (V c main_v9) (V c main_v26))
      (Cert.Spec.pick (V c main_v115) (V c main_v114)) (V c main_v116))
    (fun t _ => flushed9_eq V c t) cover9

end Cert.KernelIdeal.Reg5

end
-- ==== Proof.ChainB.lean ====
/-
  The kernel's two results at the end of @main: the negative pass and the pooled table computed as the reference computes
  them, the scores of region 5 read as the reference's scores when every graph id is one of the 64 row numbers.
-/
import proofs.«415712_j89103391523491_2_alg».proof.Proof.Gen.KernelIdeal.Frame
import proofs.«415712_j89103391523491_2_alg».proof.Proof.Gen.ReferenceIdeal.Read
import proofs.«415712_j89103391523491_2_alg».proof.Proof.Spec
import proofs.«415712_j89103391523491_2_alg».proof.Proof.RefStages
import proofs.«415712_j89103391523491_2_alg».proof.Proof.ChainA
import proofs.«415712_j89103391523491_2_alg».proof.Proof.ChainN
import proofs.«415712_j89103391523491_2_alg».proof.Proof.KLayout
import proofs.«415712_j89103391523491_2_alg».proof.Proof.KDot64
import proofs.«415712_j89103391523491_2_alg».proof.Proof.Reg3
import proofs.«415712_j89103391523491_2_alg».proof.Proof.Reg4
import proofs.«415712_j89103391523491_2_alg».proof.Proof.Reg5
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ChainB

open Cert.KernelIdeal Cert.KernelIdeal.Gen
open Cert.Spec (mm fin relu colOf rowOf flat colI one pick rows score)
open Idealize.ShloMosaic.StableHlo

variable (m : (ℓ : Loc nD τ sig) → Buf (Elt Ideal) ℓ) (ρ : Dev nD → PrngReg) (c : Dev nD)

open Cert.KernelIdeal.ChainA (a0 a1 a2 a3 a4 a5 a6 a7 a8 a9 a10)

/-! ## At region 5's entry: the host stretch after region 4 -/

/-- On the extended reals a widening of the float format keeps every entry. -/
private theorem extf_id {s : Shape} (x : FVec Ideal s .bf16) (h : FTy.bf16.bits < FTy.f32.bits) :
    (extf .f32 x h : FVec Ideal s .f32) = x := rfl

/-- h1, region 4's f32 output, the self-loop column and the second bias row are not written by the stretch. -/
theorem w11_v57 : W11 m ρ c (Proc.devRef .tc main_v57)
    = Cert.ReferenceIdeal.Read.val_main_v82 (F := Ideal) (a0 m c) (a1 m c) (a2 m c) (a3 m c) (a4 m c) (a7 m c) (a8 m c) := by
  refine Eq.trans ?_ (ChainN.w10_v57 m ρ c)
  show StableHlo.after hostOps5 (W10 m ρ c) (Proc.devRef .tc main_v57) = _
  after_results_simp

theorem w11_v98_0 : W11 m ρ c (Proc.devRef .tc main_v98_0)
    = Cert.ReferenceIdeal.Read.val_main_v146 (F := Ideal) (a0 m c) (a1 m c) (a2 m c) (a3 m c) (a7 m c) (a8 m c) (a10 m c) := by
  refine Eq.trans ?_ (ChainN.w10_v98_0 m ρ c)
  show StableHlo.after hostOps5 (W10 m ρ c) (Proc.devRef .tc main_v98_0) = _
  after_results_simp

theorem w11_v9 : W11 m ρ c (Proc.devRef .tc main_v9) = colOf (Cert.ReferenceIdeal.Read.val_main_v175 (F := Ideal) (a8 m c)) := by
  refine Eq.trans ?_ ((ChainN.w10_v9 m ρ c).trans (show colOf (Cert.ReferenceIdeal.Read.val_main_v37 (F := Ideal) (a8 m c)) = colOf (Cert.ReferenceIdeal.Read.val_main_v175 (F := Ideal) (a8 m c)) from rfl))
  show StableHlo.after hostOps5 (W10 m ρ c) (Proc.devRef .tc main_v9) = _
  after_results_simp

theorem w11_v26 : W11 m ρ c (Proc.devRef .tc main_v26)
    = rowOf (a4 m c) := by
  refine Eq.trans ?_ (ChainN.w10_v26 m ρ c)
  show StableHlo.after hostOps5 (W10 m ρ c) (Proc.devRef .tc main_v26) = _
  after_results_simp

/-- The second aggregate of the negative pass: the rows of region 4's output (its bf16 copy, widened back) gathered at
    the edges' sources, weighted, and added up at the edges' targets, which is the reference's stage operation by
    operation. -/
theorem w11_v112 : W11 m ρ c (Proc.devRef .tc main_v112)
    = Cert.ReferenceIdeal.Read.val_main_v174 (F := Ideal) (a0 m c) (a1 m c) (a2 m c) (a3 m c) (a7 m c) (a8 m c) (a10 m c) := by
  show StableHlo.after hostOps5 (W10 m ρ c) (Proc.devRef .tc main_v112) = _
  after_results_simp
  rw [ChainN.w10_v98_1 m ρ c, ChainN.w10_v24 m ρ c, ChainN.w10_arg7 m ρ c, ChainN.w10_arg8 m ρ c, extf_id]
  rfl

/-- The pooled table times Wbᵀ. -/
theorem w11_v114 : W11 m ρ c (Proc.devRef .tc main_v114)
    = mm (Cert.ReferenceIdeal.Read.val_main_v100 (F := Ideal) (a0 m c) (a1 m c) (a2 m c) (a3 m c) (a4 m c) (a7 m c) (a8 m c) (a9 m c)) (Cert.ReferenceIdeal.Read.val_main_v190 (F := Ideal) (a5 m c)) := by
  show StableHlo.after hostOps5 (W10 m ρ c) (Proc.devRef .tc main_v114) = _
  after_results_simp
  rw [ChainN.w10_v75 m ρ c, ChainN.w10_arg5 m ρ c]
  exact Cert.KernelIdeal.KDot64.dot64_eq _ _

/-- The graph ids as a column of words. -/
theorem w11_v115 : W11 m ρ c (Proc.devRef .tc main_v115) = colI (a9 m c) := by
  show StableHlo.after hostOps5 (W10 m ρ c) (Proc.devRef .tc main_v115) = _
  after_results_simp
  rw [ChainN.w10_arg9 m ρ c]
  exact Cert.KernelIdeal.KLayout.colI_eq _

/-- The scalar bias as a 1 × 1 array. -/
theorem w11_v116 : W11 m ρ c (Proc.devRef .tc main_v116) = one (a6 m c) := by
  show StableHlo.after hostOps5 (W10 m ρ c) (Proc.devRef .tc main_v116) = _
  after_results_simp
  rw [ChainN.w10_arg6 m ρ c]
  exact Cert.KernelIdeal.KLayout.one_eq _

/-! ## At region 5's exit -/

/-- h1 is an input of region 5: it leaves the region as it entered. -/
theorem w12_v57 : W12 m ρ c (Proc.devRef .tc main_v57)
    = Cert.ReferenceIdeal.Read.val_main_v82 (F := Ideal) (a0 m c) (a1 m c) (a2 m c) (a3 m c) (a4 m c) (a7 m c) (a8 m c) :=
  ((W12_arr m ρ c 0).trans (((dat5 (V11 m ρ) c).arrAt_in 0 rfl _).trans (A_eq5 (V11 m ρ) c 0))).trans (w11_v57 m ρ c)

/-- The positive scores: h1's rows against the table rows the graph ids pick. -/
theorem w12_v117_0 : W12 m ρ c (Proc.devRef .tc main_v117_0)
    = score (Cert.ReferenceIdeal.Read.val_main_v82 (F := Ideal) (a0 m c) (a1 m c) (a2 m c) (a3 m c) (a4 m c) (a7 m c) (a8 m c)) (pick (colI (a9 m c)) (mm (Cert.ReferenceIdeal.Read.val_main_v100 (F := Ideal) (a0 m c) (a1 m c) (a2 m c) (a3 m c) (a4 m c) (a7 m c) (a8 m c) (a9 m c)) (Cert.ReferenceIdeal.Read.val_main_v190 (F := Ideal) (a5 m c)))) (one (a6 m c)) := by
  refine (W12_arr m ρ c 8).trans ((Cert.KernelIdeal.Reg5.out_sc1 (V11 m ρ) c).trans ?_)
  show score (W11 m ρ c (Proc.devRef .tc main_v57)) (pick (W11 m ρ c (Proc.devRef .tc main_v115)) (W11 m ρ c (Proc.devRef .tc main_v114))) (W11 m ρ c (Proc.devRef .tc main_v116)) = _
  rw [w11_v57 m ρ c, w11_v115 m ρ c, w11_v114 m ρ c, w11_v116 m ρ c]

/-- The negative scores: the negative pass's second layer, finished inside the region, is the reference's h2. -/
theorem w12_v117_1 : W12 m ρ c (Proc.devRef .tc main_v117_1)
    = score (Cert.ReferenceIdeal.Read.val_main_v182 (F := Ideal) (a0 m c) (a1 m c) (a2 m c) (a3 m c) (a4 m c) (a7 m c) (a8 m c) (a10 m c)) (pick (colI (a9 m c)) (mm (Cert.ReferenceIdeal.Read.val_main_v100 (F := Ideal) (a0 m c) (a1 m c) (a2 m c) (a3 m c) (a4 m c) (a7 m c) (a8 m c) (a9 m c)) (Cert.ReferenceIdeal.Read.val_main_v190 (F := Ideal) (a5 m c)))) (one (a6 m c)) := by
  refine (W12_arr m ρ c 9).trans ((Cert.KernelIdeal.Reg5.out_sc2 (V11 m ρ) c).trans ?_)
  show score (fin (W11 m ρ c (Proc.devRef .tc main_v112)) (W11 m ρ c (Proc.devRef .tc main_v98_0)) (W11 m ρ c (Proc.devRef .tc main_v9)) (W11 m ρ c (Proc.devRef .tc main_v26)))
      (pick (W11 m ρ c (Proc.devRef .tc main_v115)) (W11 m ρ c (Proc.devRef .tc main_v114))) (W11 m ρ c (Proc.devRef .tc main_v116)) = _
  rw [w11_v112 m ρ c, w11_v98_0 m ρ c, w11_v9 m ρ c, w11_v26 m ρ c, w11_v115 m ρ c, w11_v114 m ρ c, w11_v116 m ρ c,
    ← Cert.ReferenceIdeal.Stages.st_v182 (a0 m c) (a1 m c) (a2 m c) (a3 m c) (a4 m c) (a7 m c) (a8 m c) (a10 m c)]

/-! ## At the end of @main -/

/-- The first result before the stages are named: the two score columns flattened and joined. -/
theorem w13_v120_raw : W13 m ρ c (Proc.devRef .tc main_v120)
    = concatenate S100000 0 [⟨S50000, flat (W12 m ρ c (Proc.devRef .tc main_v117_0) : FVec Ideal S50000x1 .f32)⟩,
        ⟨S50000, flat (W12 m ρ c (Proc.devRef .tc main_v117_1) : FVec Ideal S50000x1 .f32)⟩] concatenates_S50000_S50000_S100000_d0 := by
  show StableHlo.after hostOps6 (W12 m ρ c) (Proc.devRef .tc main_v120) = _
  after_results
  rw [← Cert.KernelIdeal.KLayout.flat_eq, ← Cert.KernelIdeal.KLayout.flat_eq]
  rfl

/-- The second result, h1, ends at the reference's stage. -/
theorem w13_v57 : W13 m ρ c (Proc.devRef .tc main_v57)
    = Cert.ReferenceIdeal.Read.val_main_v82 (F := Ideal) (a0 m c) (a1 m c) (a2 m c) (a3 m c) (a4 m c) (a7 m c) (a8 m c) := by
  refine Eq.trans ?_ (w12_v57 m ρ c)
  show StableHlo.after hostOps6 (W12 m ρ c) (Proc.devRef .tc main_v57) = _
  after_results

/-- The first result, the two score vectors joined, ends at the reference's stage, when every graph id is a row number. -/
theorem w13_v120 (hb : ∀ r : Fin 50000, ((a9 m c : IVec S50000 32) (ix1 r)).toNat < 64) :
    W13 m ρ c (Proc.devRef .tc main_v120)
      = Cert.ReferenceIdeal.Read.val_main_v200 (F := Ideal) (a0 m c) (a1 m c) (a2 m c) (a3 m c) (a4 m c) (a5 m c) (a6 m c) (a7 m c) (a8 m c) (a9 m c) (a10 m c) := by
  rw [w13_v120_raw m ρ c, w12_v117_0 m ρ c, w12_v117_1 m ρ c,
    ← Cert.ReferenceIdeal.Stages.st_v195 (a0 m c) (a1 m c) (a2 m c) (a3 m c) (a4 m c) (a5 m c) (a6 m c) (a7 m c) (a8 m c) (a9 m c) hb,
    ← Cert.ReferenceIdeal.Stages.st_v199 (a0 m c) (a1 m c) (a2 m c) (a3 m c) (a4 m c) (a5 m c) (a6 m c) (a7 m c) (a8 m c) (a9 m c) (a10 m c) hb]
  rfl

end Cert.KernelIdeal.ChainB

end
-- ==== Proof.PreDecode.lean ====
/-
  What the precondition says of the graph ids: the printed predicate's last conjunct is "every id is ≥ 0 and < 64" as
  signed 32-bit comparisons; a word that is non-negative as a signed number reads the same signed and unsigned, so the
  id's value as a natural number is below 64.
-/
import proofs.«415712_j89103391523491_2_alg».proof.Defs
import proofs.«415712_j89103391523491_2_alg».proof.Proof.Gen.Pre_finite_inputs
import Idealize.ShloMosaic.Lib.ReduceAll
import Idealize.ShloMosaic.Lib.ValueIdx

noncomputable section

open Idealize.ShloMosaic Idealize.ShloMosaic.ValueIdx Idealize.SL.Sem

namespace Cert.PreDecode

open Cert.Pre_finite_inputs

instance : Subsingleton S_.Idx := ⟨fun a b => funext fun d => d.elim0⟩

/-- A word that is ≥ 0 and < 64 as a signed number has a value below 64. -/
theorem word_lt (v : BitVec 32) (hge : IntOp.cmpi .sge v 0#32 = 1#1) (hlt : IntOp.cmpi .slt v 64#32 = 1#1) : v.toNat < 64 := by
  rw [IntOp.cmpi_sge] at hge
  rw [IntOp.cmpi_slt] at hlt
  have h0 : (0#32 : BitVec 32).toInt = 0 := by decide
  have h64 : (64#32 : BitVec 32).toInt = 64 := by decide
  rw [h0] at hge
  rw [h64] at hlt
  have hm : v.msb = false := by
    rw [BitVec.msb_eq_false_iff_two_mul_lt]
    exact BitVec.toInt_pos_iff.mp hge
  have hv : v.toInt = (v.toNat : Int) := by
    rw [BitVec.toInt_eq_msb_cond, hm]; simp
  rw [hv] at hlt
  exact_mod_cast hlt

/-- The printed precondition all ones: every graph id's word value is below 64. -/
theorem ids_lt (x0 : FVec Ideal S50000x128 .f32) (x1 : FVec Ideal S128x256 .f32) (x2 : FVec Ideal S256 .f32)
    (x3 : FVec Ideal S256x256 .f32) (x4 : FVec Ideal S256 .f32) (x5 : FVec Ideal S256x256 .f32) (x6 : FVec Ideal S_ .f32)
    (x7 x8 : IVec S800000 32) (x9 x10 : IVec S50000 32)
    (h : fn (F := Ideal) x0 x1 x2 x3 x4 x5 x6 x7 x8 x9 x10 = fun _ => 1#1) (r : Fin 50000) :
    (x9 (ix1 r)).toNat < 64 := by
  have h0 := congrFun h ix0
  dsimp only [fn, fn_part1, fn_part2] at h0
  obtain ⟨-, h38⟩ := IntOp.andi_eq_one.1 h0
  have hr := Host.reduce_andi_all _ _ _ _ _ h38 (ix1 r)
  obtain ⟨hge, hlt⟩ := IntOp.andi_eq_one.1 hr
  exact word_lt _ hge hlt

/-- The same of the kernel program's precondition on a memory. -/
theorem batch_lt (m : (ℓ : Loc Cert.KernelIdeal.nD Cert.KernelIdeal.τ Cert.KernelIdeal.sig) → Buf (Elt Ideal) ℓ)
    (hpre : Cert.Pre_KernelIdeal m) (c : Dev Cert.KernelIdeal.nD) (r : Fin 50000) :
    ((m ((c.tc : Thread Cert.KernelIdeal.nD Cert.KernelIdeal.τ).loc Cert.KernelIdeal.main_arg9) : IVec S50000 32) (ix1 r)).toNat < 64 :=
  ids_lt _ _ _ _ _ _ _ _ _ _ _ (hpre c) r

end Cert.PreDecode

end
-- ==== Proof.lean ====
/-
  Two layers of a graph network, run on the features and on a permutation of them, a per-graph mean of the first result
  squashed into a 64-row table, and two vectors of bilinear scores.  The kernel computes the two matrix products and the
  layer finishes in tiled regions (25 row blocks of 2000 nodes) and everything that gathers or scatters by an index on
  the host, exactly as the reference does; at the extended reals a change of float format is the identity, so the tiled
  products and finishes are the reference's, array by array.  The one place the two programs differ is the table row a
  node's score uses: the reference gathers row `batch[i]` of the table and multiplies by Wbᵀ; the kernel multiplies the
  indicator row "g = batch[i]" into table · Wbᵀ.  For 0 ≤ batch[i] < 64 both are Σ_k table(batch[i], k) · Wb(j, k):
  the indicator sum keeps one term (0 · x = 0 and 1 · x = x hold for every extended real), and picking a row commutes
  with the product.  Outside that range the reference's gather clamps or wraps the id while the indicator row is zero,
  so the claim is stated for ids in range (the precondition's last conjunct), which is where the reference's own
  indexing is in range.
  The frames of the two kernel programs are the generated ones; the reference's is its generated run; no rewrite was
  sanctioned by the ideal pass, so `preserves` is `True`.
-/
import proofs.«415712_j89103391523491_2_alg».proof.Defs
import proofs.«415712_j89103391523491_2_alg».proof.Proof.Gen.Kernel
import proofs.«415712_j89103391523491_2_alg».proof.Proof.Gen.Kernel.Skeleton
import proofs.«415712_j89103391523491_2_alg».proof.Proof.Gen.Kernel.Launch
import proofs.«415712_j89103391523491_2_alg».proof.Proof.Gen.Kernel.Points
import proofs.«415712_j89103391523491_2_alg».proof.Proof.Gen.Kernel.Frame
import proofs.«415712_j89103391523491_2_alg».proof.Proof.Gen.KernelIdeal
import proofs.«415712_j89103391523491_2_alg».proof.Proof.Gen.KernelIdeal.Skeleton
import proofs.«415712_j89103391523491_2_alg».proof.Proof.Gen.KernelIdeal.Launch
import proofs.«415712_j89103391523491_2_alg».proof.Proof.Gen.KernelIdeal.Points
import proofs.«415712_j89103391523491_2_alg».proof.Proof.Gen.KernelIdeal.Frame
import proofs.«415712_j89103391523491_2_alg».proof.Proof.Gen.ReferenceIdeal
import proofs.«415712_j89103391523491_2_alg».proof.Proof.Gen.Pre_finite_inputs
import proofs.«415712_j89103391523491_2_alg».proof.Proof.Gen.ReferenceIdeal.Run
import proofs.«415712_j89103391523491_2_alg».proof.Proof.Gen.ReferenceIdeal.Read
import proofs.«415712_j89103391523491_2_alg».proof.Proof.KernelRun
import proofs.«415712_j89103391523491_2_alg».proof.Proof.ChainB
import proofs.«415712_j89103391523491_2_alg».proof.Proof.PreDecode
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does its reading at the extended reals. -/
theorem frame_ki : Cert.frame_KernelIdeal := fun m ρ _ => Cert.KernelIdeal.Gen.frame m ρ

/-- The reference runs and keeps its arguments: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the scores at the reference's last stage of the arguments and h1 at its second-layer stage:
    the kernel's buffers walk through @main to those stages (the ids in range by the precondition), and the reference's
    run states them. -/
theorem algebraic : Cert.algebraic_KernelIdeal_ReferenceIdeal := by
  intro m ρ m' ρ' hpre hagree
  refine ⟨fun c => Cert.ReferenceIdeal.Read.val_main_v200 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Results.run_results (F := Ideal) m ρ)
    obtain ⟨h120, h57, hargs⟩ := h c
    exact ⟨h120.trans (Cert.KernelIdeal.ChainB.w13_v120 m ρ c (Cert.PreDecode.batch_lt m hpre c)),
      h57.trans (Cert.KernelIdeal.ChainB.w13_v57 m ρ c), hargs⟩
  · refine (θ_run Cert.ReferenceIdeal.defs _ _).mono (fun r h c => ?_) (Cert.ReferenceIdeal.Value.run (F := Ideal) m' ρ')
    obtain ⟨h200, h82, hargs⟩ := h c
    obtain ⟨e0, e1, e2, e3, e4, e5, e6, e7, e8, e9, e10⟩ := hagree c
    refine ⟨h200.trans ?_, h82.trans ?_, hargs⟩
    · rw [Cert.ReferenceIdeal.Read.val_main_v200_eq, e0, e1, e2, e3, e4, e5, e6, e7, e8, e9, e10]
    · rw [Cert.ReferenceIdeal.Read.val_main_v82_eq, e0, e1, e2, e3, e4, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
